-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v92)) (v1 : (c : Dev Cert.KernelIdeal.nD) → Buf (Elt Ideal) ((c.tc : Thread Cert.KernelIdeal.nD Cert.KernelIdeal.τ).loc Cert.KernelIdeal.main_v80)) (v2 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v92) = v0 c
          ∧ r.2.mem ((c.tc : Thread Cert.KernelIdeal.nD Cert.KernelIdeal.τ).loc Cert.KernelIdeal.main_v80) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v142) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S15x64 : Shape := ⟨2, ![15, 64]⟩
abbrev S30000x2048 : Shape := ⟨2, ![30000, 2048]⟩
abbrev S30000x768 : Shape := ⟨2, ![30000, 768]⟩
abbrev S2048x64 : Shape := ⟨2, ![2048, 64]⟩
abbrev S64 : Shape := ⟨1, ![64]⟩
abbrev S768x64 : Shape := ⟨2, ![768, 64]⟩
abbrev S64x1 : Shape := ⟨2, ![64, 1]⟩
abbrev S2x2000000 : Shape := ⟨2, ![2, 2000000]⟩
abbrev S2000000 : Shape := ⟨1, ![2000000]⟩
abbrev S4096 : Shape := ⟨1, ![4096]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S15x64 : S_.BroadcastsInDim S15x64 (![] : Fin 0 → Fin S15x64.rank)
  reducesTo_S15x64_S_d0_1 : S15x64.ReducesTo [0, 1] S_
  bcast_S_S30000x2048 : S_.BroadcastsInDim S30000x2048 (![] : Fin 0 → Fin S30000x2048.rank)
  reducesTo_S30000x2048_S_d0_1 : S30000x2048.ReducesTo [0, 1] S_
  bcast_S_S30000x768 : S_.BroadcastsInDim S30000x768 (![] : Fin 0 → Fin S30000x768.rank)
  reducesTo_S30000x768_S_d0_1 : S30000x768.ReducesTo [0, 1] S_
  bcast_S_S2048x64 : S_.BroadcastsInDim S2048x64 (![] : Fin 0 → Fin S2048x64.rank)
  reducesTo_S2048x64_S_d0_1 : S2048x64.ReducesTo [0, 1] S_
  bcast_S_S64 : S_.BroadcastsInDim S64 (![] : Fin 0 → Fin S64.rank)
  reducesTo_S64_S_d0 : S64.ReducesTo [0] S_
  bcast_S_S768x64 : S_.BroadcastsInDim S768x64 (![] : Fin 0 → Fin S768x64.rank)
  reducesTo_S768x64_S_d0_1 : S768x64.ReducesTo [0, 1] S_
  bcast_S_S64x1 : S_.BroadcastsInDim S64x1 (![] : Fin 0 → Fin S64x1.rank)
  reducesTo_S64x1_S_d0_1 : S64x1.ReducesTo [0, 1] S_
  bcast_S_S2000000 : S_.BroadcastsInDim S2000000 (![] : Fin 0 → Fin S2000000.rank)
  reducesTo_S2000000_S_d0 : S2000000.ReducesTo [0] S_

variable [Facts]

def fn_part2 {F : FTy → Type} [FloatOps F] (main_arg7 : FVec F S64 .f32) (main_arg8 : FVec F S64x1 .f32) (main_arg10 : IVec S2000000 32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_c_16 : IVec S_ 32 := constantI S_ 32 1#32
  let main_v44 : IVec S2000000 32 := broadcastInDim S2000000 ![] bcast_S_S2000000 main_c_16
  let main_v45 : IVec S2000000 1 := cmpi .sge main_arg10 main_v44
  let main_c_17 : IVec S_ 32 := constantI S_ 32 15#32
  let main_v46 : IVec S2000000 32 := broadcastInDim S2000000 ![] bcast_S_S2000000 main_c_17
  let main_v47 : IVec S2000000 1 := cmpi .sle main_arg10 main_v46
  let main_v48 : IVec S2000000 1 := andi main_v45 main_v47
  let main_c_18 : IVec S_ 1 := constantI S_ 1 1#1
  let main_v49 : IVec S_ 1 := (fun x v => Host.reduce IntOp.andi x v reducesTo_S2000000_S_d0 h_S_) main_v48 main_c_18
  let main_v50 : IVec S_ 1 := andi main_v43 main_v49
  main_v50

def fn_part1 {F : FTy → Type} [FloatOps F] (main_arg4 : FVec F S2048x64 .f32) (main_arg5 : FVec F S64 .f32) (main_arg6 : FVec F S768x64 .f32) (main_arg7 : FVec F S64 .f32) (main_arg8 : FVec F S64x1 .f32) (main_arg10 : IVec S2000000 32) (main_v13 : IVec S_ 1) (main_v16 : IVec S30000x768 1) : IVec S_ 1 :=
  let main_c_5 : IVec S_ 1 := constantI S_ 1 1#1
  let main_v17 : IVec S_ 1 := (fun x v => Host.reduce IntOp.andi x v reducesTo_S30000x768_S_d0_1 h_S_) main_v16 main_c_5
  let main_v18 : IVec S_ 1 := andi main_v13 main_v17
  let main_v19 : FVec F S2048x64 .f32 := Host.absf main_arg4
  let main_cst_6 : FVec F S_ .f32 := constant S_ .f32 0x7F800000#32
  let main_v20 : FVec F S2048x64 .f32 := broadcastInDim S2048x64 ![] bcast_S_S2048x64 main_cst_6
  let main_v21 : IVec S2048x64 1 := cmpf .olt main_v19 main_v20
  let main_c_7 : IVec S_ 1 := constantI S_ 1 1#1
  let main_v22 : IVec S_ 1 := (fun x v => Host.reduce IntOp.andi x v reducesTo_S2048x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S768x64 .f32 := Host.absf main_arg6
  let main_cst_10 : FVec F S_ .f32 := constant S_ .f32 0x7F800000#32
  let main_v30 : FVec F S768x64 .f32 := broadcastInDim S768x64 ![] bcast_S_S768x64 main_cst_10
  let main_v31 : IVec S768x64 1 := cmpf .olt main_v29 main_v30
  let main_c_11 : IVec S_ 1 := constantI S_ 1 1#1
  let main_v32 : IVec S_ 1 := (fun x v => Host.reduce IntOp.andi x v reducesTo_S768x64_S_d0_1 h_S_) main_v31 main_c_11
  let main_v33 : IVec S_ 1 := andi main_v28 main_v32
  fn_part2 (F := F) main_arg7 main_arg8 main_arg10 main_v33

def fn {F : FTy → Type} [FloatOps F] (main_arg0 : FVec F S100000x64 .f32) (main_arg1 : FVec F S15x64 .f32) (main_arg2 : FVec F S30000x2048 .f32) (main_arg3 : FVec F S30000x768 .f32) (main_arg4 : FVec F S2048x64 .f32) (main_arg5 : FVec F S64 .f32) (main_arg6 : FVec F S768x64 .f32) (main_arg7 : FVec F S64 .f32) (main_arg8 : FVec F S64x1 .f32) (main_arg9 : IVec S2x2000000 32) (main_arg10 : IVec S2000000 32) (main_arg11 : IVec S4096 32) (main_arg12 : IVec S4096 32) (main_arg13 : IVec S4096 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S15x64 .f32 := Host.absf main_arg1
  let main_cst_0 : FVec F S_ .f32 := constant S_ .f32 0x7F800000#32
  let main_v5 : FVec F S15x64 .f32 := broadcastInDim S15x64 ![] bcast_S_S15x64 main_cst_0
  let main_v6 : IVec S15x64 1 := cmpf .olt main_v4 main_v5
  let main_c_1 : IVec S_ 1 := constantI S_ 1 1#1
  let main_v7 : IVec S_ 1 := (fun x v => Host.reduce IntOp.andi x v reducesTo_S15x64_S_d0_1 h_S_) main_v6 main_c_1
  let main_v8 : IVec S_ 1 := andi main_v3 main_v7
  let main_v9 : FVec F S30000x2048 .f32 := Host.absf main_arg2
  let main_cst_2 : FVec F S_ .f32 := constant S_ .f32 0x7F800000#32
  let main_v10 : FVec F S30000x2048 .f32 := broadcastInDim S30000x2048 ![] bcast_S_S30000x2048 main_cst_2
  let main_v11 : IVec S30000x2048 1 := cmpf .olt main_v9 main_v10
  let main_c_3 : IVec S_ 1 := constantI S_ 1 1#1
  let main_v12 : IVec S_ 1 := (fun x v => Host.reduce IntOp.andi x v reducesTo_S30000x2048_S_d0_1 h_S_) main_v11 main_c_3
  let main_v13 : IVec S_ 1 := andi main_v8 main_v12
  let main_v14 : FVec F S30000x768 .f32 := Host.absf main_arg3
  let main_cst_4 : FVec F S_ .f32 := constant S_ .f32 0x7F800000#32
  let main_v15 : FVec F S30000x768 .f32 := broadcastInDim S30000x768 ![] bcast_S_S30000x768 main_cst_4
  let main_v16 : IVec S30000x768 1 := cmpf .olt main_v14 main_v15
  fn_part1 (F := F) main_arg4 main_arg5 main_arg6 main_arg7 main_arg8 main_arg10 main_v13 main_v16
-- ==== Kernel.lean ====
abbrev S100000x64 : Shape := ⟨2, ![100000, 64]⟩
abbrev S15x64 : Shape := ⟨2, ![15, 64]⟩
abbrev S30000x2048 : Shape := ⟨2, ![30000, 2048]⟩
abbrev S30000x768 : Shape := ⟨2, ![30000, 768]⟩
abbrev S2048x64 : Shape := ⟨2, ![2048, 64]⟩
abbrev S64 : Shape := ⟨1, ![64]⟩
abbrev S768x64 : Shape := ⟨2, ![768, 64]⟩
abbrev S64x1 : Shape := ⟨2, ![64, 1]⟩
abbrev S2x2000000 : Shape := ⟨2, ![2, 2000000]⟩
abbrev S2000000 : Shape := ⟨1, ![2000000]⟩
abbrev S4096 : Shape := ⟨1, ![4096]⟩
abbrev S30000x64 : Shape := ⟨2, ![30000, 64]⟩
abbrev S1000x2048 : Shape := ⟨2, ![1000, 2048]⟩
abbrev S1000x768 : Shape := ⟨2, ![1000, 768]⟩
abbrev S1000x64 : Shape := ⟨2, ![1000, 64]⟩
abbrev S1x64 : Shape := ⟨2, ![1, 64]⟩
abbrev S1000x1 : Shape := ⟨2, ![1000, 1]⟩
abbrev S1x2000000 : Shape := ⟨2, ![1, 2000000]⟩
abbrev S_ : Shape := ⟨0, ![]⟩
abbrev S2000000x1 : Shape := ⟨2, ![2000000, 1]⟩
abbrev S100000 : Shape := ⟨1, ![100000]⟩
abbrev S100000x1 : Shape := ⟨2, ![100000, 1]⟩
abbrev S2000000x64 : Shape := ⟨2, ![2000000, 64]⟩
abbrev S8000x64 : Shape := ⟨2, ![8000, 64]⟩
abbrev S8000x1 : Shape := ⟨2, ![8000, 1]⟩
abbrev S8000x15 : Shape := ⟨2, ![8000, 15]⟩
abbrev S4000x64 : Shape := ⟨2, ![4000, 64]⟩
abbrev S4000x1 : Shape := ⟨2, ![4000, 1]⟩
abbrev S4000 : Shape := ⟨1, ![4000]⟩
abbrev S4096x1 : Shape := ⟨2, ![4096, 1]⟩
abbrev S4096x64 : Shape := ⟨2, ![4096, 64]⟩

abbrev nBuf : Space → Nat
  | .hbm => 154
  | .vmem => 62
  | .smem => 0
  | _ => 0

abbrev hbmTy0_0 (i : Nat) : BufTy := match i % 128 with
  | 0 => ⟨S100000x64, .f32⟩
  | 1 => ⟨S15x64, .f32⟩
  | 2 => ⟨S30000x2048, .f32⟩
  | 3 => ⟨S30000x768, .f32⟩
  | 4 => ⟨S2048x64, .f32⟩
  | 5 => ⟨S64, .f32⟩
  | 6 => ⟨S768x64, .f32⟩
  | 7 => ⟨S64, .f32⟩
  | 8 => ⟨S64x1, .f32⟩
  | 9 => ⟨S2x2000000, .i32⟩
  | 10 => ⟨S2000000, .i32⟩
  | 11 => ⟨S4096, .i32⟩
  | 12 => ⟨S4096, .i32⟩
  | 13 => ⟨S4096, .i32⟩
  | 14 => ⟨S30000x64, .f32⟩
  | 15 => ⟨S1x2000000, .i32⟩
  | 16 => ⟨S2000000, .i32⟩
  | 17 => ⟨S1x2000000, .i32⟩
  | 18 => ⟨S2000000, .i32⟩
  | 19 => ⟨S_, .i32⟩
  | 20 => ⟨S2000000, .i32⟩
  | 21 => ⟨S2000000, .i32⟩
  | 22 => ⟨S2000000x1, .i32⟩
  | 23 => ⟨S_, .f32⟩
  | 24 => ⟨S2000000, .f32⟩
  | 25 => ⟨S_, .f32⟩
  | 26 => ⟨S100000, .f32⟩
  | 27 => ⟨S2000000x1, .i32⟩
  | 28 => ⟨S100000, .f32⟩
  | 29 => ⟨S_, .f32⟩
  | 30 => ⟨S100000, .f32⟩
  | 31 => ⟨S100000, .f32⟩
  | 32 => ⟨S100000x1, .f32⟩
  | 33 => ⟨S_, .i32⟩
  | 34 => ⟨S2000000, .i32⟩
  | 35 => ⟨S2000000, .i1⟩
  | 36 => ⟨S_, .i32⟩
  | 37 => ⟨S2000000, .i32⟩
  | 38 => ⟨S2000000, .i32⟩
  | 39 => ⟨S2000000, .i32⟩
  | 40 => ⟨S2000000x1, .i32⟩
  | 41 => ⟨S2000000x64, .f32⟩
  | 42 => ⟨S2000000x64, .f32⟩
  | 43 => ⟨S_, .f32⟩
  | 44 => ⟨S100000x64, .f32⟩
  | 45 => ⟨S2000000x1, .i32⟩
  | 46 => ⟨S100000x64, .f32⟩
  | 47 => ⟨S100000x64, .f32⟩
  | 48 => ⟨S100000x64, .f32⟩
  | 49 => ⟨S_, .i32⟩
  | 50 => ⟨S2000000, .i32⟩
  | 51 => ⟨S2000000, .i1⟩
  | 52 => ⟨S_, .i32⟩
  | 53 => ⟨S2000000, .i32⟩
  | 54 => ⟨S2000000, .i32⟩
  | 55 => ⟨S2000000, .i32⟩
  | 56 => ⟨S2000000x1, .i32⟩
  | 57 => ⟨S2000000x64, .f32⟩
  | 58 => ⟨S2000000x64, .f32⟩
  | 59 => ⟨S_, .f32⟩
  | 60 => ⟨S100000x64, .f32⟩
  | 61 => ⟨S2000000x1, .i32⟩
  | 62 => ⟨S100000x64, .f32⟩
  | 63 => ⟨S100000x64, .f32⟩
  | 64 => ⟨S100000x64, .f32⟩
  | 65 => ⟨S_, .i32⟩
  | 66 => ⟨S2000000, .i32⟩
  | 67 => ⟨S2000000, .i1⟩
  | 68 => ⟨S_, .i32⟩
  | 69 => ⟨S2000000, .i32⟩
  | 70 => ⟨S2000000, .i32⟩
  | 71 => ⟨S2000000, .i32⟩
  | 72 => ⟨S2000000x1, .i32⟩
  | 73 => ⟨S2000000x64, .f32⟩
  | 74 => ⟨S2000000x64, .f32⟩
  | 75 => ⟨S_, .f32⟩
  | 76 => ⟨S100000x64, .f32⟩
  | 77 => ⟨S2000000x1, .i32⟩
  | 78 => ⟨S100000x64, .f32⟩
  | 79 => ⟨S100000x64, .f32⟩
  | 80 => ⟨S100000x64, .f32⟩
  | 81 => ⟨S_, .i32⟩
  | 82 => ⟨S4096, .i32⟩
  | 83 => ⟨S4096, .i1⟩
  | 84 => ⟨S_, .i32⟩
  | 85 => ⟨S4096, .i32⟩
  | 86 => ⟨S4096, .i32⟩
  | 87 => ⟨S4096, .i32⟩
  | 88 => ⟨S4096x1, .i32⟩
  | 89 => ⟨S4096x64, .f32⟩
  | 90 => ⟨S_, .i32⟩
  | 91 => ⟨S4096, .i32⟩
  | 92 => ⟨S4096, .i1⟩
  | 93 => ⟨S_, .i32⟩
  | 94 => ⟨S4096, .i32⟩
  | 95 => ⟨S4096, .i32⟩
  | 96 => ⟨S4096, .i32⟩
  | 97 => ⟨S4096x1, .i32⟩
  | 98 => ⟨S4096x64, .f32⟩
  | 99 => ⟨S_, .i32⟩
  | 100 => ⟨S4096, .i32⟩
  | 101 => ⟨S4096, .i1⟩
  | 102 => ⟨S_, .i32⟩
  | 103 => ⟨S4096, .i32⟩
  | 104 => ⟨S4096, .i32⟩
  | 105 => ⟨S4096, .i32⟩
  | 106 => ⟨S4096x1, .i32⟩
  | 107 => ⟨S4096x64, .f32⟩
  | 108 => ⟨S4096x64, .f32⟩
  | 109 => ⟨S_, .f32⟩
  | 110 => ⟨S4096, .f32⟩
  | 111 => ⟨S4096x64, .f32⟩
  | 112 => ⟨S_, .f32⟩
  | 113 => ⟨S4096, .f32⟩
  | 114 => ⟨S4096, .f32⟩
  | 115 => ⟨S4096, .f32⟩
  | 116 => ⟨S_, .f32⟩
  | 117 => ⟨S4096, .f32⟩
  | 118 => ⟨S4096, .f32⟩
  | 119 => ⟨S4096, .f32⟩
  | 120 => ⟨S4096, .f32⟩
  | 121 => ⟨S4096, .i1⟩
  | 122 => ⟨S4096, .f32⟩
  | 123 => ⟨S4096, .f32⟩
  | 124 => ⟨S4096, .f32⟩
  | 125 => ⟨S4096, .f32⟩
  | 126 => ⟨S4096, .f32⟩
  | 127 => ⟨S4096, .f32⟩
  | _ => ⟨S100000x64, .f32⟩

abbrev hbmTy0_1 (i : Nat) : BufTy := match i % 128 with
  | 0 => ⟨S4096, .f32⟩
  | 1 => ⟨S4096, .f32⟩
  | 2 => ⟨S4096, .f32⟩
  | 3 => ⟨S_, .f32⟩
  | 4 => ⟨S_, .f32⟩
  | 5 => ⟨S_, .f32⟩
  | 6 => ⟨S_, .f32⟩
  | 7 => ⟨S_, .f32⟩
  | 8 => ⟨S4096x64, .f32⟩
  | 9 => ⟨S_, .f32⟩
  | 10 => ⟨S_, .f32⟩
  | 11 => ⟨S4096x64, .f32⟩
  | 12 => ⟨S_, .f32⟩
  | 13 => ⟨S_, .f32⟩
  | 14 => ⟨S_, .f32⟩
  | 15 => ⟨S4096x64, .f32⟩
  | 16 => ⟨S_, .f32⟩
  | 17 => ⟨S_, .f32⟩
  | 18 => ⟨S_, .f32⟩
  | 19 => ⟨S_, .f32⟩
  | 20 => ⟨S_, .f32⟩
  | 21 => ⟨S_, .f32⟩
  | 22 => ⟨S_, .f32⟩
  | 23 => ⟨S_, .f32⟩
  | 24 => ⟨S_, .f32⟩
  | 25 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S1000x2048, .f32⟩
  | .local _ .vmem, ⟨1, _⟩ => ⟨S1000x2048, .f32⟩
  | .local _ .vmem, ⟨2, _⟩ => ⟨S1000x768, .f32⟩
  | .local _ .vmem, ⟨3, _⟩ => ⟨S1000x768, .f32⟩
  | .local _ .vmem, ⟨4, _⟩ => ⟨S2048x64, .f32⟩
  | .local _ .vmem, ⟨5, _⟩ => ⟨S64, .f32⟩
  | .local _ .vmem, ⟨6, _⟩ => ⟨S768x64, .f32⟩
  | .local _ .vmem, ⟨7, _⟩ => ⟨S64, .f32⟩
  | .local _ .vmem, ⟨8, _⟩ => ⟨S64x1, .f32⟩
  | .local _ .vmem, ⟨9, _⟩ => ⟨S1000x64, .f32⟩
  | .local _ .vmem, ⟨10, _⟩ => ⟨S1000x64, .f32⟩
  | .local _ .vmem, ⟨11, _⟩ => ⟨S8000x64, .f32⟩
  | .local _ .vmem, ⟨12, _⟩ => ⟨S8000x64, .f32⟩
  | .local _ .vmem, ⟨13, _⟩ => ⟨S8000x1, .i32⟩
  | .local _ .vmem, ⟨14, _⟩ => ⟨S8000x1, .i32⟩
  | .local _ .vmem, ⟨15, _⟩ => ⟨S15x64, .f32⟩
  | .local _ .vmem, ⟨16, _⟩ => ⟨S8000x64, .f32⟩
  | .local _ .vmem, ⟨17, _⟩ => ⟨S8000x64, .f32⟩
  | .local _ .vmem, ⟨18, _⟩ => ⟨S4000x64, .f32⟩
  | .local _ .vmem, ⟨19, _⟩ => ⟨S4000x64, .f32⟩
  | .local _ .vmem, ⟨20, _⟩ => ⟨S4000x1, .f32⟩
  | .local _ .vmem, ⟨21, _⟩ => ⟨S4000x1, .f32⟩
  | .local _ .vmem, ⟨22, _⟩ => ⟨S4000x64, .f32⟩
  | .local _ .vmem, ⟨23, _⟩ => ⟨S4000x64, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S8000x64, .f32⟩
  | .local _ .vmem, ⟨29, _⟩ => ⟨S8000x64, .f32⟩
  | .local _ .vmem, ⟨30, _⟩ => ⟨S8000x1, .i32⟩
  | .local _ .vmem, ⟨31, _⟩ => ⟨S8000x1, .i32⟩
  | .local _ .vmem, ⟨32, _⟩ => ⟨S15x64, .f32⟩
  | .local _ .vmem, ⟨33, _⟩ => ⟨S8000x64, .f32⟩
  | .local _ .vmem, ⟨34, _⟩ => ⟨S8000x64, .f32⟩
  | .local _ .vmem, ⟨35, _⟩ => ⟨S4000x64, .f32⟩
  | .local _ .vmem, ⟨36, _⟩ => ⟨S4000x64, .f32⟩
  | .local _ .vmem, ⟨37, _⟩ => ⟨S4000x1, .f32⟩
  | .local _ .vmem, ⟨38, _⟩ => ⟨S4000x1, .f32⟩
  | .local _ .vmem, ⟨39, _⟩ => ⟨S4000x64, .f32⟩
  | .local _ .vmem, ⟨40, _⟩ => ⟨S4000x64, .f32⟩
  | .local _ .vmem, ⟨41, _⟩ => ⟨S4000x64, .f32⟩
  | .local _ .vmem, ⟨42, _⟩ => ⟨S4000x64, .f32⟩
  | .local _ .vmem, ⟨43, _⟩ => ⟨S4000x64, .f32⟩
  | .local _ .vmem, ⟨44, _⟩ => ⟨S4000x64, .f32⟩
  | .local _ .vmem, ⟨45, _⟩ => ⟨S8000x64, .f32⟩
  | .local _ .vmem, ⟨46, _⟩ => ⟨S8000x64, .f32⟩
  | .local _ .vmem, ⟨47, _⟩ => ⟨S8000x1, .i32⟩
  | .local _ .vmem, ⟨48, _⟩ => ⟨S8000x1, .i32⟩
  | .local _ .vmem, ⟨49, _⟩ => ⟨S15x64, .f32⟩
  | .local _ .vmem, ⟨50, _⟩ => ⟨S8000x64, .f32⟩
  | .local _ .vmem, ⟨51, _⟩ => ⟨S8000x64, .f32⟩
  | .local _ .vmem, ⟨52, _⟩ => ⟨S4000x64, .f32⟩
  | .local _ .vmem, ⟨53, _⟩ => ⟨S4000x64, .f32⟩
  | .local _ .vmem, ⟨54, _⟩ => ⟨S4000x1, .f32⟩
  | .local _ .vmem, ⟨55, _⟩ => ⟨S4000x1, .f32⟩
  | .local _ .vmem, ⟨56, _⟩ => ⟨S4000x64, .f32⟩
  | .local _ .vmem, ⟨57, _⟩ => ⟨S4000x64, .f32⟩
  | .local _ .vmem, ⟨58, _⟩ => ⟨S4000x64, .f32⟩
  | .local _ .vmem, ⟨59, _⟩ => ⟨S4000x64, .f32⟩
  | .local _ .vmem, ⟨60, _⟩ => ⟨S4000x64, .f32⟩
  | .local _ .vmem, ⟨61, _⟩ => ⟨S4000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_c_3 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26_0 : Ref sig .tc := ⟨.hbm, 47, rfl⟩
abbrev main_v26_1 : Ref sig .tc := ⟨.hbm, 48, rfl⟩
abbrev main_c_5 : Ref sig .tc := ⟨.hbm, 49, rfl⟩
abbrev main_v27 : Ref sig .tc := ⟨.hbm, 50, rfl⟩
abbrev main_v28 : Ref sig .tc := ⟨.hbm, 51, rfl⟩
abbrev main_c_6 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_7 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38_0 : Ref sig .tc := ⟨.hbm, 63, rfl⟩
abbrev main_v38_1 : Ref sig .tc := ⟨.hbm, 64, rfl⟩
abbrev main_c_8 : Ref sig .tc := ⟨.hbm, 65, rfl⟩
abbrev main_v39 : Ref sig .tc := ⟨.hbm, 66, rfl⟩
abbrev main_v40 : Ref sig .tc := ⟨.hbm, 67, rfl⟩
abbrev main_c_9 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50_0 : Ref sig .tc := ⟨.hbm, 79, rfl⟩
abbrev main_v50_1 : Ref sig .tc := ⟨.hbm, 80, rfl⟩
abbrev main_c_11 : Ref sig .tc := ⟨.hbm, 81, rfl⟩
abbrev main_v51 : Ref sig .tc := ⟨.hbm, 82, rfl⟩
abbrev main_v52 : Ref sig .tc := ⟨.hbm, 83, rfl⟩
abbrev main_c_12 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_c_13 : Ref sig .tc := ⟨.hbm, 90, rfl⟩
abbrev main_v58 : Ref sig .tc := ⟨.hbm, 91, rfl⟩
abbrev main_v59 : Ref sig .tc := ⟨.hbm, 92, rfl⟩
abbrev main_c_14 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_15 : Ref sig .tc := ⟨.hbm, 99, rfl⟩
abbrev main_v65 : Ref sig .tc := ⟨.hbm, 100, rfl⟩
abbrev main_v66 : Ref sig .tc := ⟨.hbm, 101, rfl⟩
abbrev main_c_16 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_17 : Ref sig .tc := ⟨.hbm, 109, rfl⟩
abbrev main_v73 : Ref sig .tc := ⟨.hbm, 110, rfl⟩
abbrev main_v74 : Ref sig .tc := ⟨.hbm, 111, rfl⟩
abbrev main_cst_18 : Ref sig .tc := ⟨.hbm, 112, rfl⟩
abbrev main_v75 : Ref sig .tc := ⟨.hbm, 113, rfl⟩
abbrev main_v76 : Ref sig .tc := ⟨.hbm, 114, rfl⟩
abbrev main_call0_v0 : Ref sig .tc := ⟨.hbm, 115, rfl⟩
abbrev main_call0_call0_cst : Ref sig .tc := ⟨.hbm, 116, rfl⟩
abbrev main_call0_call0_v0 : Ref sig .tc := ⟨.hbm, 117, rfl⟩
abbrev main_call0_call0_v1 : Ref sig .tc := ⟨.hbm, 118, rfl⟩
abbrev main_call0_call0_v2 : Ref sig .tc := ⟨.hbm, 119, rfl⟩
abbrev main_call0_call0_v3 : Ref sig .tc := ⟨.hbm, 120, rfl⟩
abbrev main_call0_call0_v4 : Ref sig .tc := ⟨.hbm, 121, rfl⟩
abbrev main_call0_call0_v5 : Ref sig .tc := ⟨.hbm, 122, rfl⟩
abbrev main_call0_call0_v6 : Ref sig .tc := ⟨.hbm, 123, rfl⟩
abbrev main_call0_call0_v7 : Ref sig .tc := ⟨.hbm, 124, rfl⟩
abbrev main_call0_call0_v8 : Ref sig .tc := ⟨.hbm, 125, rfl⟩
abbrev main_call0_call0_v9 : Ref sig .tc := ⟨.hbm, 126, rfl⟩
abbrev main_call0_call0_v10 : Ref sig .tc := ⟨.hbm, 127, rfl⟩
abbrev main_call0_call0_v11 : Ref sig .tc := ⟨.hbm, 128, rfl⟩
abbrev main_call0_v1 : Ref sig .tc := ⟨.hbm, 129, rfl⟩
abbrev main_v77 : Ref sig .tc := ⟨.hbm, 130, rfl⟩
abbrev main_cst_19 : Ref sig .tc := ⟨.hbm, 131, rfl⟩
abbrev main_v78 : Ref sig .tc := ⟨.hbm, 132, rfl⟩
abbrev main_cst_20 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_cst_21 : Ref sig .tc := ⟨.hbm, 137, rfl⟩
abbrev main_v82 : Ref sig .tc := ⟨.hbm, 138, rfl⟩
abbrev main_v83 : Ref sig .tc := ⟨.hbm, 139, rfl⟩
abbrev main_cst_22 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_23 : Ref sig .tc := ⟨.hbm, 144, rfl⟩
abbrev main_v87 : Ref sig .tc := ⟨.hbm, 145, rfl⟩
abbrev main_v88 : Ref sig .tc := ⟨.hbm, 146, rfl⟩
abbrev main_cst_24 : Ref sig .tc := ⟨.hbm, 147, rfl⟩
abbrev main_v89 : Ref sig .tc := ⟨.hbm, 148, rfl⟩
abbrev main_cst_25 : Ref sig .tc := ⟨.hbm, 149, rfl⟩
abbrev main_v90 : Ref sig .tc := ⟨.hbm, 150, rfl⟩
abbrev main_cst_26 : Ref sig .tc := ⟨.hbm, 151, rfl⟩
abbrev main_v91 : Ref sig .tc := ⟨.hbm, 152, rfl⟩
abbrev main_v92 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg4_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg3_1 : Ref sig .tc := ⟨.vmem, 42, rfl⟩
abbrev cc4_stg4_0 : Ref sig .tc := ⟨.vmem, 43, rfl⟩
abbrev cc4_stg4_1 : Ref sig .tc := ⟨.vmem, 44, rfl⟩
abbrev cc5_stg0_0 : Ref sig .tc := ⟨.vmem, 45, rfl⟩
abbrev cc5_stg0_1 : Ref sig .tc := ⟨.vmem, 46, rfl⟩
abbrev cc5_stg1_0 : Ref sig .tc := ⟨.vmem, 47, rfl⟩
abbrev cc5_stg1_1 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg3_1 : Ref sig .tc := ⟨.vmem, 51, rfl⟩
abbrev cc6_stg0_0 : Ref sig .tc := ⟨.vmem, 52, rfl⟩
abbrev cc6_stg0_1 : Ref sig .tc := ⟨.vmem, 53, rfl⟩
abbrev cc6_stg1_0 : Ref sig .tc := ⟨.vmem, 54, rfl⟩
abbrev cc6_stg1_1 : Ref sig .tc := ⟨.vmem, 55, rfl⟩
abbrev cc6_stg2_0 : Ref sig .tc := ⟨.vmem, 56, rfl⟩
abbrev cc6_stg2_1 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg4_1 : Ref sig .tc := ⟨.vmem, 61, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem3_1 : DmaSem sig := 25
abbrev cc2_sem4_0 : DmaSem sig := 26
abbrev cc2_sem4_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem3_1 : DmaSem sig := 42
abbrev cc4_sem4_0 : DmaSem sig := 43
abbrev cc4_sem4_1 : DmaSem sig := 44
abbrev cc5_sem0_0 : DmaSem sig := 45
abbrev cc5_sem0_1 : DmaSem sig := 46
abbrev cc5_sem1_0 : DmaSem sig := 47
abbrev cc5_sem1_1 : DmaSem sig := 48
abbrev cc5_sem2_0 : DmaSem sig := 49
abbrev cc5_sem3_0 : DmaSem sig := 50
abbrev cc5_sem3_1 : DmaSem sig := 51
abbrev cc6_sem0_0 : DmaSem sig := 52
abbrev cc6_sem0_1 : DmaSem sig := 53
abbrev cc6_sem1_0 : DmaSem sig := 54
abbrev cc6_sem1_1 : DmaSem sig := 55
abbrev cc6_sem2_0 : DmaSem sig := 56
abbrev cc6_sem2_1 : DmaSem sig := 57
abbrev cc6_sem3_0 : DmaSem sig := 58
abbrev cc6_sem3_1 : DmaSem sig := 59
abbrev cc6_sem4_0 : DmaSem sig := 60
abbrev cc6_sem4_1 : DmaSem sig := 61

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1000x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x1 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S15x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S4000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S4000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![250], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8000x1 .i32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S15x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S8000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S4000x64 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S4000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![250], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S15x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S8000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x1 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S4000x64 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S4000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

class Facts₀ : Prop where
  inb_S1000x2048_S1000x2048_0_0 : ∀ a, (![0, 0] : Fin 2 → Nat) a + S1000x2048.size a ≤ S1000x2048.size a
  h_S1000x2048 : 0 < S1000x2048.numel
  bitsLt_bf16_f32 : FTy.bits .bf16 < FTy.bits .f32
  inb_S2048x64_S2048x64_0_0 : ∀ a, (![0, 0] : Fin 2 → Nat) a + S2048x64.size a ≤ S2048x64.size a
  h_S2048x64 : 0 < S2048x64.numel
  inb_S64_S64_0 : ∀ a, (![0] : Fin 1 → Nat) a + S64.size a ≤ S64.size a
  h_S64 : 0 < S64.numel
  shapeCasts_S64_S1x64 : S64.ShapeCasts S1x64
  broadcasts_S1x64_S1000x64 : S1x64.Broadcasts S1000x64
  inb_S1000x768_S1000x768_0_0 : ∀ a, (![0, 0] : Fin 2 → Nat) a + S1000x768.size a ≤ S1000x768.size a
  h_S1000x768 : 0 < S1000x768.numel
  inb_S768x64_S768x64_0_0 : ∀ a, (![0, 0] : Fin 2 → Nat) a + S768x64.size a ≤ S768x64.size a
  h_S768x64 : 0 < S768x64.numel
  inb_S64x1_S64x1_0_0 : ∀ a, (![0, 0] : Fin 2 → Nat) a + S64x1.size a ≤ S64x1.size a
  h_S64x1 : 0 < S64x1.numel
  broadcasts_S1000x1_S1000x64 : S1000x1.Broadcasts S1000x64
  inb_S1000x64_S1000x64_0_0 : ∀ a, (![0, 0] : Fin 2 → Nat) a + S1000x64.size a ≤ S1000x64.size a
  h_S1000x64 : 0 < S1000x64.numel
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  shapeCasts_S2000000_S2000000x1 : S2000000.ShapeCasts S2000000x1
  bcast_S_S100000 : S_.BroadcastsInDim S100000 (![] : Fin 0 → Fin S100000.rank)
  bcast_S2000000_S2000000x1_0 : S2000000.BroadcastsInDim S2000000x1 (![0] : Fin 1 → Fin S2000000x1.rank)
  shapeCasts_S100000_S100000x1 : S100000.ShapeCasts S100000x1
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  inb_S8000x1_S8000x1_0_0 : ∀ a, (![0, 0] : Fin 2 → Nat) a + S8000x1.size a ≤ S8000x1.size a
  h_S8000x1 : 0 < S8000x1.numel
  shapeCasts_S8000x1_S8000x1 : S8000x1.ShapeCasts S8000x1
  iota_S8000x15_d1_w32 : S8000x15.Iotas .tc 32 [1]
  broadcasts_S8000x1_S8000x15 : S8000x1.Broadcasts S8000x15
  natLt_1_32 : 1 < 32
  inb_S15x64_S15x64_0_0 : ∀ a, (![0, 0] : Fin 2 → Nat) a + S15x64.size a ≤ S15x64.size a
  h_S15x64 : 0 < S15x64.numel
  bcast_S_S100000x64 : S_.BroadcastsInDim S100000x64 (![] : Fin 0 → Fin S100000x64.rank)
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  reduces_S4000x64_S4000 : S4000x64.Reduces [1] S4000
  shapeCasts_S4000_S4000x1 : S4000.ShapeCasts S4000x1
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  h_S_ : 0 < S_.numel
  reducesTo_S4096_S_d0 : S4096.ReducesTo [0] S_
  reducesTo_S4096x64_S_d0_1 : S4096x64.ReducesTo [0, 1] S_
  dot_S1000x2048_S2048x64_S1000x64_1_0_0_1_n_n_wf : DotDims.WF S1000x2048 S2048x64 S1000x64 [1] [0] [0] [1] [] []
  dot_S1000x768_S768x64_S1000x64_1_0_0_1_n_n_wf : DotDims.WF S1000x768 S768x64 S1000x64 [1] [0] [0] [1] [] []
  dot_S1000x64_S64x1_S1000x1_1_0_0_1_n_n_wf : DotDims.WF S1000x64 S64x1 S1000x1 [1] [0] [0] [1] [] []
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  dot_S8000x15_S15x64_S8000x64_1_0_0_1_n_n_wf : DotDims.WF S8000x15 S15x64 S8000x64 [1] [0] [0] [1] [] []
  scatter_S100000x64_S2000000x1_S2000000x64_1_0_0_1_wf : ScatterDims.WF S100000x64 S2000000x1 S2000000x64 [1] [0] [0] 1
  gather_S100000x64_S4096x1_S4096x64_1_0_n_n_0_1_164_wf : GatherDims.WF S100000x64 S4096x1 S4096x64 [1] [0] [] [0] [] 1 ![1, 64]
  gather_S30000x64_S4096x1_S4096x64_1_0_n_n_0_1_164_wf : GatherDims.WF S30000x64 S4096x1 S4096x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x2048.size a ≤ S30000x2048.size a
  hwx0_0 : ∀ i : grid0.Coords, EltTy.bits .f32 = 32 ∨ (Rect.block (s := S30000x2048) S1000x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1000x768.size a ≤ S30000x768.size a
  hwx0_1 : ∀ i : grid0.Coords, EltTy.bits .f32 = 32 ∨ (Rect.block (s := S30000x768) S1000x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x64.size a ≤ S2048x64.size a
  hwx0_2 : ∀ i : grid0.Coords, EltTy.bits .f32 = 32 ∨ (Rect.block (s := S2048x64) S2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x64.size a ≤ S768x64.size a
  hwx0_4 : ∀ i : grid0.Coords, EltTy.bits .f32 = 32 ∨ (Rect.block (s := S768x64) S768x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1000x64.size a ≤ S30000x64.size a
  hwx0_7 : ∀ i : grid0.Coords, EltTy.bits .f32 = 32 ∨ (Rect.block (s := S30000x64) S1000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x64.size a ≤ S2000000x64.size a
  hwx1_0 : ∀ i : grid1.Coords, EltTy.bits .f32 = 32 ∨ (Rect.block (s := S2000000x64) S8000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x1.size a ≤ S2000000x1.size a
  hwx1_1 : ∀ i : grid1.Coords, EltTy.bits .i32 = 32 ∨ (Rect.block (s := S2000000x1) S8000x1.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S15x64.size a ≤ S15x64.size a
  hwx1_2 : ∀ i : grid1.Coords, EltTy.bits .f32 = 32 ∨ (Rect.block (s := S15x64) S15x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8000x64.size a ≤ S2000000x64.size a
  hwx1_3 : ∀ i : grid1.Coords, EltTy.bits .f32 = 32 ∨ (Rect.block (s := S2000000x64) S8000x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S100000x64.size a
  hwx2_0 : ∀ i : grid2.Coords, EltTy.bits .f32 = 32 ∨ (Rect.block (s := S100000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x64.size a ≤ S100000x64.size a
  hwx2_2 : ∀ i : grid2.Coords, EltTy.bits .f32 = 32 ∨ (Rect.block (s := S100000x64) S4000x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x64.size a ≤ S100000x64.size a
  hwx2_3 : ∀ i : grid2.Coords, EltTy.bits .f32 = 32 ∨ (Rect.block (s := S100000x64) S4000x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S4000x64.size a ≤ S100000x64.size a
  hwx2_4 : ∀ i : grid2.Coords, EltTy.bits .f32 = 32 ∨ (Rect.block (s := S100000x64) S4000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8000x64.size a ≤ S2000000x64.size a
  hwx3_0 : ∀ i : grid3.Coords, EltTy.bits .f32 = 32 ∨ (Rect.block (s := S2000000x64) S8000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8000x1.size a ≤ S2000000x1.size a
  hwx3_1 : ∀ i : grid3.Coords, EltTy.bits .i32 = 32 ∨ (Rect.block (s := S2000000x1) S8000x1.size (cc3_transform_1 i) (hinb3_1 i)).WholeWords (EltTy.packing .i32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S15x64.size a ≤ S15x64.size a
  hwx3_2 : ∀ i : grid3.Coords, EltTy.bits .f32 = 32 ∨ (Rect.block (s := S15x64) S15x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S8000x64.size a ≤ S2000000x64.size a
  hwx3_3 : ∀ i : grid3.Coords, EltTy.bits .f32 = 32 ∨ (Rect.block (s := S2000000x64) S8000x64.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .f32 = 32 ∨ (Rect.block (s := S100000x64) S4000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x1.size a ≤ S100000x1.size a
  hwx4_1 : ∀ i : grid4.Coords, EltTy.bits .f32 = 32 ∨ (Rect.block (s := S100000x1) S4000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x64.size a ≤ S100000x64.size a
  hwx4_2 : ∀ i : grid4.Coords, EltTy.bits .f32 = 32 ∨ (Rect.block (s := S100000x64) S4000x64.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4000x64.size a ≤ S100000x64.size a
  hwx4_3 : ∀ i : grid4.Coords, EltTy.bits .f32 = 32 ∨ (Rect.block (s := S100000x64) S4000x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S4000x64.size a ≤ S100000x64.size a
  hwx4_4 : ∀ i : grid4.Coords, EltTy.bits .f32 = 32 ∨ (Rect.block (s := S100000x64) S4000x64.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8000x64.size a ≤ S2000000x64.size a
  hwx5_0 : ∀ i : grid5.Coords, EltTy.bits .f32 = 32 ∨ (Rect.block (s := S2000000x64) S8000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8000x1.size a ≤ S2000000x1.size a
  hwx5_1 : ∀ i : grid5.Coords, EltTy.bits .i32 = 32 ∨ (Rect.block (s := S2000000x1) S8000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S15x64.size a ≤ S15x64.size a
  hwx5_2 : ∀ i : grid5.Coords, EltTy.bits .f32 = 32 ∨ (Rect.block (s := S15x64) S15x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S8000x64.size a ≤ S2000000x64.size a
  hwx5_3 : ∀ i : grid5.Coords, EltTy.bits .f32 = 32 ∨ (Rect.block (s := S2000000x64) S8000x64.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S100000x64.size a
  hwx6_0 : ∀ i : grid6.Coords, EltTy.bits .f32 = 32 ∨ (Rect.block (s := S100000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x1.size a ≤ S100000x1.size a
  hwx6_1 : ∀ i : grid6.Coords, EltTy.bits .f32 = 32 ∨ (Rect.block (s := S100000x1) S4000x1.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S4000x64.size a ≤ S100000x64.size a
  hwx6_2 : ∀ i : grid6.Coords, EltTy.bits .f32 = 32 ∨ (Rect.block (s := S100000x64) S4000x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S4000x64.size a ≤ S100000x64.size a
  hwx6_3 : ∀ i : grid6.Coords, EltTy.bits .f32 = 32 ∨ (Rect.block (s := S100000x64) S4000x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S100000x64.size a
  hwx6_4 : ∀ i : grid6.Coords, EltTy.bits .f32 = 32 ∨ (Rect.block (s := S100000x64) S4000x64.size (cc6_transform_4 i) (hinb6_4 i)).WholeWords (EltTy.packing .f32)

variable [Facts₀]

def dot_S1000x2048_S2048x64_S1000x64_1_0_0_1_n_n : DotDims S1000x2048 S2048x64 S1000x64 where
  lhsContracting := [1]
  rhsContracting := [0]
  lhsNonContracting := [0]
  rhsNonContracting := [1]
  lhsBatch := []
  rhsBatch := []
  wf := dot_S1000x2048_S2048x64_S1000x64_1_0_0_1_n_n_wf
def dot_S1000x768_S768x64_S1000x64_1_0_0_1_n_n : DotDims S1000x768 S768x64 S1000x64 where
  lhsContracting := [1]
  rhsContracting := [0]
  lhsNonContracting := [0]
  rhsNonContracting := [1]
  lhsBatch := []
  rhsBatch := []
  wf := dot_S1000x768_S768x64_S1000x64_1_0_0_1_n_n_wf
def dot_S1000x64_S64x1_S1000x1_1_0_0_1_n_n : DotDims S1000x64 S64x1 S1000x1 where
  lhsContracting := [1]
  rhsContracting := [0]
  lhsNonContracting := [0]
  rhsNonContracting := [1]
  lhsBatch := []
  rhsBatch := []
  wf := dot_S1000x64_S64x1_S1000x1_1_0_0_1_n_n_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S8000x15_S15x64_S8000x64_1_0_0_1_n_n : DotDims S8000x15 S15x64 S8000x64 where
  lhsContracting := [1]
  rhsContracting := [0]
  lhsNonContracting := [0]
  rhsNonContracting := [1]
  lhsBatch := []
  rhsBatch := []
  wf := dot_S8000x15_S15x64_S8000x64_1_0_0_1_n_n_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf

abbrev win0_0 : Pipeline.Window sig grid0 :=
  Pipeline.Window.ofSpec (Memref.whole main_arg2) S1000x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1000x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S2048x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S768x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S1000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v21) S8000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S8000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S15x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S8000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v25) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg0) S4000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v26_0) S4000x64.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v26_1) S4000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v33) S8000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg1) S15x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v34) S8000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v37) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v14) S4000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v26_1) S4000x64.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v38_0) S4000x64.size cc4_transform_3 reads4_3 true false 2 stage4_3 sem4_3
    hrank4 hreads4_3 hinb4_3 nbuf4_3 (Memref.isWhole_whole _) hwx4_3 hstage4_3

abbrev win4_4 : Pipeline.Window sig grid4 :=
  Pipeline.Window.ofSpec (Memref.whole main_v38_1) S4000x64.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v45) S8000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v7) S8000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg1) S15x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v46) S8000x64.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v49) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v14) S4000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v38_1) S4000x64.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v50_0) S4000x64.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v50_1) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

class Facts : Prop extends Facts₀ where

variable [Facts]
-- ==== ReferenceIdeal.lean ====
abbrev S100000x64 : Shape := ⟨2, ![100000, 64]⟩
abbrev S15x64 : Shape := ⟨2, ![15, 64]⟩
abbrev S30000x2048 : Shape := ⟨2, ![30000, 2048]⟩
abbrev S30000x768 : Shape := ⟨2, ![30000, 768]⟩
abbrev S2048x64 : Shape := ⟨2, ![2048, 64]⟩
abbrev S64 : Shape := ⟨1, ![64]⟩
abbrev S768x64 : Shape := ⟨2, ![768, 64]⟩
abbrev S64x1 : Shape := ⟨2, ![64, 1]⟩
abbrev S2x2000000 : Shape := ⟨2, ![2, 2000000]⟩
abbrev S2000000 : Shape := ⟨1, ![2000000]⟩
abbrev S4096 : Shape := ⟨1, ![4096]⟩
abbrev S30000x64 : Shape := ⟨2, ![30000, 64]⟩
abbrev S1x64 : Shape := ⟨2, ![1, 64]⟩
abbrev S30000x1 : Shape := ⟨2, ![30000, 1]⟩
abbrev S_ : Shape := ⟨0, ![]⟩
abbrev S30000x2 : Shape := ⟨2, ![30000, 2]⟩
abbrev S30000 : Shape := ⟨1, ![30000]⟩
abbrev S1x2000000 : Shape := ⟨2, ![1, 2000000]⟩
abbrev S2000000x1 : Shape := ⟨2, ![2000000, 1]⟩
abbrev S2000000x64 : Shape := ⟨2, ![2000000, 64]⟩
abbrev S100000 : Shape := ⟨1, ![100000]⟩
abbrev S100000x1 : Shape := ⟨2, ![100000, 1]⟩
abbrev S4096x1 : Shape := ⟨2, ![4096, 1]⟩
abbrev S4096x64 : Shape := ⟨2, ![4096, 64]⟩

abbrev nBuf : Space → Nat
  | .hbm => 224
  | .vmem => 0
  | .smem => 0
  | _ => 0

abbrev hbmTy0_0 (i : Nat) : BufTy := match i % 128 with
  | 0 => ⟨S100000x64, .f32⟩
  | 1 => ⟨S15x64, .f32⟩
  | 2 => ⟨S30000x2048, .f32⟩
  | 3 => ⟨S30000x768, .f32⟩
  | 4 => ⟨S2048x64, .f32⟩
  | 5 => ⟨S64, .f32⟩
  | 6 => ⟨S768x64, .f32⟩
  | 7 => ⟨S64, .f32⟩
  | 8 => ⟨S64x1, .f32⟩
  | 9 => ⟨S2x2000000, .i32⟩
  | 10 => ⟨S2000000, .i32⟩
  | 11 => ⟨S4096, .i32⟩
  | 12 => ⟨S4096, .i32⟩
  | 13 => ⟨S4096, .i32⟩
  | 14 => ⟨S30000x64, .f32⟩
  | 15 => ⟨S1x64, .f32⟩
  | 16 => ⟨S30000x64, .f32⟩
  | 17 => ⟨S30000x64, .f32⟩
  | 18 => ⟨S30000x64, .f32⟩
  | 19 => ⟨S1x64, .f32⟩
  | 20 => ⟨S30000x64, .f32⟩
  | 21 => ⟨S30000x64, .f32⟩
  | 22 => ⟨S30000x1, .f32⟩
  | 23 => ⟨S_, .f32⟩
  | 24 => ⟨S30000x1, .f32⟩
  | 25 => ⟨S30000x1, .f32⟩
  | 26 => ⟨S30000x1, .f32⟩
  | 27 => ⟨S_, .f32⟩
  | 28 => ⟨S30000x1, .f32⟩
  | 29 => ⟨S30000x1, .f32⟩
  | 30 => ⟨S30000x2, .f32⟩
  | 31 => ⟨S30000x2, .f32⟩
  | 32 => ⟨S_, .f32⟩
  | 33 => ⟨S30000, .f32⟩
  | 34 => ⟨S30000x1, .f32⟩
  | 35 => ⟨S30000x2, .f32⟩
  | 36 => ⟨S30000x2, .f32⟩
  | 37 => ⟨S30000x1, .f32⟩
  | 38 => ⟨S30000x64, .f32⟩
  | 39 => ⟨S30000x64, .f32⟩
  | 40 => ⟨S30000x1, .f32⟩
  | 41 => ⟨S30000x64, .f32⟩
  | 42 => ⟨S30000x64, .f32⟩
  | 43 => ⟨S30000x64, .f32⟩
  | 44 => ⟨S1x2000000, .i32⟩
  | 45 => ⟨S2000000, .i32⟩
  | 46 => ⟨S1x2000000, .i32⟩
  | 47 => ⟨S2000000, .i32⟩
  | 48 => ⟨S_, .i32⟩
  | 49 => ⟨S2000000, .i32⟩
  | 50 => ⟨S2000000, .i32⟩
  | 51 => ⟨S_, .i32⟩
  | 52 => ⟨S2000000, .i32⟩
  | 53 => ⟨S2000000, .i1⟩
  | 54 => ⟨S_, .i32⟩
  | 55 => ⟨S2000000, .i32⟩
  | 56 => ⟨S2000000, .i32⟩
  | 57 => ⟨S2000000, .i32⟩
  | 58 => ⟨S2000000x1, .i32⟩
  | 59 => ⟨S2000000x64, .f32⟩
  | 60 => ⟨S_, .f32⟩
  | 61 => ⟨S2000000, .f32⟩
  | 62 => ⟨S_, .f32⟩
  | 63 => ⟨S100000, .f32⟩
  | 64 => ⟨S2000000x1, .i32⟩
  | 65 => ⟨S100000, .f32⟩
  | 66 => ⟨S_, .f32⟩
  | 67 => ⟨S100000, .f32⟩
  | 68 => ⟨S100000, .f32⟩
  | 69 => ⟨S100000x1, .f32⟩
  | 70 => ⟨S_, .i32⟩
  | 71 => ⟨S2000000, .i32⟩
  | 72 => ⟨S2000000, .i1⟩
  | 73 => ⟨S_, .i32⟩
  | 74 => ⟨S2000000, .i32⟩
  | 75 => ⟨S2000000, .i32⟩
  | 76 => ⟨S2000000, .i32⟩
  | 77 => ⟨S2000000x1, .i32⟩
  | 78 => ⟨S2000000x64, .f32⟩
  | 79 => ⟨S2000000x64, .f32⟩
  | 80 => ⟨S_, .f32⟩
  | 81 => ⟨S100000x64, .f32⟩
  | 82 => ⟨S2000000x1, .i32⟩
  | 83 => ⟨S100000x64, .f32⟩
  | 84 => ⟨S100000x64, .f32⟩
  | 85 => ⟨S100000x64, .f32⟩
  | 86 => ⟨S100000x64, .f32⟩
  | 87 => ⟨S_, .f32⟩
  | 88 => ⟨S100000, .f32⟩
  | 89 => ⟨S100000x1, .f32⟩
  | 90 => ⟨S100000x1, .f32⟩
  | 91 => ⟨S_, .f32⟩
  | 92 => ⟨S100000x1, .f32⟩
  | 93 => ⟨S100000x1, .f32⟩
  | 94 => ⟨S100000x64, .f32⟩
  | 95 => ⟨S100000x64, .f32⟩
  | 96 => ⟨S100000x64, .f32⟩
  | 97 => ⟨S_, .i32⟩
  | 98 => ⟨S2000000, .i32⟩
  | 99 => ⟨S2000000, .i1⟩
  | 100 => ⟨S_, .i32⟩
  | 101 => ⟨S2000000, .i32⟩
  | 102 => ⟨S2000000, .i32⟩
  | 103 => ⟨S2000000, .i32⟩
  | 104 => ⟨S2000000x1, .i32⟩
  | 105 => ⟨S2000000x64, .f32⟩
  | 106 => ⟨S2000000x64, .f32⟩
  | 107 => ⟨S_, .f32⟩
  | 108 => ⟨S100000x64, .f32⟩
  | 109 => ⟨S2000000x1, .i32⟩
  | 110 => ⟨S100000x64, .f32⟩
  | 111 => ⟨S100000x64, .f32⟩
  | 112 => ⟨S100000x64, .f32⟩
  | 113 => ⟨S100000x64, .f32⟩
  | 114 => ⟨S_, .f32⟩
  | 115 => ⟨S100000, .f32⟩
  | 116 => ⟨S100000x1, .f32⟩
  | 117 => ⟨S100000x1, .f32⟩
  | 118 => ⟨S_, .f32⟩
  | 119 => ⟨S100000x1, .f32⟩
  | 120 => ⟨S100000x1, .f32⟩
  | 121 => ⟨S100000x64, .f32⟩
  | 122 => ⟨S100000x64, .f32⟩
  | 123 => ⟨S100000x64, .f32⟩
  | 124 => ⟨S_, .i32⟩
  | 125 => ⟨S2000000, .i32⟩
  | 126 => ⟨S2000000, .i1⟩
  | 127 => ⟨S_, .i32⟩
  | _ => ⟨S100000x64, .f32⟩

abbrev hbmTy0_1 (i : Nat) : BufTy := match i % 128 with
  | 0 => ⟨S2000000, .i32⟩
  | 1 => ⟨S2000000, .i32⟩
  | 2 => ⟨S2000000, .i32⟩
  | 3 => ⟨S2000000x1, .i32⟩
  | 4 => ⟨S2000000x64, .f32⟩
  | 5 => ⟨S2000000x64, .f32⟩
  | 6 => ⟨S_, .f32⟩
  | 7 => ⟨S100000x64, .f32⟩
  | 8 => ⟨S2000000x1, .i32⟩
  | 9 => ⟨S100000x64, .f32⟩
  | 10 => ⟨S100000x64, .f32⟩
  | 11 => ⟨S100000x64, .f32⟩
  | 12 => ⟨S100000x64, .f32⟩
  | 13 => ⟨S_, .f32⟩
  | 14 => ⟨S100000, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000x64, .f32⟩
  | 21 => ⟨S100000x64, .f32⟩
  | 22 => ⟨S100000x64, .f32⟩
  | 23 => ⟨S_, .i32⟩
  | 24 => ⟨S4096, .i32⟩
  | 25 => ⟨S4096, .i1⟩
  | 26 => ⟨S_, .i32⟩
  | 27 => ⟨S4096, .i32⟩
  | 28 => ⟨S4096, .i32⟩
  | 29 => ⟨S4096, .i32⟩
  | 30 => ⟨S4096x1, .i32⟩
  | 31 => ⟨S4096x64, .f32⟩
  | 32 => ⟨S_, .i32⟩
  | 33 => ⟨S4096, .i32⟩
  | 34 => ⟨S4096, .i1⟩
  | 35 => ⟨S_, .i32⟩
  | 36 => ⟨S4096, .i32⟩
  | 37 => ⟨S4096, .i32⟩
  | 38 => ⟨S4096, .i32⟩
  | 39 => ⟨S4096x1, .i32⟩
  | 40 => ⟨S4096x64, .f32⟩
  | 41 => ⟨S_, .i32⟩
  | 42 => ⟨S4096, .i32⟩
  | 43 => ⟨S4096, .i1⟩
  | 44 => ⟨S_, .i32⟩
  | 45 => ⟨S4096, .i32⟩
  | 46 => ⟨S4096, .i32⟩
  | 47 => ⟨S4096, .i32⟩
  | 48 => ⟨S4096x1, .i32⟩
  | 49 => ⟨S4096x64, .f32⟩
  | 50 => ⟨S4096x64, .f32⟩
  | 51 => ⟨S_, .f32⟩
  | 52 => ⟨S4096, .f32⟩
  | 53 => ⟨S4096x64, .f32⟩
  | 54 => ⟨S_, .f32⟩
  | 55 => ⟨S4096, .f32⟩
  | 56 => ⟨S4096, .f32⟩
  | 57 => ⟨S4096, .f32⟩
  | 58 => ⟨S_, .f32⟩
  | 59 => ⟨S4096, .f32⟩
  | 60 => ⟨S4096, .f32⟩
  | 61 => ⟨S4096, .f32⟩
  | 62 => ⟨S4096, .f32⟩
  | 63 => ⟨S4096, .i1⟩
  | 64 => ⟨S4096, .f32⟩
  | 65 => ⟨S4096, .f32⟩
  | 66 => ⟨S4096, .f32⟩
  | 67 => ⟨S4096, .f32⟩
  | 68 => ⟨S4096, .f32⟩
  | 69 => ⟨S4096, .f32⟩
  | 70 => ⟨S4096, .f32⟩
  | 71 => ⟨S4096, .f32⟩
  | 72 => ⟨S4096, .f32⟩
  | 73 => ⟨S_, .f32⟩
  | 74 => ⟨S_, .f32⟩
  | 75 => ⟨S_, .f32⟩
  | 76 => ⟨S_, .f32⟩
  | 77 => ⟨S_, .f32⟩
  | 78 => ⟨S4096x64, .f32⟩
  | 79 => ⟨S_, .f32⟩
  | 80 => ⟨S_, .f32⟩
  | 81 => ⟨S4096x64, .f32⟩
  | 82 => ⟨S_, .f32⟩
  | 83 => ⟨S_, .f32⟩
  | 84 => ⟨S_, .f32⟩
  | 85 => ⟨S4096x64, .f32⟩
  | 86 => ⟨S_, .f32⟩
  | 87 => ⟨S_, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_call0_cst : Ref sig .tc := ⟨.hbm, 23, rfl⟩
abbrev main_call0_v0 : Ref sig .tc := ⟨.hbm, 24, rfl⟩
abbrev main_v9 : Ref sig .tc := ⟨.hbm, 25, rfl⟩
abbrev main_v10 : Ref sig .tc := ⟨.hbm, 26, rfl⟩
abbrev main_call1_cst : Ref sig .tc := ⟨.hbm, 27, rfl⟩
abbrev main_call1_v0 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c : Ref sig .tc := ⟨.hbm, 48, rfl⟩
abbrev main_v29 : Ref sig .tc := ⟨.hbm, 49, rfl⟩
abbrev main_v30 : Ref sig .tc := ⟨.hbm, 50, rfl⟩
abbrev main_c_0 : Ref sig .tc := ⟨.hbm, 51, rfl⟩
abbrev main_v31 : Ref sig .tc := ⟨.hbm, 52, rfl⟩
abbrev main_v32 : Ref sig .tc := ⟨.hbm, 53, rfl⟩
abbrev main_c_1 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_2 : Ref sig .tc := ⟨.hbm, 60, rfl⟩
abbrev main_v38 : Ref sig .tc := ⟨.hbm, 61, rfl⟩
abbrev main_cst_3 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_5 : Ref sig .tc := ⟨.hbm, 70, rfl⟩
abbrev main_v45 : Ref sig .tc := ⟨.hbm, 71, rfl⟩
abbrev main_v46 : Ref sig .tc := ⟨.hbm, 72, rfl⟩
abbrev main_c_6 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_7 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_call2_v0 : Ref sig .tc := ⟨.hbm, 86, rfl⟩
abbrev main_call2_cst : Ref sig .tc := ⟨.hbm, 87, rfl⟩
abbrev main_call2_v1 : Ref sig .tc := ⟨.hbm, 88, rfl⟩
abbrev main_call2_v2 : Ref sig .tc := ⟨.hbm, 89, rfl⟩
abbrev main_v58 : Ref sig .tc := ⟨.hbm, 90, rfl⟩
abbrev main_cst_8 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_9 : Ref sig .tc := ⟨.hbm, 97, rfl⟩
abbrev main_v64 : Ref sig .tc := ⟨.hbm, 98, rfl⟩
abbrev main_v65 : Ref sig .tc := ⟨.hbm, 99, rfl⟩
abbrev main_c_10 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_11 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_call3_v0 : Ref sig .tc := ⟨.hbm, 113, rfl⟩
abbrev main_call3_cst : Ref sig .tc := ⟨.hbm, 114, rfl⟩
abbrev main_call3_v1 : Ref sig .tc := ⟨.hbm, 115, rfl⟩
abbrev main_call3_v2 : Ref sig .tc := ⟨.hbm, 116, rfl⟩
abbrev main_v77 : Ref sig .tc := ⟨.hbm, 117, rfl⟩
abbrev main_cst_12 : Ref sig .tc := ⟨.hbm, 118, rfl⟩
abbrev main_v78 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_c_13 : Ref sig .tc := ⟨.hbm, 124, rfl⟩
abbrev main_v83 : Ref sig .tc := ⟨.hbm, 125, rfl⟩
abbrev main_v84 : Ref sig .tc := ⟨.hbm, 126, rfl⟩
abbrev main_c_14 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_15 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_call4_v0 : Ref sig .tc := ⟨.hbm, 140, rfl⟩
abbrev main_call4_cst : Ref sig .tc := ⟨.hbm, 141, rfl⟩
abbrev main_call4_v1 : Ref sig .tc := ⟨.hbm, 142, rfl⟩
abbrev main_call4_v2 : Ref sig .tc := ⟨.hbm, 143, rfl⟩
abbrev main_v96 : Ref sig .tc := ⟨.hbm, 144, rfl⟩
abbrev main_cst_16 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_c_17 : Ref sig .tc := ⟨.hbm, 151, rfl⟩
abbrev main_v102 : Ref sig .tc := ⟨.hbm, 152, rfl⟩
abbrev main_v103 : Ref sig .tc := ⟨.hbm, 153, rfl⟩
abbrev main_c_18 : Ref sig .tc := ⟨.hbm, 154, rfl⟩
abbrev main_v104 : Ref sig .tc := ⟨.hbm, 155, rfl⟩
abbrev main_v105 : Ref sig .tc := ⟨.hbm, 156, rfl⟩
abbrev main_v106 : Ref sig .tc := ⟨.hbm, 157, rfl⟩
abbrev main_v107 : Ref sig .tc := ⟨.hbm, 158, rfl⟩
abbrev main_v108 : Ref sig .tc := ⟨.hbm, 159, rfl⟩
abbrev main_c_19 : Ref sig .tc := ⟨.hbm, 160, rfl⟩
abbrev main_v109 : Ref sig .tc := ⟨.hbm, 161, rfl⟩
abbrev main_v110 : Ref sig .tc := ⟨.hbm, 162, rfl⟩
abbrev main_c_20 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_c_21 : Ref sig .tc := ⟨.hbm, 169, rfl⟩
abbrev main_v116 : Ref sig .tc := ⟨.hbm, 170, rfl⟩
abbrev main_v117 : Ref sig .tc := ⟨.hbm, 171, rfl⟩
abbrev main_c_22 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_23 : Ref sig .tc := ⟨.hbm, 179, rfl⟩
abbrev main_v124 : Ref sig .tc := ⟨.hbm, 180, rfl⟩
abbrev main_v125 : Ref sig .tc := ⟨.hbm, 181, rfl⟩
abbrev main_cst_24 : Ref sig .tc := ⟨.hbm, 182, rfl⟩
abbrev main_v126 : Ref sig .tc := ⟨.hbm, 183, rfl⟩
abbrev main_v127 : Ref sig .tc := ⟨.hbm, 184, rfl⟩
abbrev main_call5_v0 : Ref sig .tc := ⟨.hbm, 185, rfl⟩
abbrev main_call5_call0_cst : Ref sig .tc := ⟨.hbm, 186, rfl⟩
abbrev main_call5_call0_v0 : Ref sig .tc := ⟨.hbm, 187, rfl⟩
abbrev main_call5_call0_v1 : Ref sig .tc := ⟨.hbm, 188, rfl⟩
abbrev main_call5_call0_v2 : Ref sig .tc := ⟨.hbm, 189, rfl⟩
abbrev main_call5_call0_v3 : Ref sig .tc := ⟨.hbm, 190, rfl⟩
abbrev main_call5_call0_v4 : Ref sig .tc := ⟨.hbm, 191, rfl⟩
abbrev main_call5_call0_v5 : Ref sig .tc := ⟨.hbm, 192, rfl⟩
abbrev main_call5_call0_v6 : Ref sig .tc := ⟨.hbm, 193, rfl⟩
abbrev main_call5_call0_v7 : Ref sig .tc := ⟨.hbm, 194, rfl⟩
abbrev main_call5_call0_v8 : Ref sig .tc := ⟨.hbm, 195, rfl⟩
abbrev main_call5_call0_v9 : Ref sig .tc := ⟨.hbm, 196, rfl⟩
abbrev main_call5_call0_v10 : Ref sig .tc := ⟨.hbm, 197, rfl⟩
abbrev main_call5_call0_v11 : Ref sig .tc := ⟨.hbm, 198, rfl⟩
abbrev main_call5_v1 : Ref sig .tc := ⟨.hbm, 199, rfl⟩
abbrev main_v128 : Ref sig .tc := ⟨.hbm, 200, rfl⟩
abbrev main_cst_25 : Ref sig .tc := ⟨.hbm, 201, rfl⟩
abbrev main_v129 : Ref sig .tc := ⟨.hbm, 202, rfl⟩
abbrev main_cst_26 : Ref sig .tc := ⟨.hbm, 203, rfl⟩
abbrev main_v130 : Ref sig .tc := ⟨.hbm, 204, rfl⟩
abbrev main_v131 : Ref sig .tc := ⟨.hbm, 205, rfl⟩
abbrev main_v132 : Ref sig .tc := ⟨.hbm, 206, rfl⟩
abbrev main_cst_27 : Ref sig .tc := ⟨.hbm, 207, rfl⟩
abbrev main_v133 : Ref sig .tc := ⟨.hbm, 208, rfl⟩
abbrev main_v134 : Ref sig .tc := ⟨.hbm, 209, rfl⟩
abbrev main_cst_28 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_cst_29 : Ref sig .tc := ⟨.hbm, 214, rfl⟩
abbrev main_v138 : Ref sig .tc := ⟨.hbm, 215, rfl⟩
abbrev main_v139 : Ref sig .tc := ⟨.hbm, 216, rfl⟩
abbrev main_cst_30 : Ref sig .tc := ⟨.hbm, 217, rfl⟩
abbrev main_v140 : Ref sig .tc := ⟨.hbm, 218, rfl⟩
abbrev main_cst_31 : Ref sig .tc := ⟨.hbm, 219, rfl⟩
abbrev main_v141 : Ref sig .tc := ⟨.hbm, 220, rfl⟩
abbrev main_cst_32 : Ref sig .tc := ⟨.hbm, 221, rfl⟩
abbrev main_v142 : Ref sig .tc := ⟨.hbm, 222, rfl⟩
abbrev main_v143 : Ref sig .tc := ⟨.hbm, 223, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S30000x64_0_1 : S1x64.BroadcastsInDim S30000x64 (![0, 1] : Fin 2 → Fin S30000x64.rank)
  bcast_S_S30000x1 : S_.BroadcastsInDim S30000x1 (![] : Fin 0 → Fin S30000x1.rank)
  concatenates_S30000x1_S30000x1_S30000x2_d1 : Shape.Concatenates [S30000x1, S30000x1] S30000x2 1
  reducesTo_S30000x2_S30000_d1 : S30000x2.ReducesTo [1] S30000
  h_S_ : 0 < S_.numel
  bcast_S30000_S30000x1_0 : S30000.BroadcastsInDim S30000x1 (![0] : Fin 1 → Fin S30000x1.rank)
  bcast_S30000x1_S30000x2_0_1 : S30000x1.BroadcastsInDim S30000x2 (![0, 1] : Fin 2 → Fin S30000x2.rank)
  slices_S30000x2_S30000x1_0_0 : S30000x2.Slices ![0, 0] S30000x1
  bcast_S30000x1_S30000x64_0_1 : S30000x1.BroadcastsInDim S30000x64 (![0, 1] : Fin 2 → Fin S30000x64.rank)
  slices_S30000x2_S30000x1_0_1 : S30000x2.Slices ![0, 1] S30000x1
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S100000 : S_.BroadcastsInDim S100000 (![] : Fin 0 → Fin S100000.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  reducesTo_S100000x64_S100000_d1 : S100000x64.ReducesTo [1] S100000
  bcast_S_S100000x1 : S_.BroadcastsInDim S100000x1 (![] : Fin 0 → Fin S100000x1.rank)
  bcast_S_S4096 : S_.BroadcastsInDim S4096 (![] : Fin 0 → Fin S4096.rank)
  bcast_S4096_S4096x1_0 : S4096.BroadcastsInDim S4096x1 (![0] : Fin 1 → Fin S4096x1.rank)
  reducesTo_S4096x64_S4096_d1 : S4096x64.ReducesTo [1] S4096
  reducesTo_S4096_S_d0 : S4096.ReducesTo [0] S_
  reducesTo_S4096x64_S_d0_1 : S4096x64.ReducesTo [0, 1] S_
  dot_S30000x2048_S2048x64_S30000x64_1_0_0_1_n_n_wf : DotDims.WF S30000x2048 S2048x64 S30000x64 [1] [0] [0] [1] [] []
  dot_S30000x768_S768x64_S30000x64_1_0_0_1_n_n_wf : DotDims.WF S30000x768 S768x64 S30000x64 [1] [0] [0] [1] [] []
  dot_S30000x64_S64x1_S30000x1_1_0_0_1_n_n_wf : DotDims.WF S30000x64 S64x1 S30000x1 [1] [0] [0] [1] [] []
  gather_S15x64_S2000000x1_S2000000x64_1_0_n_n_0_1_164_wf : GatherDims.WF S15x64 S2000000x1 S2000000x64 [1] [0] [] [0] [] 1 ![1, 64]
  scatter_S100000_S2000000x1_S2000000_n_0_0_1_wf : ScatterDims.WF S100000 S2000000x1 S2000000 [] [0] [0] 1
  gather_S100000x64_S2000000x1_S2000000x64_1_0_n_n_0_1_164_wf : GatherDims.WF S100000x64 S2000000x1 S2000000x64 [1] [0] [] [0] [] 1 ![1, 64]
  scatter_S100000x64_S2000000x1_S2000000x64_1_0_0_1_wf : ScatterDims.WF S100000x64 S2000000x1 S2000000x64 [1] [0] [0] 1
  gather_S100000x64_S4096x1_S4096x64_1_0_n_n_0_1_164_wf : GatherDims.WF S100000x64 S4096x1 S4096x64 [1] [0] [] [0] [] 1 ![1, 64]
  gather_S30000x64_S4096x1_S4096x64_1_0_n_n_0_1_164_wf : GatherDims.WF S30000x64 S4096x1 S4096x64 [1] [0] [] [0] [] 1 ![1, 64]

variable [Facts₀]

def dot_S30000x2048_S2048x64_S30000x64_1_0_0_1_n_n : DotDims S30000x2048 S2048x64 S30000x64 where
  lhsContracting := [1]
  rhsContracting := [0]
  lhsNonContracting := [0]
  rhsNonContracting := [1]
  lhsBatch := []
  rhsBatch := []
  wf := dot_S30000x2048_S2048x64_S30000x64_1_0_0_1_n_n_wf
def dot_S30000x768_S768x64_S30000x64_1_0_0_1_n_n : DotDims S30000x768 S768x64 S30000x64 where
  lhsContracting := [1]
  rhsContracting := [0]
  lhsNonContracting := [0]
  rhsNonContracting := [1]
  lhsBatch := []
  rhsBatch := []
  wf := dot_S30000x768_S768x64_S30000x64_1_0_0_1_n_n_wf
def dot_S30000x64_S64x1_S30000x1_1_0_0_1_n_n : DotDims S30000x64 S64x1 S30000x1 where
  lhsContracting := [1]
  rhsContracting := [0]
  lhsNonContracting := [0]
  rhsNonContracting := [1]
  lhsBatch := []
  rhsBatch := []
  wf := dot_S30000x64_S64x1_S30000x1_1_0_0_1_n_n_wf
def gather_S15x64_S2000000x1_S2000000x64_1_0_n_n_0_1_164 : GatherDims S15x64 S2000000x1 S2000000x64 where
  offsetDims := [1]
  collapsedSliceDims := [0]
  operandBatchingDims := []
  startIndicesBatchingDims := []
  startIndexMap := [0]
  indexVectorDim := 1
  sliceSizes := ![1, 64]
  wf := gather_S15x64_S2000000x1_S2000000x64_1_0_n_n_0_1_164_wf
def scatter_S100000_S2000000x1_S2000000_n_0_0_1 : ScatterDims S100000 S2000000x1 S2000000 where
  updateWindowDims := []
  insertedWindowDims := [0]
  scatterDimsToOperandDims := [0]
  indexVectorDim := 1
  wf := scatter_S100000_S2000000x1_S2000000_n_0_0_1_wf
def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def scatter_S100000x64_S2000000x1_S2000000x64_1_0_0_1 : ScatterDims S100000x64 S2000000x1 S2000000x64 where
  updateWindowDims := [1]
  insertedWindowDims := [0]
  scatterDimsToOperandDims := [0]
  indexVectorDim := 1
  wf := scatter_S100000x64_S2000000x1_S2000000x64_1_0_0_1_wf
def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S30000x64_S4096x1_S4096x64_1_0_n_n_0_1_164 : GatherDims S30000x64 S4096x1 S4096x64 where
  offsetDims := [1]
  collapsedSliceDims := [0]
  operandBatchingDims := []
  startIndicesBatchingDims := []
  startIndexMap := [0]
  indexVectorDim := 1
  sliceSizes := ![1, 64]
  wf := gather_S30000x64_S4096x1_S4096x64_1_0_n_n_0_1_164_wf

class Facts : Prop extends Facts₀ where

variable [Facts]
-- ==== Proof.Terms.lean ====
/-
  The reference's computation, named piece by piece. Every definition below is the composition of the reference
  program's own host operations, in the order the program applies them, as a function of the arrays it reads:
  the attention-weighted item embedding; the relation row of each edge; the per-entity edge count; one
  propagation hop (gather the tail entity's row, multiply by the edge's relation row, sum into the head entity,
  divide by the count, normalise the row to unit length, add to the running residual); and the two losses over
  the gathered batch rows. The kernel's program is proved to compute these same functions; the reference's run
  is read back as these terms with no reasoning about indices.
-/
import proofs.«421973_j75917841924564_2_alg».proof.ReferenceIdeal

noncomputable section

namespace Cert.ReferenceIdeal.Terms

open Cert.ReferenceIdeal Cert.ReferenceIdeal.Facts₀ Cert.ReferenceIdeal.Facts Idealize.ShloMosaic Idealize.ShloMosaic.TcCoe

variable {F : FTy → Type} [FloatOps F] [Facts]

/-- An array of the given shape and element type. -/
abbrev Arr (F : FTy → Type) [FloatOps F] (S : Shape) (e : EltTy) : Type := (⟨S, e⟩ : BufTy).Contents (Elt F)

/-! ## The item embedding: two projections mixed by a two-way softmax of their gated scores -/

/-- A feature matrix projected to 64 columns plus its bias row: the picture branch. -/
def projP (pic : Arr F S30000x2048 .f32) (wpf : Arr F S2048x64 .f32) (bpf : Arr F S64 .f32) : Arr F S30000x64 .f32 :=
  addf (Host.dotGeneral dot_S30000x2048_S2048x64_S30000x64_1_0_0_1_n_n none pic wpf)
    (broadcastInDim S30000x64 ![0, 1] bcast_S1x64_S30000x64_0_1 (broadcastInDim S1x64 ![1] bcast_S64_S1x64_1 bpf))

/-- The text branch. -/
def projT (txt : Arr F S30000x768 .f32) (wtf : Arr F S768x64 .f32) (btf : Arr F S64 .f32) : Arr F S30000x64 .f32 :=
  addf (Host.dotGeneral dot_S30000x768_S768x64_S30000x64_1_0_0_1_n_n none txt wtf)
    (broadcastInDim S30000x64 ![0, 1] bcast_S1x64_S30000x64_0_1 (broadcastInDim S1x64 ![1] bcast_S64_S1x64_1 btf))

/-- A branch's score per item: its projection against the scoring column, cut off below at zero. -/
def score (x : Arr F S30000x64 .f32) (ww : Arr F S64x1 .f32) : Arr F S30000x1 .f32 :=
  maximumf (Host.dotGeneral dot_S30000x64_S64x1_S30000x1_1_0_0_1_n_n none x ww)
    (broadcastInDim S30000x1 ![] bcast_S_S30000x1 (constant S_ .f32 0x00000000#32))

/-- The two branches' exponentiated scores side by side, each divided by their sum. -/
def mix (a b : Arr F S30000x1 .f32) : Arr F S30000x2 .f32 :=
  Host.divf (Host.exp (concatenate S30000x2 1 [⟨S30000x1, a⟩, ⟨S30000x1, b⟩] concatenates_S30000x1_S30000x1_S30000x2_d1))
    (broadcastInDim S30000x2 ![0, 1] bcast_S30000x1_S30000x2_0_1
      (broadcastInDim S30000x1 ![0] bcast_S30000_S30000x1_0
        (Host.reduceAdd (Host.exp (concatenate S30000x2 1 [⟨S30000x1, a⟩, ⟨S30000x1, b⟩] concatenates_S30000x1_S30000x1_S30000x2_d1))
          (constant S_ .f32 0x00000000#32) reducesTo_S30000x2_S30000_d1 h_S_)))

/-- The item embedding from the two projections: each weighted by its column of the mix. -/
def blend (x y : Arr F S30000x64 .f32) (ww : Arr F S64x1 .f32) : Arr F S30000x64 .f32 :=
  addf
    (mulf (broadcastInDim S30000x64 ![0, 1] bcast_S30000x1_S30000x64_0_1
      (extractStridedSlice S30000x1 ![0, 0] (mix (score x ww) (score y ww)) slices_S30000x2_S30000x1_0_0)) x)
    (mulf (broadcastInDim S30000x64 ![0, 1] bcast_S30000x1_S30000x64_0_1
      (extractStridedSlice S30000x1 ![0, 1] (mix (score x ww) (score y ww)) slices_S30000x2_S30000x1_0_1)) y)

/-- The item embedding of the seven arrays the attention step reads. -/
def item (pic : Arr F S30000x2048 .f32) (txt : Arr F S30000x768 .f32) (wpf : Arr F S2048x64 .f32) (bpf : Arr F S64 .f32)
    (wtf : Arr F S768x64 .f32) (btf : Arr F S64 .f32) (ww : Arr F S64x1 .f32) : Arr F S30000x64 .f32 :=
  blend (projP pic wpf bpf) (projT txt wtf btf) ww

/-! ## The graph: heads, tails, relation rows, edge counts -/

/-- Row 0 of the edge list: each edge's head entity. -/
def heads (ei : Arr F S2x2000000 .i32) : Arr F S2000000 .i32 :=
  fun i => shapeCast S2000000 (extractStridedSlice S1x2000000 ![0, 0] ei slices_S2x2000000_S1x2000000_0_0) shapeCasts_S1x2000000_S2000000 i

/-- Row 1 of the edge list: each edge's tail entity. -/
def tails (ei : Arr F S2x2000000 .i32) : Arr F S2000000 .i32 :=
  fun i => shapeCast S2000000 (extractStridedSlice S1x2000000 ![1, 0] ei slices_S2x2000000_S1x2000000_1_0) shapeCasts_S1x2000000_S2000000 i

/-- An index column for a table of `n` rows: a negative index counted from the end. -/
def wrapEdges (n : BitVec 32) (x : Arr F S2000000 .i32) : Arr F S2000000x1 .i32 :=
  broadcastInDim S2000000x1 ![0] bcast_S2000000_S2000000x1_0
    (select (cmpi .slt x (broadcastInDim S2000000 ![] bcast_S_S2000000 (constantI S_ 32 0#32)))
      (addi x (broadcastInDim S2000000 ![] bcast_S_S2000000 (constantI S_ 32 n))) x)

/-- The same for a batch of 4096 indices. -/
def wrapBatch (n : BitVec 32) (x : Arr F S4096 .i32) : Arr F S4096x1 .i32 :=
  broadcastInDim S4096x1 ![0] bcast_S4096_S4096x1_0
    (select (cmpi .slt x (broadcastInDim S4096 ![] bcast_S_S4096 (constantI S_ 32 0#32)))
      (addi x (broadcastInDim S4096 ![] bcast_S_S4096 (constantI S_ 32 n))) x)

/-- The edge types shifted to start at zero. -/
def typeIdx (et : Arr F S2000000 .i32) : Arr F S2000000 .i32 :=
  subi et (broadcastInDim S2000000 ![] bcast_S_S2000000 (constantI S_ 32 1#32))

/-- Each edge's relation row: the weight table read at the edge's type less one. -/
def rel (w : Arr F S15x64 .f32) (et : Arr F S2000000 .i32) : Arr F S2000000x64 .f32 :=
  Host.gather gather_S15x64_S2000000x1_S2000000x64_1_0_n_n_0_1_164 w (wrapEdges 15#32 (typeIdx et))

/-- How many edges have each entity as head, at least one. -/
def count (ei : Arr F S2x2000000 .i32) : Arr F S100000 .f32 :=
  maximumf
    (Host.scatterAdd scatter_S100000_S2000000x1_S2000000_n_0_0_1
      (broadcastInDim S100000 ![] bcast_S_S100000 (constant S_ .f32 0x00000000#32))
      (broadcastInDim S2000000x1 ![0] bcast_S2000000_S2000000x1_0 (heads ei))
      (broadcastInDim S2000000 ![] bcast_S_S2000000 (constant S_ .f32 0x3F800000#32)))
    (broadcastInDim S100000 ![] bcast_S_S100000 (constant S_ .f32 0x3F800000#32))

/-- The count as a column. -/
def countCol (ei : Arr F S2x2000000 .i32) : Arr F S100000x1 .f32 :=
  broadcastInDim S100000x1 ![0] bcast_S100000_S100000x1_0 (count ei)

/-! ## One propagation hop -/

/-- The tail entity's row of `e`, per edge. -/
def gatherTail (e : Arr F S100000x64 .f32) (ei : Arr F S2x2000000 .i32) : Arr F S2000000x64 .f32 :=
  Host.gather gather_S100000x64_S2000000x1_S2000000x64_1_0_n_n_0_1_164 e (wrapEdges 100000#32 (tails ei))

/-- Per-edge messages summed into their head entity's row. -/
def sumToHead (msg : Arr F S2000000x64 .f32) (ei : Arr F S2x2000000 .i32) : Arr F S100000x64 .f32 :=
  Host.scatterAdd scatter_S100000x64_S2000000x1_S2000000x64_1_0_0_1
    (broadcastInDim S100000x64 ![] bcast_S_S100000x64 (constant S_ .f32 0x00000000#32))
    (broadcastInDim S2000000x1 ![0] bcast_S2000000_S2000000x1_0 (heads ei)) msg

/-- A row sum divided by the entity's count column. -/
def meanBy (agg : Arr F S100000x64 .f32) (den : Arr F S100000x1 .f32) : Arr F S100000x64 .f32 :=
  Host.divf agg (broadcastInDim S100000x64 ![0, 1] bcast_S100000x1_S100000x64_0_1 den)

/-- Each row's Euclidean length, as a column. -/
def rowNorm (a : Arr F S100000x64 .f32) : Arr F S100000x1 .f32 :=
  Host.sqrt (broadcastInDim S100000x1 ![0] bcast_S100000_S100000x1_0
    (Host.reduceAdd (mulf a a) (constant S_ .f32 0x00000000#32) reducesTo_S100000x64_S100000_d1 h_S_))

/-- Each row divided by its length, the length cut off below at the small constant. -/
def unitRows (a : Arr F S100000x64 .f32) : Arr F S100000x64 .f32 :=
  Host.divf a (broadcastInDim S100000x64 ![0, 1] bcast_S100000x1_S100000x64_0_1
    (maximumf (rowNorm a) (broadcastInDim S100000x1 ![] bcast_S_S100000x1 (constant S_ .f32 0x2B8CBCCC#32))))

/-- The hop's new embedding from the summed messages and the count column. -/
def postE (agg : Arr F S100000x64 .f32) (den : Arr F S100000x1 .f32) : Arr F S100000x64 .f32 :=
  unitRows (meanBy agg den)

/-- The hop's new residual. -/
def postR (agg : Arr F S100000x64 .f32) (den : Arr F S100000x1 .f32) (res : Arr F S100000x64 .f32) : Arr F S100000x64 .f32 :=
  addf res (postE agg den)

/-- One hop's new embedding from the previous one. -/
def hopE (e : Arr F S100000x64 .f32) (w : Arr F S15x64 .f32) (et : Arr F S2000000 .i32) (ei : Arr F S2x2000000 .i32) : Arr F S100000x64 .f32 :=
  postE (sumToHead (mulf (gatherTail e ei) (rel w et)) ei) (countCol ei)

/-- The residual after three hops from the entity table. -/
def res3 (e0 : Arr F S100000x64 .f32) (w : Arr F S15x64 .f32) (et : Arr F S2000000 .i32) (ei : Arr F S2x2000000 .i32) : Arr F S100000x64 .f32 :=
  addf (addf (addf e0 (hopE e0 w et ei)) (hopE (hopE e0 w et ei) w et ei)) (hopE (hopE (hopE e0 w et ei) w et ei) w et ei)

/-! ## The losses over the batch -/

/-- The batch's entity rows. -/
def userRows (res : Arr F S100000x64 .f32) (users : Arr F S4096 .i32) : Arr F S4096x64 .f32 :=
  Host.gather gather_S100000x64_S4096x1_S4096x64_1_0_n_n_0_1_164 res (wrapBatch 100000#32 users)

/-- The batch's item rows. -/
def itemRows (it : Arr F S30000x64 .f32) (ix : Arr F S4096 .i32) : Arr F S4096x64 .f32 :=
  Host.gather gather_S30000x64_S4096x1_S4096x64_1_0_n_n_0_1_164 it (wrapBatch 30000#32 ix)

/-- Row-wise inner product of two batches. -/
def rowDot (u v : Arr F S4096x64 .f32) : Arr F S4096 .f32 :=
  Host.reduceAdd (mulf u v) (constant S_ .f32 0x00000000#32) reducesTo_S4096x64_S4096_d1 h_S_

/-- `log (sigmoid x)` as the program computes it: minus the softplus of minus `x`. -/
def logSigmoid (x : Arr F S4096 .f32) : Arr F S4096 .f32 :=
  Host.negf
    (select (cmpf .une (subf (Host.negf x) (broadcastInDim S4096 ![] bcast_S_S4096 (constant S_ .f32 0x00000000#32)))
                       (subf (Host.negf x) (broadcastInDim S4096 ![] bcast_S_S4096 (constant S_ .f32 0x00000000#32))))
      (addf (Host.negf x) (broadcastInDim S4096 ![] bcast_S_S4096 (constant S_ .f32 0x00000000#32)))
      (addf (maximumf (Host.negf x) (broadcastInDim S4096 ![] bcast_S_S4096 (constant S_ .f32 0x00000000#32)))
        (Host.log1p (Host.exp (Host.negf (Host.absf
          (subf (Host.negf x) (broadcastInDim S4096 ![] bcast_S_S4096 (constant S_ .f32 0x00000000#32)))))))))

/-- The ranking loss: minus the batch mean of `log (sigmoid (pos − neg))`. -/
def mfLoss (u p n : Arr F S4096x64 .f32) : Arr F S_ .f32 :=
  Host.negf (Host.divf
    (Host.reduceAdd (logSigmoid (subf (rowDot u p) (rowDot u n))) (constant S_ .f32 0x00000000#32) reducesTo_S4096_S_d0 h_S_)
    (constant S_ .f32 0x45800000#32))

/-- The sum of all squared entries of a batch. -/
def sqSum (u : Arr F S4096x64 .f32) : Arr F S_ .f32 :=
  Host.reduceAdd (mulf u u) (constant S_ .f32 0x00000000#32) reducesTo_S4096x64_S_d0_1 h_S_

/-- The embedding penalty: the decay times half the three squared sums, over the batch size. -/
def embLoss (u p n : Arr F S4096x64 .f32) : Arr F S_ .f32 :=
  Host.divf (mulf (constant S_ .f32 0x38D1B717#32)
    (Host.divf (addf (addf (sqSum u) (sqSum p)) (sqSum n)) (constant S_ .f32 0x40000000#32)))
    (constant S_ .f32 0x45800000#32)

/-- The total loss. -/
def totalLoss (u p n : Arr F S4096x64 .f32) : Arr F S_ .f32 := addf (mfLoss u p n) (embLoss u p n)

/-! ## The three results as functions of the fourteen arguments -/

/-- The total loss of the fourteen argument arrays. -/
def outTotal (a0 : Arr F S100000x64 .f32) (a1 : Arr F S15x64 .f32) (a2 : Arr F S30000x2048 .f32) (a3 : Arr F S30000x768 .f32) (a4 : Arr F S2048x64 .f32) (a5 : Arr F S64 .f32) (a6 : Arr F S768x64 .f32) (a7 : Arr F S64 .f32) (a8 : Arr F S64x1 .f32) (a9 : Arr F S2x2000000 .i32) (a10 : Arr F S2000000 .i32) (a11 : Arr F S4096 .i32) (a12 : Arr F S4096 .i32) (a13 : Arr F S4096 .i32) : Arr F S_ .f32 :=
  totalLoss (userRows (res3 a0 a1 a10 a9) a11) (itemRows (item a2 a3 a4 a5 a6 a7 a8) a12) (itemRows (item a2 a3 a4 a5 a6 a7 a8) a13)

/-- The ranking loss of the fourteen argument arrays. -/
def outMf (a0 : Arr F S100000x64 .f32) (a1 : Arr F S15x64 .f32) (a2 : Arr F S30000x2048 .f32) (a3 : Arr F S30000x768 .f32) (a4 : Arr F S2048x64 .f32) (a5 : Arr F S64 .f32) (a6 : Arr F S768x64 .f32) (a7 : Arr F S64 .f32) (a8 : Arr F S64x1 .f32) (a9 : Arr F S2x2000000 .i32) (a10 : Arr F S2000000 .i32) (a11 : Arr F S4096 .i32) (a12 : Arr F S4096 .i32) (a13 : Arr F S4096 .i32) : Arr F S_ .f32 :=
  mfLoss (userRows (res3 a0 a1 a10 a9) a11) (itemRows (item a2 a3 a4 a5 a6 a7 a8) a12) (itemRows (item a2 a3 a4 a5 a6 a7 a8) a13)

/-- The embedding penalty of the fourteen argument arrays. -/
def outEmb (a0 : Arr F S100000x64 .f32) (a1 : Arr F S15x64 .f32) (a2 : Arr F S30000x2048 .f32) (a3 : Arr F S30000x768 .f32) (a4 : Arr F S2048x64 .f32) (a5 : Arr F S64 .f32) (a6 : Arr F S768x64 .f32) (a7 : Arr F S64 .f32) (a8 : Arr F S64x1 .f32) (a9 : Arr F S2x2000000 .i32) (a10 : Arr F S2000000 .i32) (a11 : Arr F S4096 .i32) (a12 : Arr F S4096 .i32) (a13 : Arr F S4096 .i32) : Arr F S_ .f32 :=
  embLoss (userRows (res3 a0 a1 a10 a9) a11) (itemRows (item a2 a3 a4 a5 a6 a7 a8) a12) (itemRows (item a2 a3 a4 a5 a6 a7 a8) a13)

end Cert.ReferenceIdeal.Terms

end
-- ==== Proof.Spec.lean ====
/-
  The same functions as in Terms.lean, written entry by entry on the extended reals. An entry of the item
  embedding is a convex-looking mix of two affine projections of the item's picture and text features, the two
  weights being exp(a) / (exp(a) + exp(b)) and exp(b) / (exp(a) + exp(b)) for the branches' non-negative scores a, b.
  An entry of an edge's message is the tail entity's entry times the relation table's entry of the edge's type,
  the table read through a one-hot sum over its fifteen rows. An entry of a propagated embedding is the head
  entity's summed messages divided by its edge count and then by the row's length, the length cut off below.
  Both programs are compared with these formulas, one index at a time.
-/
import proofs.«421973_j75917841924564_2_alg».proof.Proof.Terms
import Idealize.ShloMosaic.Lib.ValueIdx
import Idealize.ShloMosaic.PureOps.Ideal

noncomputable section

namespace Cert.ReferenceIdeal.Spec

open Cert.ReferenceIdeal Cert.ReferenceIdeal.Terms Idealize.ShloMosaic Idealize.ShloMosaic.TcCoe Idealize.ShloMosaic.ValueIdx

/-- The zero word's value. -/
abbrev z32 : Ideal .f32 := Ideal.ofBits .f32 0x00000000#32

/-- The small constant the row length is cut off at. -/
abbrev eps32 : Ideal .f32 := Ideal.ofBits .f32 0x2B8CBCCC#32

/-! ## The item embedding at an index -/

/-- Row `i` of the features against column `j` of the projection, plus the bias entry. -/
def projAt {K : Nat} (x : (⟨2, ![30000, K]⟩ : Shape).Idx → Ideal .f32) (w : (⟨2, ![K, 64]⟩ : Shape).Idx → Ideal .f32)
    (b : (⟨1, ![64]⟩ : Shape).Idx → Ideal .f32) (i : Fin 30000) (j : Fin 64) : Ideal .f32 :=
  (∑ k : Fin K, x (ix2 i k) * w (ix2 k j)) + b (ix1 j)

/-- A branch's score of item `i`: its projected row against the scoring column, cut off below at zero. -/
def scoreAt (X : Fin 30000 → Fin 64 → Ideal .f32) (ww : (⟨2, ![64, 1]⟩ : Shape).Idx → Ideal .f32) (i : Fin 30000) : Ideal .f32 :=
  max (∑ k : Fin 64, X i k * ww (ix2 k (0 : Fin 1))) z32

/-- The mixed entry from the two branches' projections. -/
def blendAt (X Y : Fin 30000 → Fin 64 → Ideal .f32) (ww : (⟨2, ![64, 1]⟩ : Shape).Idx → Ideal .f32) (i : Fin 30000) (j : Fin 64) : Ideal .f32 :=
  Ideal.div (Ideal.exp (scoreAt X ww i)) (Ideal.exp (scoreAt X ww i) + Ideal.exp (scoreAt Y ww i)) * X i j
    + Ideal.div (Ideal.exp (scoreAt Y ww i)) (Ideal.exp (scoreAt X ww i) + Ideal.exp (scoreAt Y ww i)) * Y i j

/-- The item embedding's entry `(i, j)`. -/
def itemAt (pic : Arr Ideal S30000x2048 .f32) (txt : Arr Ideal S30000x768 .f32) (wpf : Arr Ideal S2048x64 .f32) (bpf : Arr Ideal S64 .f32)
    (wtf : Arr Ideal S768x64 .f32) (btf : Arr Ideal S64 .f32) (ww : Arr Ideal S64x1 .f32) (i : Fin 30000) (j : Fin 64) : Ideal .f32 :=
  blendAt (projAt pic wpf bpf) (projAt txt wtf btf) ww i j

/-! ## A message at an index -/

/-- Edge `i`'s relation entry in column `j`, read through the one-hot of its zero-based type over the table's rows. -/
def relAt (et1 : Arr Ideal S2000000x1 .i32) (w : Arr Ideal S15x64 .f32) (i : Fin 2000000) (j : Fin 64) : Ideal .f32 :=
  ∑ k : Fin 15, (if et1 (ix2 i (0 : Fin 1)) = BitVec.ofNat 32 k.val then (1 : EReal) else 0) * w (ix2 k j)

/-- Edge `i`'s message in column `j`. -/
def msgAt (g : Arr Ideal S2000000x64 .f32) (et1 : Arr Ideal S2000000x1 .i32) (w : Arr Ideal S15x64 .f32) (i : Fin 2000000) (j : Fin 64) : Ideal .f32 :=
  g (ix2 i j) * relAt et1 w i j

/-- The messages as an array. -/
def msgArr (g : Arr Ideal S2000000x64 .f32) (et1 : Arr Ideal S2000000x1 .i32) (w : Arr Ideal S15x64 .f32) : Arr Ideal S2000000x64 .f32 :=
  fun y => msgAt g et1 w (y 0) (y 1)

/-! ## A propagated row at an index -/

/-- The summed messages of entity `i` over its edge count. -/
def meanAt (agg : Arr Ideal S100000x64 .f32) (den : Arr Ideal S100000x1 .f32) (i : Fin 100000) (j : Fin 64) : Ideal .f32 :=
  Ideal.div (agg (ix2 i j)) (den (ix2 i (0 : Fin 1)))

/-- Row `i`'s length, cut off below. -/
def lenAt (agg : Arr Ideal S100000x64 .f32) (den : Arr Ideal S100000x1 .f32) (i : Fin 100000) : Ideal .f32 :=
  max (Ideal.sqrt (z32 + ∑ k : Fin 64, meanAt agg den i k * meanAt agg den i k)) eps32

/-- The new embedding's entry. -/
def postEAt (agg : Arr Ideal S100000x64 .f32) (den : Arr Ideal S100000x1 .f32) (i : Fin 100000) (j : Fin 64) : Ideal .f32 :=
  Ideal.div (meanAt agg den i j) (lenAt agg den i)

/-- The new residual's entry. -/
def postRAt (agg : Arr Ideal S100000x64 .f32) (den : Arr Ideal S100000x1 .f32) (res : Arr Ideal S100000x64 .f32) (i : Fin 100000) (j : Fin 64) : Ideal .f32 :=
  res (ix2 i j) + postEAt agg den i j

end Cert.ReferenceIdeal.Spec

end
-- ==== Proof.KAttn.lean ====
/-
  The attention kernel's output array: thirty blocks of a thousand item rows, each block the body's result on the
  block's picture and text rows and the whole weight arrays; entry by entry it is the mixed entry of Spec.lean.
-/
import proofs.«421973_j75917841924564_2_alg».proof.Proof.Gen.KernelIdeal.Frame
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's block products, entry by entry -/

/-! ### The product of a 1000 x 2048 block with a 2048 x 64 array, entry by entry -/

theorem lhs_pic_0 (i : S1000x64.Idx) (q : dot_S1000x2048_S2048x64_S1000x64_1_0_0_1_n_n.contr.Idx) :
    (dot_S1000x2048_S2048x64_S1000x64_1_0_0_1_n_n.lhsIdx i q 0).val = (i 0).val := by
  unfold DotDims.lhsIdx
  rw [dif_neg (show ¬(0 : Fin S1000x2048.rank) ∈ dot_S1000x2048_S2048x64_S1000x64_1_0_0_1_n_n.lhsBatch by decide), dif_pos (show (0 : Fin S1000x2048.rank) ∈ dot_S1000x2048_S2048x64_S1000x64_1_0_0_1_n_n.lhsNonContracting by decide)]
  rfl
theorem lhs_pic_1 (i : S1000x64.Idx) (q : dot_S1000x2048_S2048x64_S1000x64_1_0_0_1_n_n.contr.Idx) :
    (dot_S1000x2048_S2048x64_S1000x64_1_0_0_1_n_n.lhsIdx i q 1).val = (q ⟨0, by decide⟩).val :=
  dot_S1000x2048_S2048x64_S1000x64_1_0_0_1_n_n.lhsIdx_val_of_single rfl i q
theorem rhs_pic_0 (i : S1000x64.Idx) (q : dot_S1000x2048_S2048x64_S1000x64_1_0_0_1_n_n.contr.Idx) :
    (dot_S1000x2048_S2048x64_S1000x64_1_0_0_1_n_n.rhsIdx i q 0).val = (q ⟨0, by decide⟩).val :=
  dot_S1000x2048_S2048x64_S1000x64_1_0_0_1_n_n.rhsIdx_val_of_single rfl i q
theorem rhs_pic_1 (i : S1000x64.Idx) (q : dot_S1000x2048_S2048x64_S1000x64_1_0_0_1_n_n.contr.Idx) :
    (dot_S1000x2048_S2048x64_S1000x64_1_0_0_1_n_n.rhsIdx i q 1).val = (i 1).val := by
  unfold DotDims.rhsIdx
  rw [dif_neg (show ¬(1 : Fin S2048x64.rank) ∈ dot_S1000x2048_S2048x64_S1000x64_1_0_0_1_n_n.rhsBatch by decide), dif_pos (show (1 : Fin S2048x64.rank) ∈ dot_S1000x2048_S2048x64_S1000x64_1_0_0_1_n_n.rhsNonContracting by decide)]
  rfl

/-- Entry (p, q) of the product into a zero accumulator is the sum over the shared axis. -/
theorem matmul_pic {φ₁ φ₂ : FTy} (x : FVec Ideal S1000x2048 φ₁) (w : FVec Ideal S2048x64 φ₂) (p : Fin 1000) (q : Fin 64) :
    matmul dot_S1000x2048_S2048x64_S1000x64_1_0_0_1_n_n none x w (constant (F := Ideal) S1000x64 .f32 0x00000000#32) (ix2 p q)
      = ∑ k : Fin 2048, x (ix2 p k) * w (ix2 k q) := by
  simp only [matmul]
  rw [Ideal.matmul_constant_zero_apply, ← Equiv.sum_comp (contrEquiv1 dot_S1000x2048_S2048x64_S1000x64_1_0_0_1_n_n 2048 rfl rfl).symm]
  refine Finset.sum_congr rfl fun k _ => ?_
  have hk := contrEquiv1_symm_val dot_S1000x2048_S2048x64_S1000x64_1_0_0_1_n_n 2048 rfl rfl k
  have el : dot_S1000x2048_S2048x64_S1000x64_1_0_0_1_n_n.lhsIdx (ix2 p q) ((contrEquiv1 dot_S1000x2048_S2048x64_S1000x64_1_0_0_1_n_n 2048 rfl rfl).symm k) = ix2 p k := funext fun a => Fin.ext (by
    match a with
    | ⟨0, _⟩ => exact lhs_pic_0 _ _
    | ⟨1, _⟩ => exact (lhs_pic_1 _ _).trans hk)
  have er : dot_S1000x2048_S2048x64_S1000x64_1_0_0_1_n_n.rhsIdx (ix2 p q) ((contrEquiv1 dot_S1000x2048_S2048x64_S1000x64_1_0_0_1_n_n 2048 rfl rfl).symm k) = ix2 k q := funext fun a => Fin.ext (by
    match a with
    | ⟨0, _⟩ => exact (rhs_pic_0 _ _).trans hk
    | ⟨1, _⟩ => exact rhs_pic_1 _ _)
  rw [el, er]

/-! ### The product of a 1000 x 768 block with a 768 x 64 array, entry by entry -/

theorem lhs_txt_0 (i : S1000x64.Idx) (q : dot_S1000x768_S768x64_S1000x64_1_0_0_1_n_n.contr.Idx) :
    (dot_S1000x768_S768x64_S1000x64_1_0_0_1_n_n.lhsIdx i q 0).val = (i 0).val := by
  unfold DotDims.lhsIdx
  rw [dif_neg (show ¬(0 : Fin S1000x768.rank) ∈ dot_S1000x768_S768x64_S1000x64_1_0_0_1_n_n.lhsBatch by decide), dif_pos (show (0 : Fin S1000x768.rank) ∈ dot_S1000x768_S768x64_S1000x64_1_0_0_1_n_n.lhsNonContracting by decide)]
  rfl
theorem lhs_txt_1 (i : S1000x64.Idx) (q : dot_S1000x768_S768x64_S1000x64_1_0_0_1_n_n.contr.Idx) :
    (dot_S1000x768_S768x64_S1000x64_1_0_0_1_n_n.lhsIdx i q 1).val = (q ⟨0, by decide⟩).val :=
  dot_S1000x768_S768x64_S1000x64_1_0_0_1_n_n.lhsIdx_val_of_single rfl i q
theorem rhs_txt_0 (i : S1000x64.Idx) (q : dot_S1000x768_S768x64_S1000x64_1_0_0_1_n_n.contr.Idx) :
    (dot_S1000x768_S768x64_S1000x64_1_0_0_1_n_n.rhsIdx i q 0).val = (q ⟨0, by decide⟩).val :=
  dot_S1000x768_S768x64_S1000x64_1_0_0_1_n_n.rhsIdx_val_of_single rfl i q
theorem rhs_txt_1 (i : S1000x64.Idx) (q : dot_S1000x768_S768x64_S1000x64_1_0_0_1_n_n.contr.Idx) :
    (dot_S1000x768_S768x64_S1000x64_1_0_0_1_n_n.rhsIdx i q 1).val = (i 1).val := by
  unfold DotDims.rhsIdx
  rw [dif_neg (show ¬(1 : Fin S768x64.rank) ∈ dot_S1000x768_S768x64_S1000x64_1_0_0_1_n_n.rhsBatch by decide), dif_pos (show (1 : Fin S768x64.rank) ∈ dot_S1000x768_S768x64_S1000x64_1_0_0_1_n_n.rhsNonContracting by decide)]
  rfl

/-- Entry (p, q) of the product into a zero accumulator is the sum over the shared axis. -/
theorem matmul_txt {φ₁ φ₂ : FTy} (x : FVec Ideal S1000x768 φ₁) (w : FVec Ideal S768x64 φ₂) (p : Fin 1000) (q : Fin 64) :
    matmul dot_S1000x768_S768x64_S1000x64_1_0_0_1_n_n none x w (constant (F := Ideal) S1000x64 .f32 0x00000000#32) (ix2 p q)
      = ∑ k : Fin 768, x (ix2 p k) * w (ix2 k q) := by
  simp only [matmul]
  rw [Ideal.matmul_constant_zero_apply, ← Equiv.sum_comp (contrEquiv1 dot_S1000x768_S768x64_S1000x64_1_0_0_1_n_n 768 rfl rfl).symm]
  refine Finset.sum_congr rfl fun k _ => ?_
  have hk := contrEquiv1_symm_val dot_S1000x768_S768x64_S1000x64_1_0_0_1_n_n 768 rfl rfl k
  have el : dot_S1000x768_S768x64_S1000x64_1_0_0_1_n_n.lhsIdx (ix2 p q) ((contrEquiv1 dot_S1000x768_S768x64_S1000x64_1_0_0_1_n_n 768 rfl rfl).symm k) = ix2 p k := funext fun a => Fin.ext (by
    match a with
    | ⟨0, _⟩ => exact lhs_txt_0 _ _
    | ⟨1, _⟩ => exact (lhs_txt_1 _ _).trans hk)
  have er : dot_S1000x768_S768x64_S1000x64_1_0_0_1_n_n.rhsIdx (ix2 p q) ((contrEquiv1 dot_S1000x768_S768x64_S1000x64_1_0_0_1_n_n 768 rfl rfl).symm k) = ix2 k q := funext fun a => Fin.ext (by
    match a with
    | ⟨0, _⟩ => exact (rhs_txt_0 _ _).trans hk
    | ⟨1, _⟩ => exact rhs_txt_1 _ _)
  rw [el, er]

/-! ### The product of a 1000 x 64 block with a 64 x 1 array, entry by entry -/

theorem lhs_score_0 (i : S1000x1.Idx) (q : dot_S1000x64_S64x1_S1000x1_1_0_0_1_n_n.contr.Idx) :
    (dot_S1000x64_S64x1_S1000x1_1_0_0_1_n_n.lhsIdx i q 0).val = (i 0).val := by
  unfold DotDims.lhsIdx
  rw [dif_neg (show ¬(0 : Fin S1000x64.rank) ∈ dot_S1000x64_S64x1_S1000x1_1_0_0_1_n_n.lhsBatch by decide), dif_pos (show (0 : Fin S1000x64.rank) ∈ dot_S1000x64_S64x1_S1000x1_1_0_0_1_n_n.lhsNonContracting by decide)]
  rfl
theorem lhs_score_1 (i : S1000x1.Idx) (q : dot_S1000x64_S64x1_S1000x1_1_0_0_1_n_n.contr.Idx) :
    (dot_S1000x64_S64x1_S1000x1_1_0_0_1_n_n.lhsIdx i q 1).val = (q ⟨0, by decide⟩).val :=
  dot_S1000x64_S64x1_S1000x1_1_0_0_1_n_n.lhsIdx_val_of_single rfl i q
theorem rhs_score_0 (i : S1000x1.Idx) (q : dot_S1000x64_S64x1_S1000x1_1_0_0_1_n_n.contr.Idx) :
    (dot_S1000x64_S64x1_S1000x1_1_0_0_1_n_n.rhsIdx i q 0).val = (q ⟨0, by decide⟩).val :=
  dot_S1000x64_S64x1_S1000x1_1_0_0_1_n_n.rhsIdx_val_of_single rfl i q
theorem rhs_score_1 (i : S1000x1.Idx) (q : dot_S1000x64_S64x1_S1000x1_1_0_0_1_n_n.contr.Idx) :
    (dot_S1000x64_S64x1_S1000x1_1_0_0_1_n_n.rhsIdx i q 1).val = (i 1).val := by
  unfold DotDims.rhsIdx
  rw [dif_neg (show ¬(1 : Fin S64x1.rank) ∈ dot_S1000x64_S64x1_S1000x1_1_0_0_1_n_n.rhsBatch by decide), dif_pos (show (1 : Fin S64x1.rank) ∈ dot_S1000x64_S64x1_S1000x1_1_0_0_1_n_n.rhsNonContracting by decide)]
  rfl

/-- Entry (p, q) of the product into a zero accumulator is the sum over the shared axis. -/
theorem matmul_score {φ₁ φ₂ : FTy} (x : FVec Ideal S1000x64 φ₁) (w : FVec Ideal S64x1 φ₂) (p : Fin 1000) (q : Fin 1) :
    matmul dot_S1000x64_S64x1_S1000x1_1_0_0_1_n_n none x w (constant (F := Ideal) S1000x1 .f32 0x00000000#32) (ix2 p q)
      = ∑ k : Fin 64, x (ix2 p k) * w (ix2 k q) := by
  simp only [matmul]
  rw [Ideal.matmul_constant_zero_apply, ← Equiv.sum_comp (contrEquiv1 dot_S1000x64_S64x1_S1000x1_1_0_0_1_n_n 64 rfl rfl).symm]
  refine Finset.sum_congr rfl fun k _ => ?_
  have hk := contrEquiv1_symm_val dot_S1000x64_S64x1_S1000x1_1_0_0_1_n_n 64 rfl rfl k
  have el : dot_S1000x64_S64x1_S1000x1_1_0_0_1_n_n.lhsIdx (ix2 p q) ((contrEquiv1 dot_S1000x64_S64x1_S1000x1_1_0_0_1_n_n 64 rfl rfl).symm k) = ix2 p k := funext fun a => Fin.ext (by
    match a with
    | ⟨0, _⟩ => exact lhs_score_0 _ _
    | ⟨1, _⟩ => exact (lhs_score_1 _ _).trans hk)
  have er : dot_S1000x64_S64x1_S1000x1_1_0_0_1_n_n.rhsIdx (ix2 p q) ((contrEquiv1 dot_S1000x64_S64x1_S1000x1_1_0_0_1_n_n 64 rfl rfl).symm k) = ix2 k q := funext fun a => Fin.ext (by
    match a with
    | ⟨0, _⟩ => exact (rhs_score_0 _ _).trans hk
    | ⟨1, _⟩ => exact rhs_score_1 _ _)
  rw [el, er]

/-! ### A column laid along every column of a block -/

/-- A column of `a` entries broadcast to `b` columns reads, at `(p, c)`, the column's entry `p`. -/
theorem broadcastTo_col_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias vector laid along each row of a block reads, at `(p, c)`, the vector's entry `c`. -/
theorem bias_row_apply {α : Type} {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply (shapeCast ⟨2, ![1, b]⟩ v h1) h2 p c).trans (shapeCast_a_1a_apply v h1 0 c)

/-! ### The body's result at an entry -/

/-- The exponential of a vector, entry by entry. -/
theorem exp_apply {s : Shape} {φ : FTy} (a : FVec Ideal s φ) (i : s.Idx) : exp a i = Ideal.exp (a i) := rfl

/-- The body's result at row `p`, column `q` of a block whose picture and text rows `p` are rows `i` of the two
    feature arrays: the item embedding's entry `(i, q)`. -/
theorem pay_apply (x0 : Vec Ideal S1000x2048 .f32) (w0 : Vec Ideal S2048x64 .f32) (b0 : Vec Ideal S64 .f32)
    (x1 : Vec Ideal S1000x768 .f32) (w1 : Vec Ideal S768x64 .f32) (b1 : Vec Ideal S64 .f32) (ww : Vec Ideal S64x1 .f32)
    (pic : Cert.ReferenceIdeal.Terms.Arr Ideal S30000x2048 .f32) (txt : Cert.ReferenceIdeal.Terms.Arr Ideal S30000x768 .f32)
    (i : Fin 30000) (p : Fin 1000) (q : Fin 64)
    (h0 : ∀ k : Fin 2048, x0 (ix2 p k) = pic (ix2 i k)) (h1 : ∀ k : Fin 768, x1 (ix2 p k) = txt (ix2 i k)) :
    k0_pay1 x0 w0 b0 x1 w1 b1 ww (ix2 p q) = Cert.ReferenceIdeal.Spec.itemAt pic txt w0 b0 w1 b1 ww i q := by
  unfold k0_pay1
  simp only [addf_apply, mulf_apply, divf_apply, maximumf_apply, exp_apply, broadcast_apply, truncf_apply,
    broadcastTo_col_apply, bias_row_apply, matmul_pic, matmul_txt, matmul_score, h0, h1]
  rfl

/-- The body's result on a block whose picture and text rows are rows `r`, `r + 1`, … of the feature arrays and
    whose other inputs are the weight arrays: the item embedding's rows from `r` on. -/
theorem pay_block (x0 : Vec Ideal S1000x2048 .f32) (w0 : Vec Ideal S2048x64 .f32) (b0 : Vec Ideal S64 .f32)
    (x1 : Vec Ideal S1000x768 .f32) (w1 : Vec Ideal S768x64 .f32) (b1 : Vec Ideal S64 .f32) (ww : Vec Ideal S64x1 .f32)
    (pic : Cert.ReferenceIdeal.Terms.Arr Ideal S30000x2048 .f32) (txt : Cert.ReferenceIdeal.Terms.Arr Ideal S30000x768 .f32)
    (wpf : Cert.ReferenceIdeal.Terms.Arr Ideal S2048x64 .f32) (bpf : Cert.ReferenceIdeal.Terms.Arr Ideal S64 .f32)
    (wtf : Cert.ReferenceIdeal.Terms.Arr Ideal S768x64 .f32) (btf : Cert.ReferenceIdeal.Terms.Arr Ideal S64 .f32)
    (wsc : Cert.ReferenceIdeal.Terms.Arr Ideal S64x1 .f32)
    (r : Nat) (hr : r + 1000 ≤ 30000)
    (h0 : ∀ (p : Fin 1000) (k : Fin 2048), x0 (ix2 p k) = pic (ix2 (⟨r + p.val, by have := p.isLt; omega⟩ : Fin 30000) k))
    (h1 : ∀ (p : Fin 1000) (k : Fin 768), x1 (ix2 p k) = txt (ix2 (⟨r + p.val, by have := p.isLt; omega⟩ : Fin 30000) k))
    (e2 : w0 = wpf) (e3 : b0 = bpf) (e4 : w1 = wtf) (e5 : b1 = btf) (e6 : ww = wsc) (j : S1000x64.Idx) :
    k0_pay1 x0 w0 b0 x1 w1 b1 ww j
      = Cert.ReferenceIdeal.Spec.itemAt pic txt wpf bpf wtf btf wsc (⟨r + (j 0).val, by have := idx2_lt0 j; omega⟩ : Fin 30000) (j 1) := by
  subst e2 e3 e4 e5 e6
  obtain ⟨p, q, rfl⟩ : ∃ (p : Fin 1000) (q : Fin 64), j = ix2 p q := ⟨j 0, j 1, eq_ix2 j⟩
  exact pay_apply x0 w0 b0 x1 w1 b1 ww pic txt _ p q (h0 p) (h1 p)

/-! ## The blocks a point reads and writes -/

theorem hz2 : (![0, 0] : Fin 2 → Nat) = fun _ => 0 := funext fun a => by fin_cases a <;> rfl
theorem hz1 : (![0] : Fin 1 → Nat) = fun _ => 0 := funext fun a => by fin_cases a <;> rfl

/-- The windows' block indices at every point of the grid: the picture, text and output windows move one block of
    rows per point; the weight windows stay at the origin. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

section Blocks
variable (V : (c : Dev nD) → (b : Ref sig .tc) → Buf (Elt Ideal) ((c : Thread nD τ).loc b)) (c : Dev nD) (t : Fin cfg0.N)

/-- Row `p` of the picture block at point `t` is row `1000 t + p` of the picture array. -/
theorem pic_blk_apply (p : Fin 1000) (k : Fin 2048) (ht : 1000 * t.val + 1000 ≤ 30000) :
    (iblk0 (F := Ideal) V c 0 t : Vec Ideal S1000x2048 .f32) (ix2 p k)
      = (V c main_arg2 : S30000x2048.Idx → Elt Ideal .f32) (ix2 (⟨1000 * t.val + p.val, by have := p.isLt; omega⟩ : Fin 30000) k) := by
  obtain ⟨e0, e1, -⟩ := idx_facts t
  unfold iblk0
  rw [View.read_apply]
  refine congrArg (V c main_arg2 : S30000x2048.Idx → Elt Ideal .f32) (funext fun a => Fin.ext ?_)
  match a with
  | ⟨0, _⟩ => show win0_0.index t (0 : Fin 2) * 1000 + 1 * p.val = 1000 * t.val + p.val; rw [e0]; omega
  | ⟨1, _⟩ => show win0_0.index t (1 : Fin 2) * 2048 + 1 * k.val = k.val; rw [e1]; omega

/-- Row `p` of the text block at point `t` is row `1000 t + p` of the text array. -/
theorem txt_blk_apply (p : Fin 1000) (k : Fin 768) (ht : 1000 * t.val + 1000 ≤ 30000) :
    (iblk0 (F := Ideal) V c 1 t : Vec Ideal S1000x768 .f32) (ix2 p k)
      = (V c main_arg3 : S30000x768.Idx → Elt Ideal .f32) (ix2 (⟨1000 * t.val + p.val, by have := p.isLt; omega⟩ : Fin 30000) k) := by
  obtain ⟨-, -, e0, e1, -⟩ := idx_facts t
  unfold iblk0
  rw [View.read_apply]
  refine congrArg (V c main_arg3 : S30000x768.Idx → Elt Ideal .f32) (funext fun a => Fin.ext ?_)
  match a with
  | ⟨0, _⟩ => show win0_1.index t (0 : Fin 2) * 1000 + 1 * p.val = 1000 * t.val + p.val; rw [e0]; omega
  | ⟨1, _⟩ => show win0_1.index t (1 : Fin 2) * 768 + 1 * k.val = k.val; rw [e1]; omega

/-- The picture projection's block is the whole array at every point. -/
theorem wpf_blk : (iblk0 (F := Ideal) V c 2 t : Vec Ideal S2048x64 .f32) = (V c main_arg4 : S2048x64.Idx → Elt Ideal .f32) := by
  obtain ⟨-, -, -, -, e0, e1, -⟩ := idx_facts t
  funext j
  unfold iblk0
  rw [View.read_apply]
  refine congrArg (V c main_arg4 : S2048x64.Idx → Elt Ideal .f32) (funext fun a => Fin.ext ?_)
  match a with
  | ⟨0, _⟩ => show win0_2.index t (0 : Fin 2) * 2048 + 1 * (j 0).val = (j 0).val; rw [e0]; omega
  | ⟨1, _⟩ => show win0_2.index t (1 : Fin 2) * 64 + 1 * (j 1).val = (j 1).val; rw [e1]; omega

/-- The picture bias's block is the whole array at every point. -/
theorem bpf_blk : (iblk0 (F := Ideal) V c 3 t : Vec Ideal S64 .f32) = (V c main_arg5 : S64.Idx → Elt Ideal .f32) := by
  obtain ⟨-, -, -, -, -, -, e0, -⟩ := idx_facts t
  funext j
  unfold iblk0
  rw [View.read_apply]
  refine congrArg (V c main_arg5 : S64.Idx → Elt Ideal .f32) (funext fun a => Fin.ext ?_)
  match a with
  | ⟨0, _⟩ => show win0_3.index t (0 : Fin 1) * 64 + 1 * (j 0).val = (j 0).val; rw [e0]; omega

/-- The text projection's block is the whole array at every point. -/
theorem wtf_blk : (iblk0 (F := Ideal) V c 4 t : Vec Ideal S768x64 .f32) = (V c main_arg6 : S768x64.Idx → Elt Ideal .f32) := by
  obtain ⟨-, -, -, -, -, -, -, e0, e1, -⟩ := idx_facts t
  funext j
  unfold iblk0
  rw [View.read_apply]
  refine congrArg (V c main_arg6 : S768x64.Idx → Elt Ideal .f32) (funext fun a => Fin.ext ?_)
  match a with
  | ⟨0, _⟩ => show win0_4.index t (0 : Fin 2) * 768 + 1 * (j 0).val = (j 0).val; rw [e0]; omega
  | ⟨1, _⟩ => show win0_4.index t (1 : Fin 2) * 64 + 1 * (j 1).val = (j 1).val; rw [e1]; omega

/-- The text bias's block is the whole array at every point. -/
theorem btf_blk : (iblk0 (F := Ideal) V c 5 t : Vec Ideal S64 .f32) = (V c main_arg7 : S64.Idx → Elt Ideal .f32) := by
  obtain ⟨-, -, -, -, -, -, -, -, -, e0, -⟩ := idx_facts t
  funext j
  unfold iblk0
  rw [View.read_apply]
  refine congrArg (V c main_arg7 : S64.Idx → Elt Ideal .f32) (funext fun a => Fin.ext ?_)
  match a with
  | ⟨0, _⟩ => show win0_5.index t (0 : Fin 1) * 64 + 1 * (j 0).val = (j 0).val; rw [e0]; omega

/-- The scoring column's block is the whole array at every point. -/
theorem wsc_blk : (iblk0 (F := Ideal) V c 6 t : Vec Ideal S64x1 .f32) = (V c main_arg8 : S64x1.Idx → Elt Ideal .f32) := by
  obtain ⟨-, -, -, -, -, -, -, -, -, -, e0, e1, -⟩ := idx_facts t
  funext j
  unfold iblk0
  rw [View.read_apply]
  refine congrArg (V c main_arg8 : S64x1.Idx → Elt Ideal .f32) (funext fun a => Fin.ext ?_)
  match a with
  | ⟨0, _⟩ => show win0_6.index t (0 : Fin 2) * 64 + 1 * (j 0).val = (j 0).val; rw [e0]; omega
  | ⟨1, _⟩ => show win0_6.index t (1 : Fin 2) * 1 + 1 * (j 1).val = (j 1).val; rw [e1]; omega

end Blocks

/-! ## From the blocks to the array -/

section Array
variable (V : (c : Dev nD) → (b : Ref sig .tc) → Buf (Elt Ideal) ((c : Thread nD τ).loc b)) (c : Dev nD)

/-- What the output array ends holding: the item embedding of the seven arrays the region reads. -/
abbrev itemArr : S30000x64.Idx → Elt Ideal .f32 :=
  fun y => Cert.ReferenceIdeal.Spec.itemAt (V c main_arg2) (V c main_arg3) (V c main_arg4) (V c main_arg5) (V c main_arg6) (V c main_arg7) (V c main_arg8) (y 0) (y 1)

/-- What point `t` writes back is block `t` of the item embedding. -/
theorem flushed_eq (t : Fin cfg0.N) :
    (dat0 (F := Ideal) V c).flushed 7 t = ((cfg0.win 7).blk t).view.read (Elt Ideal) (itemArr V c) := by
  have hN : t.val < 30 := Nat.lt_of_lt_of_eq t.isLt N_0
  have ht : 1000 * t.val + 1000 ≤ 30000 := by omega
  obtain ⟨-, -, -, -, -, -, -, -, -, -, -, -, e0, e1⟩ := idx_facts t
  show (cfg0.win 7).cut (grid0.coords t) ((dat0 V c).after 7 t) = _
  rw [after0_7]
  unfold out0_7
  rw [View.canon_unit_zero hz2]
  simp only [View.ld_unit_zero (S := S1000x2048) hz2, View.ld_unit_zero (S := S1000x768) hz2, View.ld_unit_zero (S := S2048x64) hz2,
    View.ld_unit_zero (S := S768x64) hz2, View.ld_unit_zero (S := S64x1) hz2, View.ld_unit_zero (S := S64) hz1]
  funext j
  have hj0 : (j 0).val < 1000 := (j 0).isLt
  have hj1 : (j 1).val < 64 := (j 1).isLt
  have hemb : ((cfg0.win 7).blk t).view.emb j = ix2 (⟨1000 * t.val + (j 0).val, by omega⟩ : Fin 30000) (⟨(j 1).val, hj1⟩ : Fin 64) := by
    funext a; apply Fin.ext
    match a with
    | ⟨0, _⟩ => show win0_7.index t (0 : Fin 2) * 1000 + 1 * (j 0).val = 1000 * t.val + (j 0).val; rw [e0]; omega
    | ⟨1, _⟩ => show win0_7.index t (1 : Fin 2) * 64 + 1 * (j 1).val = (j 1).val; rw [e1]; omega
  show k0_pay1 (iblk0 V c 0 t) (iblk0 V c 2 t) (iblk0 V c 3 t) (iblk0 V c 1 t) (iblk0 V c 4 t) (iblk0 V c 5 t) (iblk0 V c 6 t) j
      = itemArr V c (((cfg0.win 7).blk t).view.emb j)
  rw [hemb]
  exact pay_block (iblk0 V c 0 t) (iblk0 V c 2 t) (iblk0 V c 3 t) (iblk0 V c 1 t) (iblk0 V c 4 t) (iblk0 V c 5 t) (iblk0 V c 6 t)
    (V c main_arg2) (V c main_arg3) (V c main_arg4) (V c main_arg5) (V c main_arg6) (V c main_arg7) (V c main_arg8)
    (1000 * t.val) ht (fun p k => pic_blk_apply V c t p k ht) (fun p k => txt_blk_apply V c t p k ht)
    (wpf_blk V c t) (bpf_blk V c t) (wtf_blk V c t) (btf_blk V c t) (wsc_blk V c t) j

/-- An index of the output array is in point `t`'s block iff each coordinate is in the block's range on its axis. -/
theorem mem_blk (t : Fin cfg0.N) (i : S30000x64.Idx) :
    i ∈ ((cfg0.win 7).blk t).view.set ↔ ∀ a : Fin 2, win0_7.index t a * S1000x64.size a ≤ (i a).val ∧ (i a).val < win0_7.index t a * S1000x64.size a + S1000x64.size a := by
  show i ∈ ((View.whole main_v0).slice (win0_7.rect t)).set ↔ _
  rw [View.set_slice_whole, Rect.mem_set_unit]
  exact Iff.rfl

/-- Every row of the output array is in the block of the point its thousand names. -/
theorem cover (i : S30000x64.Idx) : ∃ t : Fin cfg0.N, (cfg0.win 7).flush t = true ∧ i ∈ ((cfg0.win 7).blk t).view.set := by
  have hi0 : (i 0).val < 30000 := (i 0).isLt
  have hi1 : (i 1).val < 64 := (i 1).isLt
  have hq : (i 0).val / 1000 < cfg0.N := by rw [show cfg0.N = 30 from N_0]; omega
  obtain ⟨-, -, -, -, -, -, -, -, -, -, -, -, e0, e1⟩ := idx_facts ⟨(i 0).val / 1000, hq⟩
  refine ⟨⟨(i 0).val / 1000, hq⟩, flush0_7 _, ?_⟩
  rw [mem_blk]
  intro a
  match a with
  | ⟨0, _⟩ =>
    show win0_7.index ⟨(i 0).val / 1000, hq⟩ (0 : Fin 2) * 1000 ≤ (i 0).val ∧ (i 0).val < win0_7.index ⟨(i 0).val / 1000, hq⟩ (0 : Fin 2) * 1000 + 1000
    rw [e0]; show (i 0).val / 1000 * 1000 ≤ (i 0).val ∧ (i 0).val < (i 0).val / 1000 * 1000 + 1000; omega
  | ⟨1, _⟩ =>
    show win0_7.index ⟨(i 0).val / 1000, hq⟩ (1 : Fin 2) * 64 ≤ (i 1).val ∧ (i 1).val < win0_7.index ⟨(i 0).val / 1000, hq⟩ (1 : Fin 2) * 64 + 64
    rw [e1]; omega

end Array

/-- After the attention region, its output array holds the item embedding of the seven arrays the region reads. -/
theorem attn_final (V : (c : Dev nD) → (b : Ref sig .tc) → Buf (Elt Ideal) ((c : Thread nD τ).loc b)) (c : Dev nD) :
    (dat0 (F := Ideal) V c).arrAt 7 cfg0.N
      = fun y => Cert.ReferenceIdeal.Spec.itemAt (V c main_arg2) (V c main_arg3) (V c main_arg4) (V c main_arg5) (V c main_arg6) (V c main_arg7) (V c main_arg8) (y 0) (y 1) :=
  (dat0 (F := Ideal) V c).arrAt_eq_of_cover 7 (itemArr V c) (fun t _ => flushed_eq V c t) cover

end Cert.KernelIdeal.Value

end
-- ==== Proof.KMsg.lean ====
/-
  The message kernel's output array, at each of its three launches: 250 blocks of 8000 edges, each block the tail rows
  times the one-hot product of the block's zero-based types with the relation table.

  The body's entry at row p and column q of a block is the row's entry times the sum over the table's fifteen rows k of
  (one if the row's type word is the word of k, else zero) times the table's entry (k, q): the column count read at (p, k)
  is the word of k, the types' column broadcast along its unit axis reads row p's one entry, the widened equality bit read
  as a signed integer is one or zero, and the product of the 8000 x 15 one-hot block with the 15 x 64 table into a zero
  accumulator is that sum. Block t of each edge array starts at row 8000 t and the table is whole at every point, so what
  point t writes back is block t of the messages; the 250 blocks cover the 2000000 rows.
-/
import proofs.«421973_j75917841924564_2_alg».proof.Proof.Gen.KernelIdeal.Frame
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat Cfg Window)

/-! ## The body's value at an index -/

/-- The signed reading of a widened one-bit equality test of two words: one where they agree, zero where they differ. -/
theorem onehot_word (a b : BitVec 32) :
    (FloatOps.sitofp (F := Ideal) .f32 ((IntOp.cmpi .eq a b).setWidth 32) : Ideal .f32) = if b = a then (1 : EReal) else 0 := by
  show (((((IntOp.cmpi .eq a b).setWidth 32).toInt : ℤ) : ℝ) : EReal) = _
  by_cases h : b = a
  · subst h
    rw [if_pos rfl]
    simp [IntOp.cmpi]
  · rw [if_neg h]
    have hne : (a == b) = false := by
      rw [beq_eq_false_iff_ne]; exact fun e => h e.symm
    simp [IntOp.cmpi, hne]

/-- The left operand's row coordinate is the output's. -/
theorem lhs_row (i : S8000x64.Idx) (q : dot_S8000x15_S15x64_S8000x64_1_0_0_1_n_n.contr.Idx) :
    (dot_S8000x15_S15x64_S8000x64_1_0_0_1_n_n.lhsIdx i q 0).val = (i 0).val := by
  unfold DotDims.lhsIdx
  rw [dif_neg (show ¬(0 : Fin S8000x15.rank) ∈ dot_S8000x15_S15x64_S8000x64_1_0_0_1_n_n.lhsBatch by decide), dif_pos (show (0 : Fin S8000x15.rank) ∈ dot_S8000x15_S15x64_S8000x64_1_0_0_1_n_n.lhsNonContracting by decide)]
  rfl

/-- The left operand's column coordinate is the contraction position. -/
theorem lhs_col (i : S8000x64.Idx) (q : dot_S8000x15_S15x64_S8000x64_1_0_0_1_n_n.contr.Idx) :
    (dot_S8000x15_S15x64_S8000x64_1_0_0_1_n_n.lhsIdx i q 1).val = (q ⟨0, by decide⟩).val :=
  dot_S8000x15_S15x64_S8000x64_1_0_0_1_n_n.lhsIdx_val_of_single rfl i q

/-- The right operand's row coordinate is the contraction position. -/
theorem rhs_row (i : S8000x64.Idx) (q : dot_S8000x15_S15x64_S8000x64_1_0_0_1_n_n.contr.Idx) :
    (dot_S8000x15_S15x64_S8000x64_1_0_0_1_n_n.rhsIdx i q 0).val = (q ⟨0, by decide⟩).val :=
  dot_S8000x15_S15x64_S8000x64_1_0_0_1_n_n.rhsIdx_val_of_single rfl i q

/-- The right operand's column coordinate is the output's. -/
theorem rhs_col (i : S8000x64.Idx) (q : dot_S8000x15_S15x64_S8000x64_1_0_0_1_n_n.contr.Idx) :
    (dot_S8000x15_S15x64_S8000x64_1_0_0_1_n_n.rhsIdx i q 1).val = (i 1).val := by
  unfold DotDims.rhsIdx
  rw [dif_neg (show ¬(1 : Fin S15x64.rank) ∈ dot_S8000x15_S15x64_S8000x64_1_0_0_1_n_n.rhsBatch by decide), dif_pos (show (1 : Fin S15x64.rank) ∈ dot_S8000x15_S15x64_S8000x64_1_0_0_1_n_n.rhsNonContracting by decide)]
  rfl

/-- The column count along axis 1 at `(p, k)` is the word of `k`. -/
theorem iota_col (h : S8000x15.Iotas .tc 32 [1]) (p : Fin 8000) (k : Fin 15) :
    iota .tc S8000x15 32 [1] h (ix2 p k) = BitVec.ofNat 32 k.val :=
  iota_single_apply .tc S8000x15 32 (1 : Fin S8000x15.rank) h (ix2 p k)

/-- A one-column block broadcast along its unit axis reads its row's one entry. -/
theorem bcast_col (x : IVec S8000x1 32) (h : S8000x1.Broadcasts S8000x15) (p : Fin 8000) (k : Fin 15) :
    broadcastTo S8000x15 x h (ix2 p k) = x (ix2 p (0 : Fin 1)) :=
  broadcastTo_apply x h (ix2 p k) (ix2 p (0 : Fin 1)) fun a => by
    match a with
    | ⟨0, _⟩ => rfl
    | ⟨1, _⟩ => rfl

/-- The one-hot entry at `(p, k)`: one where row `p`'s type word is the word of `k`, zero elsewhere. -/
theorem onehot_apply (x1 : Vec Ideal S8000x1 .i32) (hi : S8000x15.Iotas .tc 32 [1]) (hb : S8000x1.Broadcasts S8000x15) (hs : S8000x1.ShapeCasts S8000x1)
    (hw : 1 < 32) (p : Fin 8000) (k : Fin 15) :
    (sitofp .f32 (extui 32 (cmpi .eq (iota .tc S8000x15 32 [1] hi) (broadcastTo S8000x15 (shapeCast S8000x1 x1 hs) hb)) hw) : FVec Ideal S8000x15 .f32) (ix2 p k)
      = if x1 (ix2 p (0 : Fin 1)) = BitVec.ofNat 32 k.val then (1 : EReal) else 0 := by
  rw [shapeCast_self]
  show FloatOps.sitofp (F := Ideal) .f32 ((IntOp.cmpi .eq (iota .tc S8000x15 32 [1] hi (ix2 p k)) (broadcastTo S8000x15 x1 hb (ix2 p k))).setWidth 32) = _
  rw [iota_col, bcast_col]
  exact onehot_word _ _

/-- THE BODY'S VALUE at `(p, q)`: the row's entry times the one-hot sum over the table's rows. -/
theorem msg_pay_apply (x0 : Vec Ideal S8000x64 .f32) (x1 : Vec Ideal S8000x1 .i32) (x2 : Vec Ideal S15x64 .f32) (p : Fin 8000) (q : Fin 64) :
    k1_pay1 x0 x1 x2 (ix2 p q)
      = x0 (ix2 p q) * ∑ k : Fin 15, (if x1 (ix2 p (0 : Fin 1)) = BitVec.ofNat 32 k.val then (1 : EReal) else 0) * x2 (ix2 k q) := by
  unfold k1_pay1
  dsimp only
  rw [shapeCast_self]
  refine (mulf_apply _ _ _).trans ?_
  refine congrArg (x0 (ix2 p q) * ·) ?_
  simp only [matmul]
  rw [Ideal.matmul_constant_zero_apply, ← Equiv.sum_comp (contrEquiv1 dot_S8000x15_S15x64_S8000x64_1_0_0_1_n_n 15 rfl rfl).symm]
  refine Finset.sum_congr rfl fun k _ => ?_
  have hk := contrEquiv1_symm_val dot_S8000x15_S15x64_S8000x64_1_0_0_1_n_n 15 rfl rfl k
  have el : dot_S8000x15_S15x64_S8000x64_1_0_0_1_n_n.lhsIdx (ix2 p q) ((contrEquiv1 dot_S8000x15_S15x64_S8000x64_1_0_0_1_n_n 15 rfl rfl).symm k) = ix2 p k :=
    funext fun a => Fin.ext (by
      match a with
      | ⟨0, _⟩ => exact lhs_row _ _
      | ⟨1, _⟩ => exact (lhs_col _ _).trans hk)
  have er : dot_S8000x15_S15x64_S8000x64_1_0_0_1_n_n.rhsIdx (ix2 p q) ((contrEquiv1 dot_S8000x15_S15x64_S8000x64_1_0_0_1_n_n 15 rfl rfl).symm k) = ix2 k q :=
    funext fun a => Fin.ext (by
      match a with
      | ⟨0, _⟩ => exact (rhs_row _ _).trans hk
      | ⟨1, _⟩ => exact rhs_col _ _)
  rw [el, er]
  refine congrArg₂ (· * ·) ?_ rfl
  exact onehot_apply x1 _ _ _ _ p k

/-- The zero offsets as a constant function. -/
theorem hz : (![0, 0] : Fin 2 → Nat) = fun _ => 0 := funext fun a => by fin_cases a <;> rfl

/-- THE BODY'S VALUE against the formula: when the three blocks read the arrays where array index `Y` says (the row's entry at `Y`, the
    row's type in `Y`'s row, the table's column at `Y`'s column), the body's entry at block index `y` is the message at `Y`. -/
theorem msg_block (g : Cert.ReferenceIdeal.Terms.Arr Ideal S2000000x64 .f32) (et : Cert.ReferenceIdeal.Terms.Arr Ideal S2000000x1 .i32) (w : Cert.ReferenceIdeal.Terms.Arr Ideal S15x64 .f32)
    (x0 : Vec Ideal S8000x64 .f32) (x1 : Vec Ideal S8000x1 .i32) (x2 : Vec Ideal S15x64 .f32) (y : S8000x64.Idx) (Y : S2000000x64.Idx)
    (h0 : x0 y = g Y) (h1 : x1 (ix2 (y 0) (0 : Fin 1)) = et (ix2 (Y 0) (0 : Fin 1))) (h2 : ∀ k : Fin 15, x2 (ix2 k (y 1)) = w (ix2 k (Y 1))) :
    k1_pay1 x0 x1 x2 y = Cert.ReferenceIdeal.Spec.msgArr g et w Y := by
  refine (congrArg (k1_pay1 x0 x1 x2) (eq_ix2 y)).trans ((msg_pay_apply x0 x1 x2 (y 0) (y 1)).trans ?_)
  show x0 (ix2 (y 0) (y 1)) * _ = g (ix2 (Y 0) (Y 1)) * _
  refine congrArg₂ (· * ·) ((congrArg x0 (eq_ix2 y)).symm.trans (h0.trans (congrArg g (eq_ix2 Y)))) ?_
  refine Finset.sum_congr rfl fun k _ => ?_
  refine congrArg₂ (· * ·) ?_ (h2 k)
  exact congrArg (fun b => if b = BitVec.ofNat 32 k.val then (1 : EReal) else 0) h1

/-! ## Message region 1 -/

/-- The printed index maps of region 1, decided over the grid: the edge blocks move with the point, the table stays. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- WHAT POINT `t` WRITES BACK in region 1 is block `t` of the messages of the arrays as the region finds them. -/
theorem flushed1_eq (V : (c : Dev nD) → (b : Ref sig .tc) → Buf (Elt Ideal) ((c : Thread nD τ).loc b)) (c : Dev nD) (t : Fin cfg1.N) :
    (dat1 (F := Ideal) V c).flushed 3 t = ((cfg1.win 3).blk t).view.read (Elt Ideal) (Cert.ReferenceIdeal.Spec.msgArr (V c main_v21) (V c main_v7) (V c main_arg1)) := by
  show (cfg1.win 3).cut (grid1.coords t) ((dat1 V c).after 3 t) = _
  rw [after1_3]
  unfold out1_3
  rw [View.canon_unit_zero hz]
  simp only [View.ld_unit_zero (S := S8000x64) hz, View.ld_unit_zero (S := S8000x1) hz, View.ld_unit_zero (S := S15x64) hz]
  obtain ⟨e0, e1, e2, e3, e4, e5, e6, e7⟩ := idx_facts1 t
  funext y
  show k1_pay1 (iblk1 V c 0 t) (iblk1 V c 1 t) (iblk1 V c 2 t) y = Cert.ReferenceIdeal.Spec.msgArr (V c main_v21) (V c main_v7) (V c main_arg1) (((cfg1.win 3).blk t).view.emb y)
  refine msg_block (V c main_v21) (V c main_v7) (V c main_arg1) (iblk1 V c 0 t) (iblk1 V c 1 t) (iblk1 V c 2 t) y (((cfg1.win 3).blk t).view.emb y) ?_ ?_ ?_
  · have h : ((cfg1.win 0).blk t).view.emb y = ((cfg1.win 3).blk t).view.emb y := by
      funext a; apply Fin.ext
      match a with
      | ⟨0, _⟩ => show win1_0.index t (0 : Fin 2) * 8000 + 1 * (y 0).val = win1_3.index t (0 : Fin 2) * 8000 + 1 * (y 0).val; omega
      | ⟨1, _⟩ => show win1_0.index t (1 : Fin 2) * 64 + 1 * (y 1).val = win1_3.index t (1 : Fin 2) * 64 + 1 * (y 1).val; omega
    show V c main_v21 (((cfg1.win 0).blk t).view.emb y) = V c main_v21 (((cfg1.win 3).blk t).view.emb y)
    rw [h]
  · have h : ((cfg1.win 1).blk t).view.emb (ix2 (n0 := 8000) (n1 := 1) (y 0) (0 : Fin 1)) = ix2 (n0 := 2000000) (n1 := 1) ((((cfg1.win 3).blk t).view.emb y) 0) (0 : Fin 1) := by
      funext a; apply Fin.ext
      match a with
      | ⟨0, _⟩ => show win1_1.index t (0 : Fin 2) * 8000 + 1 * (y 0).val = win1_3.index t (0 : Fin 2) * 8000 + 1 * (y 0).val; omega
      | ⟨1, _⟩ => show win1_1.index t (1 : Fin 2) * 1 + 1 * 0 = 0; omega
    show V c main_v7 (((cfg1.win 1).blk t).view.emb (ix2 (n0 := 8000) (n1 := 1) (y 0) (0 : Fin 1))) = V c main_v7 (ix2 (n0 := 2000000) (n1 := 1) ((((cfg1.win 3).blk t).view.emb y) 0) (0 : Fin 1))
    rw [h]
  · intro k
    have h : ((cfg1.win 2).blk t).view.emb (ix2 (n0 := 15) (n1 := 64) k (y 1)) = ix2 (n0 := 15) (n1 := 64) k ((((cfg1.win 3).blk t).view.emb y) 1) := by
      funext a; apply Fin.ext
      match a with
      | ⟨0, _⟩ => show win1_2.index t (0 : Fin 2) * 15 + 1 * k.val = k.val; omega
      | ⟨1, _⟩ => show win1_2.index t (1 : Fin 2) * 64 + 1 * (y 1).val = win1_3.index t (1 : Fin 2) * 64 + 1 * (y 1).val; omega
    show V c main_arg1 (((cfg1.win 2).blk t).view.emb (ix2 (n0 := 15) (n1 := 64) k (y 1))) = V c main_arg1 (ix2 (n0 := 15) (n1 := 64) k ((((cfg1.win 3).blk t).view.emb y) 1))
    rw [h]

/-- An index of the array is in point `t`'s block iff each coordinate is in the block's range on its axis. -/
theorem mem_blk1 (t : Fin cfg1.N) (i : S2000000x64.Idx) :
    i ∈ ((cfg1.win 3).blk t).view.set ↔ ∀ a : Fin 2, win1_3.index t a * S8000x64.size a ≤ (i a).val ∧ (i a).val < win1_3.index t a * S8000x64.size a + S8000x64.size a := by
  show i ∈ ((View.whole main_v22).slice (win1_3.rect t)).set ↔ _
  rw [View.set_slice_whole, Rect.mem_set_unit]
  exact Iff.rfl

/-- Every edge row is in the block of the point its row number divided by the block height names. -/
theorem cover1 (i : S2000000x64.Idx) : ∃ t : Fin cfg1.N, (cfg1.win 3).flush t = true ∧ i ∈ ((cfg1.win 3).blk t).view.set := by
  have hi0 : (i 0).val < 2000000 := (i 0).isLt
  have hi1 : (i 1).val < 64 := (i 1).isLt
  have hN : cfg1.N = 250 := N_1
  have hlt : (i 0).val / 8000 < cfg1.N := by rw [hN]; omega
  obtain ⟨-, -, -, -, -, -, e6, e7⟩ := idx_facts1 ⟨(i 0).val / 8000, hlt⟩
  refine ⟨⟨(i 0).val / 8000, hlt⟩, flush1_3 _, ?_⟩
  rw [mem_blk1]
  intro a
  match a with
  | ⟨0, _⟩ =>
    show win1_3.index ⟨(i 0).val / 8000, hlt⟩ (0 : Fin 2) * 8000 ≤ (i 0).val ∧ (i 0).val < win1_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win1_3.index ⟨(i 0).val / 8000, hlt⟩ (1 : Fin 2) * 64 ≤ (i 1).val ∧ (i 1).val < win1_3.index ⟨(i 0).val / 8000, hlt⟩ (1 : Fin 2) * 64 + 64
    rw [e7]; omega

/-- After message region 1, its output array holds the one-hot messages of the gathered rows, the zero-based types and the table. -/
theorem msg_final1 (V : (c : Dev nD) → (b : Ref sig .tc) → Buf (Elt Ideal) ((c : Thread nD τ).loc b)) (c : Dev nD) :
    (dat1 (F := Ideal) V c).arrAt 3 cfg1.N = Cert.ReferenceIdeal.Spec.msgArr (V c main_v21) (V c main_v7) (V c main_arg1) :=
  (dat1 (F := Ideal) V c).arrAt_eq_of_cover 3 _ (fun t _ => flushed1_eq V c t) cover1

/-! ## Message region 3 -/

/-- The printed index maps of region 3, decided over the grid: the edge blocks move with the point, the table stays. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- WHAT POINT `t` WRITES BACK in region 3 is block `t` of the messages of the arrays as the region finds them. -/
theorem flushed3_eq (V : (c : Dev nD) → (b : Ref sig .tc) → Buf (Elt Ideal) ((c : Thread nD τ).loc b)) (c : Dev nD) (t : Fin cfg3.N) :
    (dat3 (F := Ideal) V c).flushed 3 t = ((cfg3.win 3).blk t).view.read (Elt Ideal) (Cert.ReferenceIdeal.Spec.msgArr (V c main_v33) (V c main_v7) (V c main_arg1)) := by
  show (cfg3.win 3).cut (grid3.coords t) ((dat3 V c).after 3 t) = _
  rw [after3_3]
  unfold out3_3
  rw [View.canon_unit_zero hz]
  simp only [View.ld_unit_zero (S := S8000x64) hz, View.ld_unit_zero (S := S8000x1) hz, View.ld_unit_zero (S := S15x64) hz]
  obtain ⟨e0, e1, e2, e3, e4, e5, e6, e7⟩ := idx_facts3 t
  funext y
  show k1_pay1 (iblk3 V c 0 t) (iblk3 V c 1 t) (iblk3 V c 2 t) y = Cert.ReferenceIdeal.Spec.msgArr (V c main_v33) (V c main_v7) (V c main_arg1) (((cfg3.win 3).blk t).view.emb y)
  refine msg_block (V c main_v33) (V c main_v7) (V c main_arg1) (iblk3 V c 0 t) (iblk3 V c 1 t) (iblk3 V c 2 t) y (((cfg3.win 3).blk t).view.emb y) ?_ ?_ ?_
  · have h : ((cfg3.win 0).blk t).view.emb y = ((cfg3.win 3).blk t).view.emb y := by
      funext a; apply Fin.ext
      match a with
      | ⟨0, _⟩ => show win3_0.index t (0 : Fin 2) * 8000 + 1 * (y 0).val = win3_3.index t (0 : Fin 2) * 8000 + 1 * (y 0).val; omega
      | ⟨1, _⟩ => show win3_0.index t (1 : Fin 2) * 64 + 1 * (y 1).val = win3_3.index t (1 : Fin 2) * 64 + 1 * (y 1).val; omega
    show V c main_v33 (((cfg3.win 0).blk t).view.emb y) = V c main_v33 (((cfg3.win 3).blk t).view.emb y)
    rw [h]
  · have h : ((cfg3.win 1).blk t).view.emb (ix2 (n0 := 8000) (n1 := 1) (y 0) (0 : Fin 1)) = ix2 (n0 := 2000000) (n1 := 1) ((((cfg3.win 3).blk t).view.emb y) 0) (0 : Fin 1) := by
      funext a; apply Fin.ext
      match a with
      | ⟨0, _⟩ => show win3_1.index t (0 : Fin 2) * 8000 + 1 * (y 0).val = win3_3.index t (0 : Fin 2) * 8000 + 1 * (y 0).val; omega
      | ⟨1, _⟩ => show win3_1.index t (1 : Fin 2) * 1 + 1 * 0 = 0; omega
    show V c main_v7 (((cfg3.win 1).blk t).view.emb (ix2 (n0 := 8000) (n1 := 1) (y 0) (0 : Fin 1))) = V c main_v7 (ix2 (n0 := 2000000) (n1 := 1) ((((cfg3.win 3).blk t).view.emb y) 0) (0 : Fin 1))
    rw [h]
  · intro k
    have h : ((cfg3.win 2).blk t).view.emb (ix2 (n0 := 15) (n1 := 64) k (y 1)) = ix2 (n0 := 15) (n1 := 64) k ((((cfg3.win 3).blk t).view.emb y) 1) := by
      funext a; apply Fin.ext
      match a with
      | ⟨0, _⟩ => show win3_2.index t (0 : Fin 2) * 15 + 1 * k.val = k.val; omega
      | ⟨1, _⟩ => show win3_2.index t (1 : Fin 2) * 64 + 1 * (y 1).val = win3_3.index t (1 : Fin 2) * 64 + 1 * (y 1).val; omega
    show V c main_arg1 (((cfg3.win 2).blk t).view.emb (ix2 (n0 := 15) (n1 := 64) k (y 1))) = V c main_arg1 (ix2 (n0 := 15) (n1 := 64) k ((((cfg3.win 3).blk t).view.emb y) 1))
    rw [h]

/-- An index of the array is in point `t`'s block iff each coordinate is in the block's range on its axis. -/
theorem mem_blk3 (t : Fin cfg3.N) (i : S2000000x64.Idx) :
    i ∈ ((cfg3.win 3).blk t).view.set ↔ ∀ a : Fin 2, win3_3.index t a * S8000x64.size a ≤ (i a).val ∧ (i a).val < win3_3.index t a * S8000x64.size a + S8000x64.size a := by
  show i ∈ ((View.whole main_v34).slice (win3_3.rect t)).set ↔ _
  rw [View.set_slice_whole, Rect.mem_set_unit]
  exact Iff.rfl

/-- Every edge row is in the block of the point its row number divided by the block height names. -/
theorem cover3 (i : S2000000x64.Idx) : ∃ t : Fin cfg3.N, (cfg3.win 3).flush t = true ∧ i ∈ ((cfg3.win 3).blk t).view.set := by
  have hi0 : (i 0).val < 2000000 := (i 0).isLt
  have hi1 : (i 1).val < 64 := (i 1).isLt
  have hN : cfg3.N = 250 := N_3
  have hlt : (i 0).val / 8000 < cfg3.N := by rw [hN]; omega
  obtain ⟨-, -, -, -, -, -, e6, e7⟩ := idx_facts3 ⟨(i 0).val / 8000, hlt⟩
  refine ⟨⟨(i 0).val / 8000, hlt⟩, flush3_3 _, ?_⟩
  rw [mem_blk3]
  intro a
  match a with
  | ⟨0, _⟩ =>
    show win3_3.index ⟨(i 0).val / 8000, hlt⟩ (0 : Fin 2) * 8000 ≤ (i 0).val ∧ (i 0).val < win3_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win3_3.index ⟨(i 0).val / 8000, hlt⟩ (1 : Fin 2) * 64 ≤ (i 1).val ∧ (i 1).val < win3_3.index ⟨(i 0).val / 8000, hlt⟩ (1 : Fin 2) * 64 + 64
    rw [e7]; omega

/-- After message region 3, its output array holds the one-hot messages of the gathered rows, the zero-based types and the table. -/
theorem msg_final3 (V : (c : Dev nD) → (b : Ref sig .tc) → Buf (Elt Ideal) ((c : Thread nD τ).loc b)) (c : Dev nD) :
    (dat3 (F := Ideal) V c).arrAt 3 cfg3.N = Cert.ReferenceIdeal.Spec.msgArr (V c main_v33) (V c main_v7) (V c main_arg1) :=
  (dat3 (F := Ideal) V c).arrAt_eq_of_cover 3 _ (fun t _ => flushed3_eq V c t) cover3

/-! ## Message region 5 -/

/-- The printed index maps of region 5, decided over the grid: the edge blocks move with the point, the table stays. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- WHAT POINT `t` WRITES BACK in region 5 is block `t` of the messages of the arrays as the region finds them. -/
theorem flushed5_eq (V : (c : Dev nD) → (b : Ref sig .tc) → Buf (Elt Ideal) ((c : Thread nD τ).loc b)) (c : Dev nD) (t : Fin cfg5.N) :
    (dat5 (F := Ideal) V c).flushed 3 t = ((cfg5.win 3).blk t).view.read (Elt Ideal) (Cert.ReferenceIdeal.Spec.msgArr (V c main_v45) (V c main_v7) (V c main_arg1)) := by
  show (cfg5.win 3).cut (grid5.coords t) ((dat5 V c).after 3 t) = _
  rw [after5_3]
  unfold out5_3
  rw [View.canon_unit_zero hz]
  simp only [View.ld_unit_zero (S := S8000x64) hz, View.ld_unit_zero (S := S8000x1) hz, View.ld_unit_zero (S := S15x64) hz]
  obtain ⟨e0, e1, e2, e3, e4, e5, e6, e7⟩ := idx_facts5 t
  funext y
  show k1_pay1 (iblk5 V c 0 t) (iblk5 V c 1 t) (iblk5 V c 2 t) y = Cert.ReferenceIdeal.Spec.msgArr (V c main_v45) (V c main_v7) (V c main_arg1) (((cfg5.win 3).blk t).view.emb y)
  refine msg_block (V c main_v45) (V c main_v7) (V c main_arg1) (iblk5 V c 0 t) (iblk5 V c 1 t) (iblk5 V c 2 t) y (((cfg5.win 3).blk t).view.emb y) ?_ ?_ ?_
  · have h : ((cfg5.win 0).blk t).view.emb y = ((cfg5.win 3).blk t).view.emb y := by
      funext a; apply Fin.ext
      match a with
      | ⟨0, _⟩ => show win5_0.index t (0 : Fin 2) * 8000 + 1 * (y 0).val = win5_3.index t (0 : Fin 2) * 8000 + 1 * (y 0).val; omega
      | ⟨1, _⟩ => show win5_0.index t (1 : Fin 2) * 64 + 1 * (y 1).val = win5_3.index t (1 : Fin 2) * 64 + 1 * (y 1).val; omega
    show V c main_v45 (((cfg5.win 0).blk t).view.emb y) = V c main_v45 (((cfg5.win 3).blk t).view.emb y)
    rw [h]
  · have h : ((cfg5.win 1).blk t).view.emb (ix2 (n0 := 8000) (n1 := 1) (y 0) (0 : Fin 1)) = ix2 (n0 := 2000000) (n1 := 1) ((((cfg5.win 3).blk t).view.emb y) 0) (0 : Fin 1) := by
      funext a; apply Fin.ext
      match a with
      | ⟨0, _⟩ => show win5_1.index t (0 : Fin 2) * 8000 + 1 * (y 0).val = win5_3.index t (0 : Fin 2) * 8000 + 1 * (y 0).val; omega
      | ⟨1, _⟩ => show win5_1.index t (1 : Fin 2) * 1 + 1 * 0 = 0; omega
    show V c main_v7 (((cfg5.win 1).blk t).view.emb (ix2 (n0 := 8000) (n1 := 1) (y 0) (0 : Fin 1))) = V c main_v7 (ix2 (n0 := 2000000) (n1 := 1) ((((cfg5.win 3).blk t).view.emb y) 0) (0 : Fin 1))
    rw [h]
  · intro k
    have h : ((cfg5.win 2).blk t).view.emb (ix2 (n0 := 15) (n1 := 64) k (y 1)) = ix2 (n0 := 15) (n1 := 64) k ((((cfg5.win 3).blk t).view.emb y) 1) := by
      funext a; apply Fin.ext
      match a with
      | ⟨0, _⟩ => show win5_2.index t (0 : Fin 2) * 15 + 1 * k.val = k.val; omega
      | ⟨1, _⟩ => show win5_2.index t (1 : Fin 2) * 64 + 1 * (y 1).val = win5_3.index t (1 : Fin 2) * 64 + 1 * (y 1).val; omega
    show V c main_arg1 (((cfg5.win 2).blk t).view.emb (ix2 (n0 := 15) (n1 := 64) k (y 1))) = V c main_arg1 (ix2 (n0 := 15) (n1 := 64) k ((((cfg5.win 3).blk t).view.emb y) 1))
    rw [h]

/-- An index of the array is in point `t`'s block iff each coordinate is in the block's range on its axis. -/
theorem mem_blk5 (t : Fin cfg5.N) (i : S2000000x64.Idx) :
    i ∈ ((cfg5.win 3).blk t).view.set ↔ ∀ a : Fin 2, win5_3.index t a * S8000x64.size a ≤ (i a).val ∧ (i a).val < win5_3.index t a * S8000x64.size a + S8000x64.size a := by
  show i ∈ ((View.whole main_v46).slice (win5_3.rect t)).set ↔ _
  rw [View.set_slice_whole, Rect.mem_set_unit]
  exact Iff.rfl

/-- Every edge row is in the block of the point its row number divided by the block height names. -/
theorem cover5 (i : S2000000x64.Idx) : ∃ t : Fin cfg5.N, (cfg5.win 3).flush t = true ∧ i ∈ ((cfg5.win 3).blk t).view.set := by
  have hi0 : (i 0).val < 2000000 := (i 0).isLt
  have hi1 : (i 1).val < 64 := (i 1).isLt
  have hN : cfg5.N = 250 := N_5
  have hlt : (i 0).val / 8000 < cfg5.N := by rw [hN]; omega
  obtain ⟨-, -, -, -, -, -, e6, e7⟩ := idx_facts5 ⟨(i 0).val / 8000, hlt⟩
  refine ⟨⟨(i 0).val / 8000, hlt⟩, flush5_3 _, ?_⟩
  rw [mem_blk5]
  intro a
  match a with
  | ⟨0, _⟩ =>
    show win5_3.index ⟨(i 0).val / 8000, hlt⟩ (0 : Fin 2) * 8000 ≤ (i 0).val ∧ (i 0).val < win5_3.index ⟨(i 0).val / 8000, hlt⟩ (0 : Fin 2) * 8000 + 8000
    rw [e6]; show (i 0).val / 8000 * 8000 ≤ (i 0).val ∧ (i 0).val < (i 0).val / 8000 * 8000 + 8000; omega
  | ⟨1, _⟩ =>
    show win5_3.index ⟨(i 0).val / 8000, hlt⟩ (1 : Fin 2) * 64 ≤ (i 1).val ∧ (i 1).val < win5_3.index ⟨(i 0).val / 8000, hlt⟩ (1 : Fin 2) * 64 + 64
    rw [e7]; omega

/-- After message region 5, its output array holds the one-hot messages of the gathered rows, the zero-based types and the table. -/
theorem msg_final5 (V : (c : Dev nD) → (b : Ref sig .tc) → Buf (Elt Ideal) ((c : Thread nD τ).loc b)) (c : Dev nD) :
    (dat5 (F := Ideal) V c).arrAt 3 cfg5.N = Cert.ReferenceIdeal.Spec.msgArr (V c main_v45) (V c main_v7) (V c main_arg1) :=
  (dat5 (F := Ideal) V c).arrAt_eq_of_cover 3 _ (fun t _ => flushed5_eq V c t) cover5

end Cert.KernelIdeal.Value

end
-- ==== Proof.KPost.lean ====
/-
  The post-processing kernel's two output arrays, at each of its three launches: 25 blocks of 4000 entity rows, each
  row divided by its count, normalised to unit length (the length cut off below), and added to the residual.
-/
import proofs.«421973_j75917841924564_2_alg».proof.Proof.Gen.KernelIdeal.Frame
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat Cfg Window)
open Cert.ReferenceIdeal.Spec (z32 eps32 meanAt lenAt postEAt postRAt)
open Cert.ReferenceIdeal.Terms (Arr)

/-! ## A column kept as a unit axis -/

/-- An `[a]` array cast to `[a, 1]` reads, at `(p, u)`, the operand at `p`, whatever the unit coordinate `u`. -/
theorem post_shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, q)`, the operand's one entry of row `p`. -/
theorem post_broadcastTo_a1_ab_apply {α : Type} {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The sum along the rows of a `[4000, 64]` block, started at the zero word, at row `p`: the sum of the row's 64 entries. -/
theorem post_laneSum_apply (v : FVec Ideal S4000x64 .f32) (hr : S4000x64.Reduces [1] S4000) (hφ : FKind.Formats .f32)
    (hacc : (0x00000000#32 : BitVec 32) = FKind.add.neutral .f32 hφ) (p : Fin 4000) :
    multiReduction .add [1] S4000 v 0x00000000#32 hr hφ hacc (ix1 p) = ∑ k : Fin 64, v (ix2 p k) := by
  refine (Ideal.multiReduction_add_single v 0x00000000#32 hr hφ hacc (ix1 p)).trans ?_
  show ∑ k : Fin 64, v (hr.lift (ix1 p) k) = ∑ k : Fin 64, v (ix2 p k)
  refine Finset.sum_congr rfl fun k _ => congrArg v ?_
  funext ax
  apply Fin.ext
  match ax with
  | ⟨0, _⟩ => rfl
  | ⟨1, _⟩ => rfl

/-! ## The body's value at an entry of the block -/

/-- Entry `(p, q)` of a block's rows over their counts. -/
def post_meanB (x0 : Vec Ideal S4000x64 .f32) (x1 : Vec Ideal S4000x1 .f32) (p : Fin 4000) (q : Fin 64) : Ideal .f32 :=
  Ideal.div (x0 (ix2 p q)) (x1 (ix2 p (0 : Fin 1)))

/-- Row `p`'s length within the block, cut off below. -/
def post_lenB (x0 : Vec Ideal S4000x64 .f32) (x1 : Vec Ideal S4000x1 .f32) (p : Fin 4000) : Ideal .f32 :=
  max (Ideal.sqrt (∑ k : Fin 64, post_meanB x0 x1 p k * post_meanB x0 x1 p k)) eps32

/-- The divided block at an entry. -/
theorem post_mean_apply (x0 : Vec Ideal S4000x64 .f32) (x1 : Vec Ideal S4000x1 .f32)
    (h1 : S4000x64.ShapeCasts S4000x64) (h2 : S4000x1.ShapeCasts S4000x1) (h3 : S4000x1.Broadcasts S4000x64) (p : Fin 4000) (q : Fin 64) :
    (divf (shapeCast S4000x64 x0 h1 : FVec Ideal S4000x64 .f32) (broadcastTo S4000x64 (shapeCast S4000x1 x1 h2 : FVec Ideal S4000x1 .f32) h3)) (ix2 p q)
      = post_meanB x0 x1 p q := by
  rw [shapeCast_self, shapeCast_self]
  show Ideal.div (x0 (ix2 p q)) (broadcastTo S4000x64 x1 h3 (ix2 p q)) = _
  rw [post_broadcastTo_a1_ab_apply]
  rfl

/-- The normalised block at an entry: the divided entry over its row's length. -/
theorem post_norm_apply (x0 : Vec Ideal S4000x64 .f32) (x1 : Vec Ideal S4000x1 .f32)
    (h1 : S4000x64.ShapeCasts S4000x64) (h2 : S4000x1.ShapeCasts S4000x1) (h3 : S4000x1.Broadcasts S4000x64)
    (h4 : S4000x64.Reduces [1] S4000) (h5 : FKind.Formats .f32) (h6 : (0x00000000#32 : BitVec 32) = FKind.add.neutral .f32 h5)
    (h7 : S4000.ShapeCasts S4000x1) (p : Fin 4000) (q : Fin 64) :
    (divf (divf (shapeCast S4000x64 x0 h1 : FVec Ideal S4000x64 .f32) (broadcastTo S4000x64 (shapeCast S4000x1 x1 h2 : FVec Ideal S4000x1 .f32) h3))
      (broadcastTo S4000x64
        (maximumf
          (sqrt (shapeCast S4000x1
            (multiReduction .add [1] S4000
              (mulf (divf (shapeCast S4000x64 x0 h1 : FVec Ideal S4000x64 .f32) (broadcastTo S4000x64 (shapeCast S4000x1 x1 h2 : FVec Ideal S4000x1 .f32) h3))
                (divf (shapeCast S4000x64 x0 h1 : FVec Ideal S4000x64 .f32) (broadcastTo S4000x64 (shapeCast S4000x1 x1 h2 : FVec Ideal S4000x1 .f32) h3)))
              0x00000000#32 h4 h5 h6) h7 : FVec Ideal S4000x1 .f32))
          (broadcast S4000x1 (Scalar.ofBits .f32 0x2B8CBCCC#32 : Ideal .f32))) h3)) (ix2 p q)
      = Ideal.div (post_meanB x0 x1 p q) (post_lenB x0 x1 p) := by
  refine (divf_apply _ _ (ix2 p q)).trans ?_
  refine congrArg₂ Ideal.div (post_mean_apply x0 x1 h1 h2 h3 p q) ?_
  refine (post_broadcastTo_a1_ab_apply _ h3 p q).trans ?_
  refine (maximumf_apply _ _ (ix2 p (0 : Fin 1))).trans ?_
  refine congrArg₂ max ?_ rfl
  show Ideal.sqrt (shapeCast S4000x1 _ h7 (ix2 p (0 : Fin 1))) = _
  refine congrArg Ideal.sqrt ?_
  refine (post_shapeCast_a_a1_apply _ h7 p (0 : Fin 1)).trans ?_
  refine (post_laneSum_apply _ h4 h5 h6 p).trans ?_
  refine Finset.sum_congr rfl fun k _ => ?_
  refine (mulf_apply _ _ (ix2 p k)).trans ?_
  rw [post_mean_apply x0 x1 h1 h2 h3 p k]

/-! ## From a block to the arrays -/

/-- A block's normalised entry is the array's, when the block holds rows `4000 b …` of the two arrays. -/
theorem post_blockE (agg : Arr Ideal S100000x64 .f32) (den : Arr Ideal S100000x1 .f32) (x0 : Vec Ideal S4000x64 .f32) (x1 : Vec Ideal S4000x1 .f32)
    (b : ℕ) (hb : b < 25)
    (h0 : ∀ (p : Fin 4000) (q : Fin 64), x0 (ix2 p q) = agg (ix2 (⟨b * 4000 + p.val, by omega⟩ : Fin 100000) q))
    (h1 : ∀ (p : Fin 4000), x1 (ix2 p (0 : Fin 1)) = den (ix2 (⟨b * 4000 + p.val, by omega⟩ : Fin 100000) (0 : Fin 1)))
    (p : Fin 4000) (q : Fin 64) :
    Ideal.div (post_meanB x0 x1 p q) (post_lenB x0 x1 p) = postEAt agg den (⟨b * 4000 + p.val, by omega⟩ : Fin 100000) q := by
  have hm : ∀ k : Fin 64, post_meanB x0 x1 p k = meanAt agg den (⟨b * 4000 + p.val, by omega⟩ : Fin 100000) k := fun k => by
    unfold post_meanB meanAt
    rw [h0 p k, h1 p]
  unfold postEAt lenAt post_lenB
  have hz0 : (z32 : Ideal .f32) = 0 := Ideal.ofBits_zero_f32
  rw [hm q, hz0, zero_add]
  simp only [hm]

/-- A block's new residual entry is the array's, when the block holds rows `4000 b …` of the three arrays. -/
theorem post_blockR (agg : Arr Ideal S100000x64 .f32) (den : Arr Ideal S100000x1 .f32) (res : Arr Ideal S100000x64 .f32)
    (x0 : Vec Ideal S4000x64 .f32) (x1 : Vec Ideal S4000x1 .f32) (x2 : Vec Ideal S4000x64 .f32)
    (b : ℕ) (hb : b < 25)
    (h0 : ∀ (p : Fin 4000) (q : Fin 64), x0 (ix2 p q) = agg (ix2 (⟨b * 4000 + p.val, by omega⟩ : Fin 100000) q))
    (h1 : ∀ (p : Fin 4000), x1 (ix2 p (0 : Fin 1)) = den (ix2 (⟨b * 4000 + p.val, by omega⟩ : Fin 100000) (0 : Fin 1)))
    (h2 : ∀ (p : Fin 4000) (q : Fin 64), x2 (ix2 p q) = res (ix2 (⟨b * 4000 + p.val, by omega⟩ : Fin 100000) q))
    (p : Fin 4000) (q : Fin 64) :
    x2 (ix2 p q) + Ideal.div (post_meanB x0 x1 p q) (post_lenB x0 x1 p) = postRAt agg den res (⟨b * 4000 + p.val, by omega⟩ : Fin 100000) q := by
  unfold postRAt
  rw [h2 p q, post_blockE agg den x0 x1 b hb h0 h1 p q]

/-- The zero offsets, however spelt. -/
theorem post_hz : (![0, 0] : Fin 2 → Nat) = fun _ => 0 := funext fun a => by fin_cases a <;> rfl

/-! # Region 2 -/

/-- Region 2's first stored value at an entry. -/
theorem post_pay1_apply2 (x0 : Vec Ideal S4000x64 .f32) (x1 : Vec Ideal S4000x1 .f32) (p : Fin 4000) (q : Fin 64) :
    k2_pay1 x0 x1 (ix2 p q) = Ideal.div (post_meanB x0 x1 p q) (post_lenB x0 x1 p) := by
  unfold k2_pay1
  exact post_norm_apply x0 x1 _ _ _ _ _ _ _ p q

/-- Region 2's second stored value at an entry: the residual plus the first. -/
theorem post_pay2_apply2 (x0 : Vec Ideal S4000x64 .f32) (x1 : Vec Ideal S4000x1 .f32) (x2 : Vec Ideal S4000x64 .f32) (p : Fin 4000) (q : Fin 64) :
    k2_pay2 x0 x1 x2 (ix2 p q) = x2 (ix2 p q) + Ideal.div (post_meanB x0 x1 p q) (post_lenB x0 x1 p) := by
  unfold k2_pay2
  refine (addf_apply _ _ (ix2 p q)).trans ?_
  rw [post_pay1_apply2]

/-- The index maps of region 2's windows, decided over the grid: block `t` of rows, the one block of columns. -/
theorem post_idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = t.val ∧ win2_4.index t (1 : Fin 2) = 0 :=
  (by decide +kernel : ∀ t : Fin grid2.N, _)

/-- Window 0's block at point `t` is rows `4000 t …` of its array. -/
theorem post_iblk2_0_apply (V : (c : Dev nD) → (b : Ref sig .tc) → Buf (Elt Ideal) ((c : Thread nD τ).loc b)) (c : Dev nD) (t : Fin cfg2.N)
    (p : Fin 4000) (q : Fin 64) (ht : t.val < 25) :
    (iblk2 V c 0 t : Vec Ideal S4000x64 .f32) (ix2 p q) = (V c main_v25 : Arr Ideal S100000x64 .f32) (ix2 (⟨t.val * 4000 + p.val, by omega⟩ : Fin 100000) q) := by
  obtain ⟨e0, e1, -⟩ := post_idx_facts2 t
  unfold iblk2
  rw [View.read_apply]
  show V c main_v25 _ = V c main_v25 _
  congr 1
  funext a
  apply Fin.ext
  match a with
  | ⟨0, _⟩ => show win2_0.index t (0 : Fin 2) * 4000 + 1 * p.val = t.val * 4000 + p.val; rw [e0]; omega
  | ⟨1, _⟩ => show win2_0.index t (1 : Fin 2) * 64 + 1 * q.val = q.val; rw [e1]; omega

/-- Window 1's block at point `t` is rows `4000 t …` of the counts. -/
theorem post_iblk2_1_apply (V : (c : Dev nD) → (b : Ref sig .tc) → Buf (Elt Ideal) ((c : Thread nD τ).loc b)) (c : Dev nD) (t : Fin cfg2.N)
    (p : Fin 4000) (ht : t.val < 25) :
    (iblk2 V c 1 t : Vec Ideal S4000x1 .f32) (ix2 p (0 : Fin 1)) = (V c main_v14 : Arr Ideal S100000x1 .f32) (ix2 (⟨t.val * 4000 + p.val, by omega⟩ : Fin 100000) (0 : Fin 1)) := by
  obtain ⟨-, -, e0, e1, -⟩ := post_idx_facts2 t
  unfold iblk2
  rw [View.read_apply]
  show V c main_v14 _ = V c main_v14 _
  congr 1
  funext a
  apply Fin.ext
  match a with
  | ⟨0, _⟩ => show win2_1.index t (0 : Fin 2) * 4000 + 1 * p.val = t.val * 4000 + p.val; rw [e0]; omega
  | ⟨1, _⟩ => show win2_1.index t (1 : Fin 2) * 1 + 1 * 0 = 0; rw [e1]

/-- Window 2's block at point `t` is rows `4000 t …` of the residual. -/
theorem post_iblk2_2_apply (V : (c : Dev nD) → (b : Ref sig .tc) → Buf (Elt Ideal) ((c : Thread nD τ).loc b)) (c : Dev nD) (t : Fin cfg2.N)
    (p : Fin 4000) (q : Fin 64) (ht : t.val < 25) :
    (iblk2 V c 2 t : Vec Ideal S4000x64 .f32) (ix2 p q) = (V c main_arg0 : Arr Ideal S100000x64 .f32) (ix2 (⟨t.val * 4000 + p.val, by omega⟩ : Fin 100000) q) := by
  obtain ⟨-, -, -, -, e0, e1, -⟩ := post_idx_facts2 t
  unfold iblk2
  rw [View.read_apply]
  show V c main_arg0 _ = V c main_arg0 _
  congr 1
  funext a
  apply Fin.ext
  match a with
  | ⟨0, _⟩ => show win2_2.index t (0 : Fin 2) * 4000 + 1 * p.val = t.val * 4000 + p.val; rw [e0]; omega
  | ⟨1, _⟩ => show win2_2.index t (1 : Fin 2) * 64 + 1 * q.val = q.val; rw [e1]; omega

/-- What point `t` writes back to window 3's array is block `t` of the new embedding. -/
theorem post_flushedE2 (V : (c : Dev nD) → (b : Ref sig .tc) → Buf (Elt Ideal) ((c : Thread nD τ).loc b)) (c : Dev nD) (t : Fin cfg2.N) :
    (dat2 (F := Ideal) V c).flushed 3 t = ((cfg2.win 3).blk t).view.read (Elt Ideal) (fun y => postEAt (V c main_v25) (V c main_v14) (y 0) (y 1)) := by
  have ht : t.val < 25 := lt_of_lt_of_eq t.isLt N_2
  obtain ⟨-, -, -, -, -, -, e0, e1, -⟩ := post_idx_facts2 t
  show (cfg2.win 3).cut (grid2.coords t) ((dat2 V c).after 3 t) = _
  rw [after2_3]
  unfold out2_3
  rw [View.canon_unit_zero post_hz]
  simp only [View.ld_unit_zero (S := S4000x64) post_hz, View.ld_unit_zero (S := S4000x1) post_hz]
  funext j
  show k2_pay1 (iblk2 V c 0 t) (iblk2 V c 1 t) j = postEAt (V c main_v25) (V c main_v14) ((((cfg2.win 3).blk t).view.emb j) 0) ((((cfg2.win 3).blk t).view.emb j) 1)
  refine (congrArg (k2_pay1 (iblk2 V c 0 t) (iblk2 V c 1 t)) (eq_ix2 (n0 := 4000) (n1 := 64) j)).trans ?_
  refine (post_pay1_apply2 (iblk2 V c 0 t) (iblk2 V c 1 t) (j 0) (j 1)).trans ?_
  refine (post_blockE (V c main_v25) (V c main_v14) (iblk2 V c 0 t) (iblk2 V c 1 t) t.val ht (fun p q => post_iblk2_0_apply V c t p q ht) (fun p => post_iblk2_1_apply V c t p ht) (j 0) (j 1)).trans ?_
  refine congrArg₂ (postEAt (V c main_v25) (V c main_v14)) (Fin.ext ?_) (Fin.ext ?_)
  · show t.val * 4000 + (j 0).val = win2_3.index t (0 : Fin 2) * 4000 + 1 * (j 0).val; rw [e0]; omega
  · show (j 1).val = win2_3.index t (1 : Fin 2) * 64 + 1 * (j 1).val; rw [e1]; omega

/-- What point `t` writes back to window 4's array is block `t` of the new residual. -/
theorem post_flushedR2 (V : (c : Dev nD) → (b : Ref sig .tc) → Buf (Elt Ideal) ((c : Thread nD τ).loc b)) (c : Dev nD) (t : Fin cfg2.N) :
    (dat2 (F := Ideal) V c).flushed 4 t = ((cfg2.win 4).blk t).view.read (Elt Ideal) (fun y => postRAt (V c main_v25) (V c main_v14) (V c main_arg0) (y 0) (y 1)) := by
  have ht : t.val < 25 := lt_of_lt_of_eq t.isLt N_2
  obtain ⟨-, -, -, -, -, -, -, -, e0, e1⟩ := post_idx_facts2 t
  show (cfg2.win 4).cut (grid2.coords t) ((dat2 V c).after 4 t) = _
  rw [after2_4]
  unfold out2_4
  rw [View.canon_unit_zero post_hz]
  simp only [View.ld_unit_zero (S := S4000x64) post_hz, View.ld_unit_zero (S := S4000x1) post_hz]
  funext j
  show k2_pay2 (iblk2 V c 0 t) (iblk2 V c 1 t) (iblk2 V c 2 t) j = postRAt (V c main_v25) (V c main_v14) (V c main_arg0) ((((cfg2.win 4).blk t).view.emb j) 0) ((((cfg2.win 4).blk t).view.emb j) 1)
  refine (congrArg (k2_pay2 (iblk2 V c 0 t) (iblk2 V c 1 t) (iblk2 V c 2 t)) (eq_ix2 (n0 := 4000) (n1 := 64) j)).trans ?_
  refine (post_pay2_apply2 (iblk2 V c 0 t) (iblk2 V c 1 t) (iblk2 V c 2 t) (j 0) (j 1)).trans ?_
  refine (post_blockR (V c main_v25) (V c main_v14) (V c main_arg0) (iblk2 V c 0 t) (iblk2 V c 1 t) (iblk2 V c 2 t) t.val ht (fun p q => post_iblk2_0_apply V c t p q ht) (fun p => post_iblk2_1_apply V c t p ht) (fun p q => post_iblk2_2_apply V c t p q ht) (j 0) (j 1)).trans ?_
  refine congrArg₂ (postRAt (V c main_v25) (V c main_v14) (V c main_arg0)) (Fin.ext ?_) (Fin.ext ?_)
  · show t.val * 4000 + (j 0).val = win2_4.index t (0 : Fin 2) * 4000 + 1 * (j 0).val; rw [e0]; omega
  · show (j 1).val = win2_4.index t (1 : Fin 2) * 64 + 1 * (j 1).val; rw [e1]; omega

/-- An index of window 3's array is in point `t`'s block iff each coordinate is in the block's range on its axis. -/
theorem post_mem_blk2_3 (t : Fin cfg2.N) (i : S100000x64.Idx) :
    i ∈ ((cfg2.win 3).blk t).view.set ↔ ∀ a : Fin 2, win2_3.index t a * S4000x64.size a ≤ (i a).val ∧ (i a).val < win2_3.index t a * S4000x64.size a + S4000x64.size a := by
  show i ∈ ((View.whole main_v26_0).slice (win2_3.rect t)).set ↔ _
  rw [View.set_slice_whole, Rect.mem_set_unit]
  exact Iff.rfl

/-- Likewise for window 4's array. -/
theorem post_mem_blk2_4 (t : Fin cfg2.N) (i : S100000x64.Idx) :
    i ∈ ((cfg2.win 4).blk t).view.set ↔ ∀ a : Fin 2, win2_4.index t a * S4000x64.size a ≤ (i a).val ∧ (i a).val < win2_4.index t a * S4000x64.size a + S4000x64.size a := by
  show i ∈ ((View.whole main_v26_1).slice (win2_4.rect t)).set ↔ _
  rw [View.set_slice_whole, Rect.mem_set_unit]
  exact Iff.rfl

/-- Every row of window 3's array is in the block of the point its quotient by 4000 names. -/
theorem post_covered2_3 (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  obtain ⟨t, htv⟩ : ∃ t : Fin cfg2.N, t.val = (i 0).val / 4000 := ⟨⟨(i 0).val / 4000, lt_of_lt_of_eq (by omega) N_2.symm⟩, rfl⟩
  obtain ⟨-, -, -, -, -, -, e0, e1, -⟩ := post_idx_facts2 t
  refine ⟨t, flush2_3 t, ?_⟩
  rw [post_mem_blk2_3]
  intro a
  match a with
  | ⟨0, _⟩ => show win2_3.index t (0 : Fin 2) * 4000 ≤ (i 0).val ∧ (i 0).val < win2_3.index t (0 : Fin 2) * 4000 + 4000; rw [e0, htv]; omega
  | ⟨1, _⟩ => show win2_3.index t (1 : Fin 2) * 64 ≤ (i 1).val ∧ (i 1).val < win2_3.index t (1 : Fin 2) * 64 + 64; rw [e1]; omega

/-- Likewise for window 4's array. -/
theorem post_covered2_4 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, htv⟩ : ∃ t : Fin cfg2.N, t.val = (i 0).val / 4000 := ⟨⟨(i 0).val / 4000, lt_of_lt_of_eq (by omega) N_2.symm⟩, rfl⟩
  obtain ⟨-, -, -, -, -, -, -, -, e0, e1⟩ := post_idx_facts2 t
  refine ⟨t, flush2_4 t, ?_⟩
  rw [post_mem_blk2_4]
  intro a
  match a with
  | ⟨0, _⟩ => show win2_4.index t (0 : Fin 2) * 4000 ≤ (i 0).val ∧ (i 0).val < win2_4.index t (0 : Fin 2) * 4000 + 4000; rw [e0, htv]; omega
  | ⟨1, _⟩ => show win2_4.index t (1 : Fin 2) * 64 ≤ (i 1).val ∧ (i 1).val < win2_4.index t (1 : Fin 2) * 64 + 64; rw [e1]; omega

/-- After post-processing region 2, its two output arrays hold the new embedding and the new residual. -/
theorem post_final2 (V : (c : Dev nD) → (b : Ref sig .tc) → Buf (Elt Ideal) ((c : Thread nD τ).loc b)) (c : Dev nD) :
    (dat2 (F := Ideal) V c).arrAt 3 cfg2.N = (fun y => Cert.ReferenceIdeal.Spec.postEAt (V c main_v25) (V c main_v14) (y 0) (y 1))
    ∧ (dat2 (F := Ideal) V c).arrAt 4 cfg2.N = (fun y => Cert.ReferenceIdeal.Spec.postRAt (V c main_v25) (V c main_v14) (V c main_arg0) (y 0) (y 1)) := by
  exact ⟨(dat2 (F := Ideal) V c).arrAt_eq_of_cover 3 _ (fun t _ => post_flushedE2 V c t) post_covered2_3,
    (dat2 (F := Ideal) V c).arrAt_eq_of_cover 4 _ (fun t _ => post_flushedR2 V c t) post_covered2_4⟩

/-! # Region 4 -/

/-- Region 4's first stored value at an entry. -/
theorem post_pay1_apply4 (x0 : Vec Ideal S4000x64 .f32) (x1 : Vec Ideal S4000x1 .f32) (p : Fin 4000) (q : Fin 64) :
    k4_pay1 x0 x1 (ix2 p q) = Ideal.div (post_meanB x0 x1 p q) (post_lenB x0 x1 p) := by
  unfold k4_pay1
  exact post_norm_apply x0 x1 _ _ _ _ _ _ _ p q

/-- Region 4's second stored value at an entry: the residual plus the first. -/
theorem post_pay2_apply4 (x0 : Vec Ideal S4000x64 .f32) (x1 : Vec Ideal S4000x1 .f32) (x2 : Vec Ideal S4000x64 .f32) (p : Fin 4000) (q : Fin 64) :
    k4_pay2 x0 x1 x2 (ix2 p q) = x2 (ix2 p q) + Ideal.div (post_meanB x0 x1 p q) (post_lenB x0 x1 p) := by
  unfold k4_pay2
  refine (addf_apply _ _ (ix2 p q)).trans ?_
  rw [post_pay1_apply4, shapeCast_self]

/-- The index maps of region 4's windows, decided over the grid: block `t` of rows, the one block of columns. -/
theorem post_idx_facts4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Window 0's block at point `t` is rows `4000 t …` of its array. -/
theorem post_iblk4_0_apply (V : (c : Dev nD) → (b : Ref sig .tc) → Buf (Elt Ideal) ((c : Thread nD τ).loc b)) (c : Dev nD) (t : Fin cfg4.N)
    (p : Fin 4000) (q : Fin 64) (ht : t.val < 25) :
    (iblk4 V c 0 t : Vec Ideal S4000x64 .f32) (ix2 p q) = (V c main_v37 : Arr Ideal S100000x64 .f32) (ix2 (⟨t.val * 4000 + p.val, by omega⟩ : Fin 100000) q) := by
  obtain ⟨e0, e1, -⟩ := post_idx_facts4 t
  unfold iblk4
  rw [View.read_apply]
  show V c main_v37 _ = V c main_v37 _
  congr 1
  funext a
  apply Fin.ext
  match a with
  | ⟨0, _⟩ => show win4_0.index t (0 : Fin 2) * 4000 + 1 * p.val = t.val * 4000 + p.val; rw [e0]; omega
  | ⟨1, _⟩ => show win4_0.index t (1 : Fin 2) * 64 + 1 * q.val = q.val; rw [e1]; omega

/-- Window 1's block at point `t` is rows `4000 t …` of the counts. -/
theorem post_iblk4_1_apply (V : (c : Dev nD) → (b : Ref sig .tc) → Buf (Elt Ideal) ((c : Thread nD τ).loc b)) (c : Dev nD) (t : Fin cfg4.N)
    (p : Fin 4000) (ht : t.val < 25) :
    (iblk4 V c 1 t : Vec Ideal S4000x1 .f32) (ix2 p (0 : Fin 1)) = (V c main_v14 : Arr Ideal S100000x1 .f32) (ix2 (⟨t.val * 4000 + p.val, by omega⟩ : Fin 100000) (0 : Fin 1)) := by
  obtain ⟨-, -, e0, e1, -⟩ := post_idx_facts4 t
  unfold iblk4
  rw [View.read_apply]
  show V c main_v14 _ = V c main_v14 _
  congr 1
  funext a
  apply Fin.ext
  match a with
  | ⟨0, _⟩ => show win4_1.index t (0 : Fin 2) * 4000 + 1 * p.val = t.val * 4000 + p.val; rw [e0]; omega
  | ⟨1, _⟩ => show win4_1.index t (1 : Fin 2) * 1 + 1 * 0 = 0; rw [e1]

/-- Window 2's block at point `t` is rows `4000 t …` of the residual. -/
theorem post_iblk4_2_apply (V : (c : Dev nD) → (b : Ref sig .tc) → Buf (Elt Ideal) ((c : Thread nD τ).loc b)) (c : Dev nD) (t : Fin cfg4.N)
    (p : Fin 4000) (q : Fin 64) (ht : t.val < 25) :
    (iblk4 V c 2 t : Vec Ideal S4000x64 .f32) (ix2 p q) = (V c main_v26_1 : Arr Ideal S100000x64 .f32) (ix2 (⟨t.val * 4000 + p.val, by omega⟩ : Fin 100000) q) := by
  obtain ⟨-, -, -, -, e0, e1, -⟩ := post_idx_facts4 t
  unfold iblk4
  rw [View.read_apply]
  show V c main_v26_1 _ = V c main_v26_1 _
  congr 1
  funext a
  apply Fin.ext
  match a with
  | ⟨0, _⟩ => show win4_2.index t (0 : Fin 2) * 4000 + 1 * p.val = t.val * 4000 + p.val; rw [e0]; omega
  | ⟨1, _⟩ => show win4_2.index t (1 : Fin 2) * 64 + 1 * q.val = q.val; rw [e1]; omega

/-- What point `t` writes back to window 3's array is block `t` of the new embedding. -/
theorem post_flushedE4 (V : (c : Dev nD) → (b : Ref sig .tc) → Buf (Elt Ideal) ((c : Thread nD τ).loc b)) (c : Dev nD) (t : Fin cfg4.N) :
    (dat4 (F := Ideal) V c).flushed 3 t = ((cfg4.win 3).blk t).view.read (Elt Ideal) (fun y => postEAt (V c main_v37) (V c main_v14) (y 0) (y 1)) := by
  have ht : t.val < 25 := lt_of_lt_of_eq t.isLt N_4
  obtain ⟨-, -, -, -, -, -, e0, e1, -⟩ := post_idx_facts4 t
  show (cfg4.win 3).cut (grid4.coords t) ((dat4 V c).after 3 t) = _
  rw [after4_3]
  unfold out4_3
  rw [View.canon_unit_zero post_hz]
  simp only [View.ld_unit_zero (S := S4000x64) post_hz, View.ld_unit_zero (S := S4000x1) post_hz]
  funext j
  show k4_pay1 (iblk4 V c 0 t) (iblk4 V c 1 t) j = postEAt (V c main_v37) (V c main_v14) ((((cfg4.win 3).blk t).view.emb j) 0) ((((cfg4.win 3).blk t).view.emb j) 1)
  refine (congrArg (k4_pay1 (iblk4 V c 0 t) (iblk4 V c 1 t)) (eq_ix2 (n0 := 4000) (n1 := 64) j)).trans ?_
  refine (post_pay1_apply4 (iblk4 V c 0 t) (iblk4 V c 1 t) (j 0) (j 1)).trans ?_
  refine (post_blockE (V c main_v37) (V c main_v14) (iblk4 V c 0 t) (iblk4 V c 1 t) t.val ht (fun p q => post_iblk4_0_apply V c t p q ht) (fun p => post_iblk4_1_apply V c t p ht) (j 0) (j 1)).trans ?_
  refine congrArg₂ (postEAt (V c main_v37) (V c main_v14)) (Fin.ext ?_) (Fin.ext ?_)
  · show t.val * 4000 + (j 0).val = win4_3.index t (0 : Fin 2) * 4000 + 1 * (j 0).val; rw [e0]; omega
  · show (j 1).val = win4_3.index t (1 : Fin 2) * 64 + 1 * (j 1).val; rw [e1]; omega

/-- What point `t` writes back to window 4's array is block `t` of the new residual. -/
theorem post_flushedR4 (V : (c : Dev nD) → (b : Ref sig .tc) → Buf (Elt Ideal) ((c : Thread nD τ).loc b)) (c : Dev nD) (t : Fin cfg4.N) :
    (dat4 (F := Ideal) V c).flushed 4 t = ((cfg4.win 4).blk t).view.read (Elt Ideal) (fun y => postRAt (V c main_v37) (V c main_v14) (V c main_v26_1) (y 0) (y 1)) := by
  have ht : t.val < 25 := lt_of_lt_of_eq t.isLt N_4
  obtain ⟨-, -, -, -, -, -, -, -, e0, e1⟩ := post_idx_facts4 t
  show (cfg4.win 4).cut (grid4.coords t) ((dat4 V c).after 4 t) = _
  rw [after4_4]
  unfold out4_4
  rw [View.canon_unit_zero post_hz]
  simp only [View.ld_unit_zero (S := S4000x64) post_hz, View.ld_unit_zero (S := S4000x1) post_hz]
  funext j
  show k4_pay2 (iblk4 V c 0 t) (iblk4 V c 1 t) (iblk4 V c 2 t) j = postRAt (V c main_v37) (V c main_v14) (V c main_v26_1) ((((cfg4.win 4).blk t).view.emb j) 0) ((((cfg4.win 4).blk t).view.emb j) 1)
  refine (congrArg (k4_pay2 (iblk4 V c 0 t) (iblk4 V c 1 t) (iblk4 V c 2 t)) (eq_ix2 (n0 := 4000) (n1 := 64) j)).trans ?_
  refine (post_pay2_apply4 (iblk4 V c 0 t) (iblk4 V c 1 t) (iblk4 V c 2 t) (j 0) (j 1)).trans ?_
  refine (post_blockR (V c main_v37) (V c main_v14) (V c main_v26_1) (iblk4 V c 0 t) (iblk4 V c 1 t) (iblk4 V c 2 t) t.val ht (fun p q => post_iblk4_0_apply V c t p q ht) (fun p => post_iblk4_1_apply V c t p ht) (fun p q => post_iblk4_2_apply V c t p q ht) (j 0) (j 1)).trans ?_
  refine congrArg₂ (postRAt (V c main_v37) (V c main_v14) (V c main_v26_1)) (Fin.ext ?_) (Fin.ext ?_)
  · show t.val * 4000 + (j 0).val = win4_4.index t (0 : Fin 2) * 4000 + 1 * (j 0).val; rw [e0]; omega
  · show (j 1).val = win4_4.index t (1 : Fin 2) * 64 + 1 * (j 1).val; rw [e1]; omega

/-- An index of window 3's array is in point `t`'s block iff each coordinate is in the block's range on its axis. -/
theorem post_mem_blk4_3 (t : Fin cfg4.N) (i : S100000x64.Idx) :
    i ∈ ((cfg4.win 3).blk t).view.set ↔ ∀ a : Fin 2, win4_3.index t a * S4000x64.size a ≤ (i a).val ∧ (i a).val < win4_3.index t a * S4000x64.size a + S4000x64.size a := by
  show i ∈ ((View.whole main_v38_0).slice (win4_3.rect t)).set ↔ _
  rw [View.set_slice_whole, Rect.mem_set_unit]
  exact Iff.rfl

/-- Likewise for window 4's array. -/
theorem post_mem_blk4_4 (t : Fin cfg4.N) (i : S100000x64.Idx) :
    i ∈ ((cfg4.win 4).blk t).view.set ↔ ∀ a : Fin 2, win4_4.index t a * S4000x64.size a ≤ (i a).val ∧ (i a).val < win4_4.index t a * S4000x64.size a + S4000x64.size a := by
  show i ∈ ((View.whole main_v38_1).slice (win4_4.rect t)).set ↔ _
  rw [View.set_slice_whole, Rect.mem_set_unit]
  exact Iff.rfl

/-- Every row of window 3's array is in the block of the point its quotient by 4000 names. -/
theorem post_covered4_3 (i : S100000x64.Idx) : ∃ t : Fin cfg4.N, (cfg4.win 3).flush t = true ∧ i ∈ ((cfg4.win 3).blk t).view.set := by
  have hi0 : (i 0).val < 100000 := (i 0).isLt
  have hi1 : (i 1).val < 64 := (i 1).isLt
  obtain ⟨t, htv⟩ : ∃ t : Fin cfg4.N, t.val = (i 0).val / 4000 := ⟨⟨(i 0).val / 4000, lt_of_lt_of_eq (by omega) N_4.symm⟩, rfl⟩
  obtain ⟨-, -, -, -, -, -, e0, e1, -⟩ := post_idx_facts4 t
  refine ⟨t, flush4_3 t, ?_⟩
  rw [post_mem_blk4_3]
  intro a
  match a with
  | ⟨0, _⟩ => show win4_3.index t (0 : Fin 2) * 4000 ≤ (i 0).val ∧ (i 0).val < win4_3.index t (0 : Fin 2) * 4000 + 4000; rw [e0, htv]; omega
  | ⟨1, _⟩ => show win4_3.index t (1 : Fin 2) * 64 ≤ (i 1).val ∧ (i 1).val < win4_3.index t (1 : Fin 2) * 64 + 64; rw [e1]; omega

/-- Likewise for window 4's array. -/
theorem post_covered4_4 (i : S100000x64.Idx) : ∃ t : Fin cfg4.N, (cfg4.win 4).flush t = true ∧ i ∈ ((cfg4.win 4).blk t).view.set := by
  have hi0 : (i 0).val < 100000 := (i 0).isLt
  have hi1 : (i 1).val < 64 := (i 1).isLt
  obtain ⟨t, htv⟩ : ∃ t : Fin cfg4.N, t.val = (i 0).val / 4000 := ⟨⟨(i 0).val / 4000, lt_of_lt_of_eq (by omega) N_4.symm⟩, rfl⟩
  obtain ⟨-, -, -, -, -, -, -, -, e0, e1⟩ := post_idx_facts4 t
  refine ⟨t, flush4_4 t, ?_⟩
  rw [post_mem_blk4_4]
  intro a
  match a with
  | ⟨0, _⟩ => show win4_4.index t (0 : Fin 2) * 4000 ≤ (i 0).val ∧ (i 0).val < win4_4.index t (0 : Fin 2) * 4000 + 4000; rw [e0, htv]; omega
  | ⟨1, _⟩ => show win4_4.index t (1 : Fin 2) * 64 ≤ (i 1).val ∧ (i 1).val < win4_4.index t (1 : Fin 2) * 64 + 64; rw [e1]; omega

/-- After post-processing region 4, its two output arrays hold the new embedding and the new residual. -/
theorem post_final4 (V : (c : Dev nD) → (b : Ref sig .tc) → Buf (Elt Ideal) ((c : Thread nD τ).loc b)) (c : Dev nD) :
    (dat4 (F := Ideal) V c).arrAt 3 cfg4.N = (fun y => Cert.ReferenceIdeal.Spec.postEAt (V c main_v37) (V c main_v14) (y 0) (y 1))
    ∧ (dat4 (F := Ideal) V c).arrAt 4 cfg4.N = (fun y => Cert.ReferenceIdeal.Spec.postRAt (V c main_v37) (V c main_v14) (V c main_v26_1) (y 0) (y 1)) := by
  exact ⟨(dat4 (F := Ideal) V c).arrAt_eq_of_cover 3 _ (fun t _ => post_flushedE4 V c t) post_covered4_3,
    (dat4 (F := Ideal) V c).arrAt_eq_of_cover 4 _ (fun t _ => post_flushedR4 V c t) post_covered4_4⟩

/-! # Region 6 -/

/-- Region 6's first stored value at an entry. -/
theorem post_pay1_apply6 (x0 : Vec Ideal S4000x64 .f32) (x1 : Vec Ideal S4000x1 .f32) (p : Fin 4000) (q : Fin 64) :
    k6_pay1 x0 x1 (ix2 p q) = Ideal.div (post_meanB x0 x1 p q) (post_lenB x0 x1 p) := by
  unfold k6_pay1
  exact post_norm_apply x0 x1 _ _ _ _ _ _ _ p q

/-- Region 6's second stored value at an entry: the residual plus the first. -/
theorem post_pay2_apply6 (x0 : Vec Ideal S4000x64 .f32) (x1 : Vec Ideal S4000x1 .f32) (x2 : Vec Ideal S4000x64 .f32) (p : Fin 4000) (q : Fin 64) :
    k6_pay2 x0 x1 x2 (ix2 p q) = x2 (ix2 p q) + Ideal.div (post_meanB x0 x1 p q) (post_lenB x0 x1 p) := by
  unfold k6_pay2
  refine (addf_apply _ _ (ix2 p q)).trans ?_
  rw [post_pay1_apply6, shapeCast_self]

/-- The index maps of region 6's windows, decided over the grid: block `t` of rows, the one block of columns. -/
theorem post_idx_facts6 : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0
    ∧ win6_4.index t (0 : Fin 2) = t.val ∧ win6_4.index t (1 : Fin 2) = 0 :=
  (by decide +kernel : ∀ t : Fin grid6.N, _)

/-- Window 0's block at point `t` is rows `4000 t …` of its array. -/
theorem post_iblk6_0_apply (V : (c : Dev nD) → (b : Ref sig .tc) → Buf (Elt Ideal) ((c : Thread nD τ).loc b)) (c : Dev nD) (t : Fin cfg6.N)
    (p : Fin 4000) (q : Fin 64) (ht : t.val < 25) :
    (iblk6 V c 0 t : Vec Ideal S4000x64 .f32) (ix2 p q) = (V c main_v49 : Arr Ideal S100000x64 .f32) (ix2 (⟨t.val * 4000 + p.val, by omega⟩ : Fin 100000) q) := by
  obtain ⟨e0, e1, -⟩ := post_idx_facts6 t
  unfold iblk6
  rw [View.read_apply]
  show V c main_v49 _ = V c main_v49 _
  congr 1
  funext a
  apply Fin.ext
  match a with
  | ⟨0, _⟩ => show win6_0.index t (0 : Fin 2) * 4000 + 1 * p.val = t.val * 4000 + p.val; rw [e0]; omega
  | ⟨1, _⟩ => show win6_0.index t (1 : Fin 2) * 64 + 1 * q.val = q.val; rw [e1]; omega

/-- Window 1's block at point `t` is rows `4000 t …` of the counts. -/
theorem post_iblk6_1_apply (V : (c : Dev nD) → (b : Ref sig .tc) → Buf (Elt Ideal) ((c : Thread nD τ).loc b)) (c : Dev nD) (t : Fin cfg6.N)
    (p : Fin 4000) (ht : t.val < 25) :
    (iblk6 V c 1 t : Vec Ideal S4000x1 .f32) (ix2 p (0 : Fin 1)) = (V c main_v14 : Arr Ideal S100000x1 .f32) (ix2 (⟨t.val * 4000 + p.val, by omega⟩ : Fin 100000) (0 : Fin 1)) := by
  obtain ⟨-, -, e0, e1, -⟩ := post_idx_facts6 t
  unfold iblk6
  rw [View.read_apply]
  show V c main_v14 _ = V c main_v14 _
  congr 1
  funext a
  apply Fin.ext
  match a with
  | ⟨0, _⟩ => show win6_1.index t (0 : Fin 2) * 4000 + 1 * p.val = t.val * 4000 + p.val; rw [e0]; omega
  | ⟨1, _⟩ => show win6_1.index t (1 : Fin 2) * 1 + 1 * 0 = 0; rw [e1]

/-- Window 2's block at point `t` is rows `4000 t …` of the residual. -/
theorem post_iblk6_2_apply (V : (c : Dev nD) → (b : Ref sig .tc) → Buf (Elt Ideal) ((c : Thread nD τ).loc b)) (c : Dev nD) (t : Fin cfg6.N)
    (p : Fin 4000) (q : Fin 64) (ht : t.val < 25) :
    (iblk6 V c 2 t : Vec Ideal S4000x64 .f32) (ix2 p q) = (V c main_v38_1 : Arr Ideal S100000x64 .f32) (ix2 (⟨t.val * 4000 + p.val, by omega⟩ : Fin 100000) q) := by
  obtain ⟨-, -, -, -, e0, e1, -⟩ := post_idx_facts6 t
  unfold iblk6
  rw [View.read_apply]
  show V c main_v38_1 _ = V c main_v38_1 _
  congr 1
  funext a
  apply Fin.ext
  match a with
  | ⟨0, _⟩ => show win6_2.index t (0 : Fin 2) * 4000 + 1 * p.val = t.val * 4000 + p.val; rw [e0]; omega
  | ⟨1, _⟩ => show win6_2.index t (1 : Fin 2) * 64 + 1 * q.val = q.val; rw [e1]; omega

/-- What point `t` writes back to window 3's array is block `t` of the new embedding. -/
theorem post_flushedE6 (V : (c : Dev nD) → (b : Ref sig .tc) → Buf (Elt Ideal) ((c : Thread nD τ).loc b)) (c : Dev nD) (t : Fin cfg6.N) :
    (dat6 (F := Ideal) V c).flushed 3 t = ((cfg6.win 3).blk t).view.read (Elt Ideal) (fun y => postEAt (V c main_v49) (V c main_v14) (y 0) (y 1)) := by
  have ht : t.val < 25 := lt_of_lt_of_eq t.isLt N_6
  obtain ⟨-, -, -, -, -, -, e0, e1, -⟩ := post_idx_facts6 t
  show (cfg6.win 3).cut (grid6.coords t) ((dat6 V c).after 3 t) = _
  rw [after6_3]
  unfold out6_3
  rw [View.canon_unit_zero post_hz]
  simp only [View.ld_unit_zero (S := S4000x64) post_hz, View.ld_unit_zero (S := S4000x1) post_hz]
  funext j
  show k6_pay1 (iblk6 V c 0 t) (iblk6 V c 1 t) j = postEAt (V c main_v49) (V c main_v14) ((((cfg6.win 3).blk t).view.emb j) 0) ((((cfg6.win 3).blk t).view.emb j) 1)
  refine (congrArg (k6_pay1 (iblk6 V c 0 t) (iblk6 V c 1 t)) (eq_ix2 (n0 := 4000) (n1 := 64) j)).trans ?_
  refine (post_pay1_apply6 (iblk6 V c 0 t) (iblk6 V c 1 t) (j 0) (j 1)).trans ?_
  refine (post_blockE (V c main_v49) (V c main_v14) (iblk6 V c 0 t) (iblk6 V c 1 t) t.val ht (fun p q => post_iblk6_0_apply V c t p q ht) (fun p => post_iblk6_1_apply V c t p ht) (j 0) (j 1)).trans ?_
  refine congrArg₂ (postEAt (V c main_v49) (V c main_v14)) (Fin.ext ?_) (Fin.ext ?_)
  · show t.val * 4000 + (j 0).val = win6_3.index t (0 : Fin 2) * 4000 + 1 * (j 0).val; rw [e0]; omega
  · show (j 1).val = win6_3.index t (1 : Fin 2) * 64 + 1 * (j 1).val; rw [e1]; omega

/-- What point `t` writes back to window 4's array is block `t` of the new residual. -/
theorem post_flushedR6 (V : (c : Dev nD) → (b : Ref sig .tc) → Buf (Elt Ideal) ((c : Thread nD τ).loc b)) (c : Dev nD) (t : Fin cfg6.N) :
    (dat6 (F := Ideal) V c).flushed 4 t = ((cfg6.win 4).blk t).view.read (Elt Ideal) (fun y => postRAt (V c main_v49) (V c main_v14) (V c main_v38_1) (y 0) (y 1)) := by
  have ht : t.val < 25 := lt_of_lt_of_eq t.isLt N_6
  obtain ⟨-, -, -, -, -, -, -, -, e0, e1⟩ := post_idx_facts6 t
  show (cfg6.win 4).cut (grid6.coords t) ((dat6 V c).after 4 t) = _
  rw [after6_4]
  unfold out6_4
  rw [View.canon_unit_zero post_hz]
  simp only [View.ld_unit_zero (S := S4000x64) post_hz, View.ld_unit_zero (S := S4000x1) post_hz]
  funext j
  show k6_pay2 (iblk6 V c 0 t) (iblk6 V c 1 t) (iblk6 V c 2 t) j = postRAt (V c main_v49) (V c main_v14) (V c main_v38_1) ((((cfg6.win 4).blk t).view.emb j) 0) ((((cfg6.win 4).blk t).view.emb j) 1)
  refine (congrArg (k6_pay2 (iblk6 V c 0 t) (iblk6 V c 1 t) (iblk6 V c 2 t)) (eq_ix2 (n0 := 4000) (n1 := 64) j)).trans ?_
  refine (post_pay2_apply6 (iblk6 V c 0 t) (iblk6 V c 1 t) (iblk6 V c 2 t) (j 0) (j 1)).trans ?_
  refine (post_blockR (V c main_v49) (V c main_v14) (V c main_v38_1) (iblk6 V c 0 t) (iblk6 V c 1 t) (iblk6 V c 2 t) t.val ht (fun p q => post_iblk6_0_apply V c t p q ht) (fun p => post_iblk6_1_apply V c t p ht) (fun p q => post_iblk6_2_apply V c t p q ht) (j 0) (j 1)).trans ?_
  refine congrArg₂ (postRAt (V c main_v49) (V c main_v14) (V c main_v38_1)) (Fin.ext ?_) (Fin.ext ?_)
  · show t.val * 4000 + (j 0).val = win6_4.index t (0 : Fin 2) * 4000 + 1 * (j 0).val; rw [e0]; omega
  · show (j 1).val = win6_4.index t (1 : Fin 2) * 64 + 1 * (j 1).val; rw [e1]; omega

/-- An index of window 3's array is in point `t`'s block iff each coordinate is in the block's range on its axis. -/
theorem post_mem_blk6_3 (t : Fin cfg6.N) (i : S100000x64.Idx) :
    i ∈ ((cfg6.win 3).blk t).view.set ↔ ∀ a : Fin 2, win6_3.index t a * S4000x64.size a ≤ (i a).val ∧ (i a).val < win6_3.index t a * S4000x64.size a + S4000x64.size a := by
  show i ∈ ((View.whole main_v50_0).slice (win6_3.rect t)).set ↔ _
  rw [View.set_slice_whole, Rect.mem_set_unit]
  exact Iff.rfl

/-- Likewise for window 4's array. -/
theorem post_mem_blk6_4 (t : Fin cfg6.N) (i : S100000x64.Idx) :
    i ∈ ((cfg6.win 4).blk t).view.set ↔ ∀ a : Fin 2, win6_4.index t a * S4000x64.size a ≤ (i a).val ∧ (i a).val < win6_4.index t a * S4000x64.size a + S4000x64.size a := by
  show i ∈ ((View.whole main_v50_1).slice (win6_4.rect t)).set ↔ _
  rw [View.set_slice_whole, Rect.mem_set_unit]
  exact Iff.rfl

/-- Every row of window 3's array is in the block of the point its quotient by 4000 names. -/
theorem post_covered6_3 (i : S100000x64.Idx) : ∃ t : Fin cfg6.N, (cfg6.win 3).flush t = true ∧ i ∈ ((cfg6.win 3).blk t).view.set := by
  have hi0 : (i 0).val < 100000 := (i 0).isLt
  have hi1 : (i 1).val < 64 := (i 1).isLt
  obtain ⟨t, htv⟩ : ∃ t : Fin cfg6.N, t.val = (i 0).val / 4000 := ⟨⟨(i 0).val / 4000, lt_of_lt_of_eq (by omega) N_6.symm⟩, rfl⟩
  obtain ⟨-, -, -, -, -, -, e0, e1, -⟩ := post_idx_facts6 t
  refine ⟨t, flush6_3 t, ?_⟩
  rw [post_mem_blk6_3]
  intro a
  match a with
  | ⟨0, _⟩ => show win6_3.index t (0 : Fin 2) * 4000 ≤ (i 0).val ∧ (i 0).val < win6_3.index t (0 : Fin 2) * 4000 + 4000; rw [e0, htv]; omega
  | ⟨1, _⟩ => show win6_3.index t (1 : Fin 2) * 64 ≤ (i 1).val ∧ (i 1).val < win6_3.index t (1 : Fin 2) * 64 + 64; rw [e1]; omega

/-- Likewise for window 4's array. -/
theorem post_covered6_4 (i : S100000x64.Idx) : ∃ t : Fin cfg6.N, (cfg6.win 4).flush t = true ∧ i ∈ ((cfg6.win 4).blk t).view.set := by
  have hi0 : (i 0).val < 100000 := (i 0).isLt
  have hi1 : (i 1).val < 64 := (i 1).isLt
  obtain ⟨t, htv⟩ : ∃ t : Fin cfg6.N, t.val = (i 0).val / 4000 := ⟨⟨(i 0).val / 4000, lt_of_lt_of_eq (by omega) N_6.symm⟩, rfl⟩
  obtain ⟨-, -, -, -, -, -, -, -, e0, e1⟩ := post_idx_facts6 t
  refine ⟨t, flush6_4 t, ?_⟩
  rw [post_mem_blk6_4]
  intro a
  match a with
  | ⟨0, _⟩ => show win6_4.index t (0 : Fin 2) * 4000 ≤ (i 0).val ∧ (i 0).val < win6_4.index t (0 : Fin 2) * 4000 + 4000; rw [e0, htv]; omega
  | ⟨1, _⟩ => show win6_4.index t (1 : Fin 2) * 64 ≤ (i 1).val ∧ (i 1).val < win6_4.index t (1 : Fin 2) * 64 + 64; rw [e1]; omega

/-- After post-processing region 6, its two output arrays hold the new embedding and the new residual. -/
theorem post_final6 (V : (c : Dev nD) → (b : Ref sig .tc) → Buf (Elt Ideal) ((c : Thread nD τ).loc b)) (c : Dev nD) :
    (dat6 (F := Ideal) V c).arrAt 3 cfg6.N = (fun y => Cert.ReferenceIdeal.Spec.postEAt (V c main_v49) (V c main_v14) (y 0) (y 1))
    ∧ (dat6 (F := Ideal) V c).arrAt 4 cfg6.N = (fun y => Cert.ReferenceIdeal.Spec.postRAt (V c main_v49) (V c main_v14) (V c main_v38_1) (y 0) (y 1)) := by
  exact ⟨(dat6 (F := Ideal) V c).arrAt_eq_of_cover 3 _ (fun t _ => post_flushedE6 V c t) post_covered6_3,
    (dat6 (F := Ideal) V c).arrAt_eq_of_cover 4 _ (fun t _ => post_flushedR6 V c t) post_covered6_4⟩

end Cert.KernelIdeal.Value

end
-- ==== Proof.RAttn.lean ====
/-
  The reference's item embedding, entry by entry: the composition of its host operations read at an index is the
  mixed entry of Spec.lean.
-/
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout
import Idealize.ShloMosaic.Lib.StackMember

noncomputable section

namespace Cert.ReferenceIdeal.RefValue

open Cert.ReferenceIdeal Cert.ReferenceIdeal.Facts₀ Cert.ReferenceIdeal.Facts Cert.ReferenceIdeal.Terms Cert.ReferenceIdeal.Spec Idealize.ShloMosaic Idealize.ShloMosaic.TcCoe Idealize.ShloMosaic.ValueIdx

/-- A bias row copied down the 30000 rows reads, at (p, q), the bias entry q. -/
private theorem bias_apply (b : Arr Ideal S64 .f32) (p : Fin 30000) (q : Fin 64) :
    broadcastInDim S30000x64 ![0, 1] bcast_S1x64_S30000x64_0_1 (broadcastInDim S1x64 ![1] bcast_S64_S1x64_1 b) (ix2 p q)
      = b (ix1 q) := by
  refine (broadcastInDim_apply _ _ _ (ix2 p q) (ix2 (0 : Fin 1) q) ?_).trans ?_
  · intro a
    match a with
    | ⟨0, _⟩ => rfl
    | ⟨1, _⟩ => rfl
  · refine broadcastInDim_apply _ _ _ (ix2 (0 : Fin 1) q) (ix1 q) ?_
    intro a
    match a with
    | ⟨0, _⟩ => rfl

/-- The picture branch's product at (p, q): the sum over the 2048 contracted coordinates. -/
private theorem dotP_apply (pic : Arr Ideal S30000x2048 .f32) (wpf : Arr Ideal S2048x64 .f32) (p : Fin 30000) (q : Fin 64) :
    Host.dotGeneral (F := Ideal) (φ₁ := .f32) (φ₂ := .f32) dot_S30000x2048_S2048x64_S30000x64_1_0_0_1_n_n none pic wpf (ix2 p q)
      = ∑ k : Fin 2048, pic (ix2 p k) * wpf (ix2 k q) :=
  StackMember.dotGeneral_plain_apply (m := 30000) (k := 2048) (n := 64) none pic wpf p q

/-- The text branch's product at (p, q): the sum over the 768 contracted coordinates. -/
private theorem dotT_apply (txt : Arr Ideal S30000x768 .f32) (wtf : Arr Ideal S768x64 .f32) (p : Fin 30000) (q : Fin 64) :
    Host.dotGeneral (F := Ideal) (φ₁ := .f32) (φ₂ := .f32) dot_S30000x768_S768x64_S30000x64_1_0_0_1_n_n none txt wtf (ix2 p q)
      = ∑ k : Fin 768, txt (ix2 p k) * wtf (ix2 k q) :=
  StackMember.dotGeneral_plain_apply (m := 30000) (k := 768) (n := 64) none txt wtf p q

/-- A projection against the scoring column at (p, r): the sum over the 64 contracted coordinates. -/
private theorem dotW_apply (x : Arr Ideal S30000x64 .f32) (ww : Arr Ideal S64x1 .f32) (p : Fin 30000) (r : Fin 1) :
    Host.dotGeneral (F := Ideal) (φ₁ := .f32) (φ₂ := .f32) dot_S30000x64_S64x1_S30000x1_1_0_0_1_n_n none x ww (ix2 p r)
      = ∑ k : Fin 64, x (ix2 p k) * ww (ix2 k r) :=
  StackMember.dotGeneral_plain_apply (m := 30000) (k := 64) (n := 1) none x ww p r

/-- The picture branch's projection at (p, q). -/
private theorem projP_apply (pic : Arr Ideal S30000x2048 .f32) (wpf : Arr Ideal S2048x64 .f32) (bpf : Arr Ideal S64 .f32)
    (p : Fin 30000) (q : Fin 64) :
    Terms.projP (F := Ideal) pic wpf bpf (ix2 p q) = Spec.projAt pic wpf bpf p q := by
  unfold Terms.projP Spec.projAt
  rw [addf_apply, dotP_apply, bias_apply]

/-- The text branch's projection at (p, q). -/
private theorem projT_apply (txt : Arr Ideal S30000x768 .f32) (wtf : Arr Ideal S768x64 .f32) (btf : Arr Ideal S64 .f32)
    (p : Fin 30000) (q : Fin 64) :
    Terms.projT (F := Ideal) txt wtf btf (ix2 p q) = Spec.projAt txt wtf btf p q := by
  unfold Terms.projT Spec.projAt
  rw [addf_apply, dotT_apply, bias_apply]

/-- A branch's score at (p, r): its projected row against the scoring column, cut off below at zero. -/
private theorem score_apply (x : Arr Ideal S30000x64 .f32) (ww : Arr Ideal S64x1 .f32) (p : Fin 30000) (r : Fin 1) :
    Terms.score (F := Ideal) x ww (ix2 p r) = Spec.scoreAt (fun i j => x (ix2 i j)) ww p := by
  obtain rfl : r = 0 := Subsingleton.elim _ _
  unfold Terms.score Spec.scoreAt
  rw [maximumf_apply, dotW_apply]
  rfl

/-- Two score columns side by side, read in column 0: the first column. -/
private theorem cat_apply_zero (a b : Arr Ideal S30000x1 .f32) (p : Fin 30000) :
    concatenate S30000x2 1 [⟨S30000x1, a⟩, ⟨S30000x1, b⟩] concatenates_S30000x1_S30000x1_S30000x2_d1 (ix2 p (0 : Fin 2))
      = a (ix2 p (0 : Fin 1)) := by
  refine concatenate_pair_apply_left _ a b _ (ix2 p (0 : Fin 2)) rfl (ix2 p (0 : Fin 1)) ?_
  intro c
  match c with
  | ⟨0, _⟩ => rfl
  | ⟨1, _⟩ => rfl

/-- Two score columns side by side, read in column 1: the second column. -/
private theorem cat_apply_one (a b : Arr Ideal S30000x1 .f32) (p : Fin 30000) :
    concatenate S30000x2 1 [⟨S30000x1, a⟩, ⟨S30000x1, b⟩] concatenates_S30000x1_S30000x1_S30000x2_d1 (ix2 p (1 : Fin 2))
      = b (ix2 p (0 : Fin 1)) := by
  refine concatenate_pair_apply_right _ a b _ (ix2 p (1 : Fin 2)) rfl rfl (ix2 p (0 : Fin 1)) ?_ ?_
  · intro c hc
    match c, hc with
    | ⟨0, _⟩, _ => rfl
    | ⟨1, _⟩, hc => exact absurd rfl hc
  · rfl

/-- The sum along a two-column row, started from the zero word: the two entries added. -/
private theorem rowsum_apply (x : Arr Ideal S30000x2 .f32) (p : Fin 30000) :
    Host.reduceAdd (F := Ideal) (φ := .f32) x (constant S_ .f32 0x00000000#32) reducesTo_S30000x2_S30000_d1 h_S_ (ix1 p)
      = x (ix2 p (0 : Fin 2)) + x (ix2 p (1 : Fin 2)) := by
  have h : S30000x2.Reduces [1] S30000 := by decide
  show Ideal.hostReduceAdd reducesTo_S30000x2_S30000_d1 x (Ideal.ofBits .f32 0x00000000#32) (ix1 p) = _
  rw [Ideal.hostReduceAdd_single _ h, Ideal.ofBits_zero_f32, zero_add]
  show ∑ k : Fin 2, x (h.lift (ix1 p) k) = _
  rw [Fin.sum_univ_two]
  congr 1
  · refine congrArg x (funext fun c => Fin.ext ?_)
    match c with
    | ⟨0, _⟩ => rfl
    | ⟨1, _⟩ => rfl
  · refine congrArg x (funext fun c => Fin.ext ?_)
    match c with
    | ⟨0, _⟩ => rfl
    | ⟨1, _⟩ => rfl

/-- A per-item value copied across a row's two columns reads, at (p, c), the item's value. -/
private theorem rowcopy2_apply (v : Arr Ideal S30000 .f32) (p : Fin 30000) (c : Fin 2) :
    broadcastInDim S30000x2 ![0, 1] bcast_S30000x1_S30000x2_0_1 (broadcastInDim S30000x1 ![0] bcast_S30000_S30000x1_0 v) (ix2 p c)
      = v (ix1 p) := by
  refine (broadcastInDim_apply _ _ _ (ix2 p c) (ix2 p (0 : Fin 1)) ?_).trans ?_
  · intro a
    match a with
    | ⟨0, _⟩ => rfl
    | ⟨1, _⟩ => rfl
  · refine broadcastInDim_apply _ _ _ (ix2 p (0 : Fin 1)) (ix1 p) ?_
    intro a
    match a with
    | ⟨0, _⟩ => rfl

/-- The host's quotient at an index is the quotient of the entries. -/
private theorem hostDivf_apply {s : Shape} (x y : FVec Ideal s .f32) (i : s.Idx) : Host.divf x y i = Ideal.div (x i) (y i) := rfl

/-- The host's exponential at an index is the exponential of the entry. -/
private theorem hostExp_apply {s : Shape} (x : FVec Ideal s .f32) (i : s.Idx) : Host.exp x i = Ideal.exp (x i) := rfl

/-- Column 0 of the mix at item p: the first score's exponential over the sum of the two. -/
private theorem mix_apply_zero (a b : Arr Ideal S30000x1 .f32) (p : Fin 30000) :
    Terms.mix (F := Ideal) a b (ix2 p (0 : Fin 2))
      = Ideal.div (Ideal.exp (a (ix2 p (0 : Fin 1))))
          (Ideal.exp (a (ix2 p (0 : Fin 1))) + Ideal.exp (b (ix2 p (0 : Fin 1)))) := by
  unfold Terms.mix
  rw [hostDivf_apply, rowcopy2_apply, rowsum_apply, hostExp_apply, hostExp_apply, cat_apply_zero, cat_apply_one]

/-- Column 1 of the mix at item p: the second score's exponential over the sum of the two. -/
private theorem mix_apply_one (a b : Arr Ideal S30000x1 .f32) (p : Fin 30000) :
    Terms.mix (F := Ideal) a b (ix2 p (1 : Fin 2))
      = Ideal.div (Ideal.exp (b (ix2 p (0 : Fin 1))))
          (Ideal.exp (a (ix2 p (0 : Fin 1))) + Ideal.exp (b (ix2 p (0 : Fin 1)))) := by
  unfold Terms.mix
  rw [hostDivf_apply, rowcopy2_apply, rowsum_apply, hostExp_apply, hostExp_apply, cat_apply_zero, cat_apply_one]

/-- A per-item weight copied across a row's 64 columns reads, at (p, q), the item's weight. -/
private theorem rowcopy64_apply (v : Arr Ideal S30000x1 .f32) (p : Fin 30000) (q : Fin 64) :
    broadcastInDim S30000x64 ![0, 1] bcast_S30000x1_S30000x64_0_1 v (ix2 p q) = v (ix2 p (0 : Fin 1)) := by
  refine broadcastInDim_apply _ _ _ (ix2 p q) (ix2 p (0 : Fin 1)) ?_
  intro a
  match a with
  | ⟨0, _⟩ => rfl
  | ⟨1, _⟩ => rfl

/-- Column 0 of a two-column array, cut out as one column. -/
private theorem col0_apply (m : Arr Ideal S30000x2 .f32) (p : Fin 30000) :
    extractStridedSlice S30000x1 ![0, 0] m slices_S30000x2_S30000x1_0_0 (ix2 p (0 : Fin 1)) = m (ix2 p (0 : Fin 2)) := by
  refine extractStridedSlice_apply _ m _ (ix2 p (0 : Fin 1)) (ix2 p (0 : Fin 2)) ?_
  intro a
  match a with
  | ⟨0, _⟩ => exact (Nat.zero_add _).symm
  | ⟨1, _⟩ => rfl

/-- Column 1 of a two-column array, cut out as one column. -/
private theorem col1_apply (m : Arr Ideal S30000x2 .f32) (p : Fin 30000) :
    extractStridedSlice S30000x1 ![0, 1] m slices_S30000x2_S30000x1_0_1 (ix2 p (0 : Fin 1)) = m (ix2 p (1 : Fin 2)) := by
  refine extractStridedSlice_apply _ m _ (ix2 p (0 : Fin 1)) (ix2 p (1 : Fin 2)) ?_
  intro a
  match a with
  | ⟨0, _⟩ => exact (Nat.zero_add _).symm
  | ⟨1, _⟩ => rfl

/-- The mixed entry (p, q) of two projections. -/
private theorem blend_apply (x y : Arr Ideal S30000x64 .f32) (ww : Arr Ideal S64x1 .f32) (p : Fin 30000) (q : Fin 64) :
    Terms.blend (F := Ideal) x y ww (ix2 p q)
      = Spec.blendAt (fun i j => x (ix2 i j)) (fun i j => y (ix2 i j)) ww p q := by
  unfold Terms.blend Spec.blendAt
  rw [addf_apply, mulf_apply, mulf_apply, rowcopy64_apply, rowcopy64_apply, col0_apply, col1_apply,
    mix_apply_zero, mix_apply_one, score_apply, score_apply]

/-- The item embedding's term is its entrywise formula. -/
theorem item_eq (pic : Arr Ideal S30000x2048 .f32) (txt : Arr Ideal S30000x768 .f32) (wpf : Arr Ideal S2048x64 .f32) (bpf : Arr Ideal S64 .f32)
    (wtf : Arr Ideal S768x64 .f32) (btf : Arr Ideal S64 .f32) (ww : Arr Ideal S64x1 .f32) :
    Terms.item (F := Ideal) pic txt wpf bpf wtf btf ww = fun y => Spec.itemAt pic txt wpf bpf wtf btf ww (y 0) (y 1) := by
  funext y
  obtain ⟨p, q, rfl⟩ : ∃ (p : Fin 30000) (q : Fin 64), y = ix2 p q := ⟨y 0, y 1, eq_ix2 y⟩
  show Terms.item (F := Ideal) pic txt wpf bpf wtf btf ww (ix2 p q) = Spec.itemAt pic txt wpf bpf wtf btf ww p q
  unfold Terms.item Spec.itemAt
  rw [blend_apply]
  have eP : (fun i j => Terms.projP (F := Ideal) pic wpf bpf (ix2 i j)) = Spec.projAt pic wpf bpf :=
    funext fun i => funext fun j => projP_apply pic wpf bpf i j
  have eT : (fun i j => Terms.projT (F := Ideal) txt wtf btf (ix2 i j)) = Spec.projAt txt wtf btf :=
    funext fun i => funext fun j => projT_apply txt wtf btf i j
  rw [eP, eT]

end Cert.ReferenceIdeal.RefValue

end
-- ==== Proof.RMsg.lean ====
/-
  A message through the one-hot sum is the tail row times the relation row the reference gathers, when every edge
  type lies between 1 and 15: the one-hot of the type less one over fifteen rows then has exactly one 1, at the row the
  reference's gather reads (no index is negative, so the reference's wrap leaves it alone).
-/
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout
import Idealize.ShloMosaic.Lib.StableHlo.Predicate

noncomputable section

namespace Cert.ReferenceIdeal.RefValue

open Cert.ReferenceIdeal Cert.ReferenceIdeal.Facts₀ Cert.ReferenceIdeal.Facts Cert.ReferenceIdeal.Terms Cert.ReferenceIdeal.Spec Idealize.ShloMosaic Idealize.ShloMosaic.TcCoe Idealize.ShloMosaic.ValueIdx

/-- A gather of whole rows of an [N × M] table at an [n × 1] column of start indices (the row axis collapsed and
    start-indexed, the column axis the one offset axis, no batching axes, the index vector on axis 1) reads, at (p, q),
    the table at row "start index p, read signed and clamped into the table" and column q. -/
theorem gather_row_apply {α : Type} {N M n w : Nat} (d : GatherDims ⟨2, ![N, M]⟩ ⟨2, ![n, 1]⟩ ⟨2, ![n, M]⟩)
    (hoff : d.offsetDims = [1]) (hcoll : d.collapsedSliceDims = [0]) (hob : d.operandBatchingDims = [])
    (hsim : d.startIndexMap = [0]) (hivd : d.indexVectorDim = 1)
    (x : (⟨2, ![N, M]⟩ : Shape).Idx → α) (idx : IVec ⟨2, ![n, 1]⟩ w) (p : Fin n) (q : Fin M) (hN : 0 < N) :
    Host.gather d x idx (ix2 p q) = x (ix2 (⟨min (idx (ix2 p (0 : Fin 1))).toInt.toNat (N - 1), by omega⟩ : Fin N) q) := by
  obtain ⟨od, cd, ob, sb, sm, iv, ss, wf⟩ := d
  simp only at hoff hcoll hob hsim hivd
  subst hoff hcoll hob hsim hivd
  unfold Host.gather
  congr 1
  funext a
  apply Fin.ext
  match a with
  | ⟨0, _⟩ =>
    have hsl : ss 0 = 1 := wf.2.2.2.2.2.2.2.2.2.2.2.1 0 (List.mem_singleton.mpr rfl)
    simp [GatherDims.operandIdx, GatherDims.start, GatherDims.batchCoord, GatherDims.offCoord, GatherDims.sKept, Shape.kept]
    rw [hsl]
    congr 3
    congr 1
    funext b
    apply Fin.ext
    match b with
    | ⟨0, _⟩ =>
      simp [GatherDims.siIdx, GatherDims.siCoord]
      rfl
    | ⟨1, _⟩ =>
      simp [GatherDims.siIdx, GatherDims.siCoord]
  | ⟨1, _⟩ =>
    simp [GatherDims.operandIdx, GatherDims.start, GatherDims.batchCoord, GatherDims.offCoord, GatherDims.sKept, Shape.kept]
    rfl

/-- A word between 1 and 15 in the signed order, less one, has a value below 15. -/
private theorem pred_toNat_lt (a : BitVec 32) (h1 : (1#32).sle a = true) (h2 : a.sle 15#32 = true) :
    (a - 1#32).toNat < 15 := by
  have e1 : (1#32 : BitVec 32).toInt = 1 := by decide
  have e15 : (15#32 : BitVec 32).toInt = 15 := by decide
  simp only [BitVec.sle, decide_eq_true_eq, e1, e15] at h1 h2
  rw [BitVec.toInt_eq_toNat_cond] at h1 h2
  rw [BitVec.toNat_sub]
  simp only [BitVec.toNat_ofNat]
  have := a.isLt
  split at h1 <;> omega

/-- A word with a value below 15 is not negative, so a wrap of negative indices by 15 leaves it alone. -/
private theorem wrap_small (x : BitVec 32) (hx : x.toNat < 15) :
    Scalar.select (IntOp.cmpi .slt x 0#32) (IntOp.addi x 15#32) x = x := by
  have h0 : IntOp.cmpi .slt x 0#32 = 0#1 := by
    apply eq_zero_of_ne_one
    rw [StableHlo.Predicate.slt_iff_toNat (by omega) (by decide)]
    simp
  rw [h0, select_zero]

/-- Such a word read signed and clamped into the fifteen rows is its own value. -/
private theorem clamp_small (x : BitVec 32) (hx : x.toNat < 15) : min x.toInt.toNat (15 - 1) = x.toNat := by
  rw [StableHlo.Predicate.toInt_eq_toNat_of_lt (by omega)]
  simp only [Int.toNat_natCast]
  omega

/-- The one-hot of such a word over fifteen rows picks the row of its value. -/
private theorem onehot_sum (x : BitVec 32) (hx : x.toNat < 15) (f : Fin 15 → Ideal .f32) :
    ∑ k : Fin 15, (if x = BitVec.ofNat 32 k.val then (1 : EReal) else 0) * f k = f ⟨x.toNat, hx⟩ := by
  rw [Finset.sum_eq_single (⟨x.toNat, hx⟩ : Fin 15)]
  · rw [if_pos (by apply BitVec.eq_of_toNat_eq; simp only [BitVec.toNat_ofNat]; omega), one_mul]
  · intro k _ hk
    rw [if_neg, zero_mul]
    intro e
    apply hk
    apply Fin.ext
    have hkl := k.isLt
    have hv : x.toNat = k.val := by
      rw [e]
      simp only [BitVec.toNat_ofNat]
      omega
    exact hv.symm
  · intro hn
    exact absurd (Finset.mem_univ _) hn

/-- Under the type range, the one-hot messages over the recast zero-based types are the gathered product. -/
theorem msgArr_eq (g : Arr Ideal S2000000x64 .f32) (w : Arr Ideal S15x64 .f32) (et : Arr Ideal S2000000 .i32)
    (h : S2000000.ShapeCasts S2000000x1)
    (hr : ∀ i : S2000000.Idx, (1#32).sle (et i) = true ∧ (et i).sle 15#32 = true) :
    Spec.msgArr g (fun i => shapeCast S2000000x1 (Terms.typeIdx (F := Ideal) et) h i) w = (mulf g (Terms.rel (F := Ideal) w et) : FVec Ideal S2000000x64 .f32) := by
  funext y
  obtain ⟨p, q, rfl⟩ : ∃ (p : Fin 2000000) (q : Fin 64), y = ix2 p q := ⟨y 0, y 1, eq_ix2 y⟩
  -- the zero-based type of edge p is a word with a value below 15
  have hx : (et (ix1 p) - 1#32).toNat < 15 := pred_toNat_lt _ (hr (ix1 p)).1 (hr (ix1 p)).2
  -- the recast column reads it at (p, 0)
  have hcol : shapeCast S2000000x1 (Terms.typeIdx (F := Ideal) et) h (ix2 p (0 : Fin 1)) = et (ix1 p) - 1#32 := by
    rw [shapeCast_apply _ h (ix2 p (0 : Fin 1)) (ix1 p) (by
      rw [Shape.rowMajor_val_two, Shape.rowMajor_val_one]
      show p.val = p.val * 1 + 0
      omega)]
    rfl
  -- so does the wrapped column: the word is not negative
  have hwrap : Terms.wrapEdges (F := Ideal) 15#32 (Terms.typeIdx (F := Ideal) et) (ix2 p (0 : Fin 1)) = et (ix1 p) - 1#32 := by
    unfold Terms.wrapEdges
    rw [broadcastInDim_apply _ _ _ (ix2 p (0 : Fin 1)) (ix1 p) (by
      intro a
      obtain rfl : a = 0 := Subsingleton.elim _ _
      rw [if_neg (by decide)]
      rfl)]
    rw [select_apply]
    exact wrap_small _ hx
  show g (ix2 p q) * Spec.relAt _ w p q = g (ix2 p q) * Terms.rel (F := Ideal) w et (ix2 p q)
  congr 1
  unfold Terms.rel Spec.relAt
  rw [gather_row_apply _ rfl rfl rfl rfl rfl w _ p q (by decide)]
  simp only [hcol]
  rw [onehot_sum _ hx (fun k => w (ix2 k q))]
  congr 2
  apply Fin.ext
  show _ = min (BitVec.toInt _).toNat (15 - 1)
  rw [hwrap]
  exact (clamp_small _ hx).symm

end Cert.ReferenceIdeal.RefValue

end
-- ==== Proof.RPost.lean ====
/-
  The reference's post-processing of a hop, entry by entry, and the edge-count column written as a reshape.
-/
import proofs.«421973_j75917841924564_2_alg».proof.Proof.Spec
import proofs.«421973_j75917841924564_2_alg».proof.Proof.Gen.ReferenceIdeal
import Idealize.ShloMosaic.PureOps.Ideal.Laws
import Idealize.ShloMosaic.Lib.Pipeline.Value
import Idealize.ShloMosaic.Lib.ValueLayout
import Idealize.ShloMosaic.Lib.IdealHost

noncomputable section

namespace Cert.ReferenceIdeal.RefValue

open Cert.ReferenceIdeal Cert.ReferenceIdeal.Facts₀ Cert.ReferenceIdeal.Facts Cert.ReferenceIdeal.Terms Cert.ReferenceIdeal.Spec Idealize.ShloMosaic Idealize.ShloMosaic.TcCoe Idealize.ShloMosaic.ValueIdx

/-! ## The layout operations of a hop's post-processing, read at an index -/

/-- A column spread across the 64 columns reads, at `(p, q)`, the column's entry `(p, 0)`. -/
private theorem spreadCol_apply {α : Type} (h : S100000x1.BroadcastsInDim S100000x64 (![0, 1] : Fin 2 → Fin S100000x64.rank))
    (x : S100000x1.Idx → α) (p : Fin 100000) (q : Fin 64) :
    broadcastInDim S100000x64 ![0, 1] h x (ix2 p q) = x (ix2 p (0 : Fin 1)) :=
  broadcastInDim_apply _ h x _ _ (fun a => match a with
    | ⟨0, _⟩ => rfl
    | ⟨1, _⟩ => rfl)

/-- A vector set up as a column reads, at `(p, u)`, the vector's entry `p`. -/
private theorem vecCol_apply {α : Type} (h : S100000.BroadcastsInDim S100000x1 (![0] : Fin 1 → Fin S100000x1.rank))
    (x : S100000.Idx → α) (p : Fin 100000) (u : Fin 1) :
    broadcastInDim S100000x1 ![0] h x (ix2 p u) = x (ix1 p) :=
  broadcastInDim_apply _ h x _ _ (fun a => match a with
    | ⟨0, _⟩ => rfl)

/-- The row-sum's shape relation, in the form that names the summed coordinate. -/
private theorem reduces_d1 : S100000x64.Reduces [1] S100000 := by decide

/-- Summing over axis 1 at row `p`: the inserted coordinate `k` gives the index `(p, k)`. -/
private theorem lift_d1 (p : Fin 100000) (k : Fin 64) : reduces_d1.lift (ix1 p) k = ix2 p k := by
  funext a
  match a with
  | ⟨0, _⟩ => exact Fin.ext rfl
  | ⟨1, _⟩ => exact Fin.ext rfl

/-- The host's square root at an index is the square root of the entry. -/
private theorem hostSqrt_apply {s : Shape} {φ : FTy} (a : FVec Ideal s φ) (i : s.Idx) :
    Host.sqrt a i = Ideal.sqrt (a i) := rfl

/-! ## The three steps at an index -/

/-- The mean's entry. -/
private theorem meanBy_apply (agg : Arr Ideal S100000x64 .f32) (den : Arr Ideal S100000x1 .f32) (p : Fin 100000) (q : Fin 64) :
    Terms.meanBy (F := Ideal) agg den (ix2 p q) = Spec.meanAt agg den p q := by
  unfold Terms.meanBy Spec.meanAt
  rw [hostDivf_apply, spreadCol_apply]

/-- A row's length: the square root of the zero word's value plus the sum of the row's squares. -/
private theorem rowNorm_apply (a : Arr Ideal S100000x64 .f32) (p : Fin 100000) (u : Fin 1) :
    Terms.rowNorm (F := Ideal) a (ix2 p u) = Ideal.sqrt (z32 + ∑ k : Fin 64, a (ix2 p k) * a (ix2 p k)) := by
  unfold Terms.rowNorm
  rw [hostSqrt_apply, vecCol_apply, hostReduceAdd_apply, Ideal.hostReduceAdd_single _ reduces_d1]
  refine congrArg Ideal.sqrt (congrArg₂ (· + ·) rfl (Finset.sum_congr rfl fun k _ => ?_))
  exact congrArg (fun i => a i * a i) (lift_d1 p k)

/-- A row divided by its length cut off below. -/
private theorem unitRows_apply (a : Arr Ideal S100000x64 .f32) (p : Fin 100000) (q : Fin 64) :
    Terms.unitRows (F := Ideal) a (ix2 p q)
      = Ideal.div (a (ix2 p q)) (max (Ideal.sqrt (z32 + ∑ k : Fin 64, a (ix2 p k) * a (ix2 p k))) eps32) := by
  unfold Terms.unitRows
  rw [hostDivf_apply, spreadCol_apply, maximumf_apply, rowNorm_apply, broadcastInDim_scalar_apply]
  rfl

/-- The new embedding's term is its entrywise formula. -/
theorem postE_eq (agg : Arr Ideal S100000x64 .f32) (den : Arr Ideal S100000x1 .f32) :
    Terms.postE (F := Ideal) agg den = fun y => Spec.postEAt agg den (y 0) (y 1) := by
  funext y
  obtain ⟨p, q, rfl⟩ : ∃ (p : Fin 100000) (q : Fin 64), y = ix2 p q := ⟨y 0, y 1, eq_ix2 y⟩
  show Terms.postE (F := Ideal) agg den (ix2 p q) = Spec.postEAt agg den p q
  unfold Terms.postE Spec.postEAt Spec.lenAt
  rw [unitRows_apply, meanBy_apply]
  refine congrArg (Ideal.div _) (congrArg (max · _) (congrArg Ideal.sqrt (congrArg₂ (· + ·) rfl (Finset.sum_congr rfl fun k _ => ?_))))
  rw [meanBy_apply]

/-- The new residual's term is its entrywise formula. -/
theorem postR_eq (agg : Arr Ideal S100000x64 .f32) (den : Arr Ideal S100000x1 .f32) (res : Arr Ideal S100000x64 .f32) :
    Terms.postR (F := Ideal) agg den res = fun y => Spec.postRAt agg den res (y 0) (y 1) := by
  funext y
  obtain ⟨p, q, rfl⟩ : ∃ (p : Fin 100000) (q : Fin 64), y = ix2 p q := ⟨y 0, y 1, eq_ix2 y⟩
  show Terms.postR (F := Ideal) agg den res (ix2 p q) = Spec.postRAt agg den res p q
  unfold Terms.postR Spec.postRAt
  rw [addf_apply, postE_eq]

/-- A vector recast as a one-column matrix is the vector broadcast along axis 0 into that column. -/
theorem col_eq {F : FTy → Type} [FloatOps F] (x : Arr F S100000 .f32) (h : S100000.ShapeCasts S100000x1) :
    (fun i => shapeCast S100000x1 x h i) = broadcastInDim S100000x1 ![0] bcast_S100000_S100000x1_0 x := by
  funext y
  obtain ⟨p, u, rfl⟩ : ∃ (p : Fin 100000) (u : Fin 1), y = ix2 p u := ⟨y 0, y 1, eq_ix2 y⟩
  rw [vecCol_apply]
  refine shapeCast_apply x h _ _ ?_
  have hu : u.val = 0 := by omega
  rw [Shape.rowMajor_val_two, Shape.rowMajor_val_one]
  show p.val = p.val * 1 + u.val
  omega

end Cert.ReferenceIdeal.RefValue

end
-- ==== Proof.KFold.lean ====
/-
  The kernel program's three results as functions of its arguments: the last segment boundary's contents at each
  result buffer, read back boundary by boundary — a host stretch applies its operations to the contents before it, a
  region replaces its output arrays by what its blocks leave (the region lemmas) and keeps every other buffer —, come to
  the same named compositions the reference computes, once each region's entrywise formula is recognised as the
  reference's term and the one-hot messages as the gathered product (which is where the type range is used).
-/
import proofs.«421973_j75917841924564_2_alg».proof.Proof.Gen.KernelIdeal.Frame
import proofs.«421973_j75917841924564_2_alg».proof.Proof.KAttn
import proofs.«421973_j75917841924564_2_alg».proof.Proof.KMsg
import proofs.«421973_j75917841924564_2_alg».proof.Proof.KPost
import proofs.«421973_j75917841924564_2_alg».proof.Proof.RAttn
import proofs.«421973_j75917841924564_2_alg».proof.Proof.RMsg
import proofs.«421973_j75917841924564_2_alg».proof.Proof.RPost
import Idealize.ShloMosaic.Lib.StableHlo.Run
import Idealize.ShloMosaic.PureOps.Ideal

set_option maxRecDepth 16384

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD)

set_option quotPrecheck false
-- the fourteen argument arrays as launched
local notation "a0" => (m ((c.tc : Thread nD τ).loc main_arg0))
local notation "a1" => (m ((c.tc : Thread nD τ).loc main_arg1))
local notation "a2" => (m ((c.tc : Thread nD τ).loc main_arg2))
local notation "a3" => (m ((c.tc : Thread nD τ).loc main_arg3))
local notation "a4" => (m ((c.tc : Thread nD τ).loc main_arg4))
local notation "a5" => (m ((c.tc : Thread nD τ).loc main_arg5))
local notation "a6" => (m ((c.tc : Thread nD τ).loc main_arg6))
local notation "a7" => (m ((c.tc : Thread nD τ).loc main_arg7))
local notation "a8" => (m ((c.tc : Thread nD τ).loc main_arg8))
local notation "a9" => (m ((c.tc : Thread nD τ).loc main_arg9))
local notation "a10" => (m ((c.tc : Thread nD τ).loc main_arg10))
local notation "a11" => (m ((c.tc : Thread nD τ).loc main_arg11))
local notation "a12" => (m ((c.tc : Thread nD τ).loc main_arg12))
local notation "a13" => (m ((c.tc : Thread nD τ).loc main_arg13))

/-! ## What each host stretch writes, and that it keeps every other buffer -/

private abbrev hw1 : List (Ref sig .tc) := [main_v1, main_v2, main_v3, main_v4, main_c, main_v5, main_v6, main_v7, main_cst, main_v8, main_cst_0, main_v9, main_v10, main_v11, main_cst_1, main_v12, main_v13, main_v14, main_c_2, main_v15, main_v16, main_c_3, main_v17, main_v18, main_v19, main_v20, main_v21]
private theorem hw1_sub : (hostOps1 : List (HloOp τ sig (Elt Ideal))).Forall fun op => op.writes ⊆ (hw1.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep2 (r : Ref sig .tc) (h : r ∉ hw1) : W2 m ρ c (Proc.devRef .tc r) = W1 m ρ c (Proc.devRef .tc r) :=
  StableHlo.after_of_writes_sub hostOps1 _ hw1_sub h

private abbrev hw2 : List (Ref sig .tc) := [main_cst_4, main_v23, main_v24, main_v25]
private theorem hw2_sub : (hostOps2 : List (HloOp τ sig (Elt Ideal))).Forall fun op => op.writes ⊆ (hw2.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep4 (r : Ref sig .tc) (h : r ∉ hw2) : W4 m ρ c (Proc.devRef .tc r) = W3 m ρ c (Proc.devRef .tc r) :=
  StableHlo.after_of_writes_sub hostOps2 _ hw2_sub h

private abbrev hw3 : List (Ref sig .tc) := [main_c_5, main_v27, main_v28, main_c_6, main_v29, main_v30, main_v31, main_v32, main_v33]
private theorem hw3_sub : (hostOps3 : List (HloOp τ sig (Elt Ideal))).Forall fun op => op.writes ⊆ (hw3.map (Proc.devRef (τ := τ) .tc)).toFinset := by
  simp only [hostOps3, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep6 (r : Ref sig .tc) (h : r ∉ hw3) : W6 m ρ c (Proc.devRef .tc r) = W5 m ρ c (Proc.devRef .tc r) :=
  StableHlo.after_of_writes_sub hostOps3 _ hw3_sub h

private abbrev hw4 : List (Ref sig .tc) := [main_cst_7, main_v35, main_v36, main_v37]
private theorem hw4_sub : (hostOps4 : List (HloOp τ sig (Elt Ideal))).Forall fun op => op.writes ⊆ (hw4.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep8 (r : Ref sig .tc) (h : r ∉ hw4) : W8 m ρ c (Proc.devRef .tc r) = W7 m ρ c (Proc.devRef .tc r) :=
  StableHlo.after_of_writes_sub hostOps4 _ hw4_sub h

private abbrev hw5 : List (Ref sig .tc) := [main_c_8, main_v39, main_v40, main_c_9, main_v41, main_v42, main_v43, main_v44, main_v45]
private theorem hw5_sub : (hostOps5 : List (HloOp τ sig (Elt Ideal))).Forall fun op => op.writes ⊆ (hw5.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep10 (r : Ref sig .tc) (h : r ∉ hw5) : W10 m ρ c (Proc.devRef .tc r) = W9 m ρ c (Proc.devRef .tc r) :=
  StableHlo.after_of_writes_sub hostOps5 _ hw5_sub h

private abbrev hw6 : List (Ref sig .tc) := [main_cst_10, main_v47, main_v48, main_v49]
private theorem hw6_sub : (hostOps6 : List (HloOp τ sig (Elt Ideal))).Forall fun op => op.writes ⊆ (hw6.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep12 (r : Ref sig .tc) (h : r ∉ hw6) : W12 m ρ c (Proc.devRef .tc r) = W11 m ρ c (Proc.devRef .tc r) :=
  StableHlo.after_of_writes_sub hostOps6 _ hw6_sub h

private abbrev hw7 : List (Ref sig .tc) := [main_c_11, main_v51, main_v52, main_c_12, main_v53, main_v54, main_v55, main_v56, main_v57, main_c_13, main_v58, main_v59, main_c_14, main_v60, main_v61, main_v62, main_v63, main_v64, main_c_15, main_v65, main_v66, main_c_16, main_v67, main_v68, main_v69, main_v70, main_v71, main_v72, main_cst_17, main_v73, main_v74, main_cst_18, main_v75, main_v76]
private theorem hw7_sub : (hostOps7 : List (HloOp τ sig (Elt Ideal))).Forall fun op => op.writes ⊆ (hw7.map (Proc.devRef (τ := τ) .tc)).toFinset := by
  simp only [hostOps7, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep14 (r : Ref sig .tc) (h : r ∉ hw7) : W14 m ρ c (Proc.devRef .tc r) = W13 m ρ c (Proc.devRef .tc r) :=
  StableHlo.after_of_writes_sub hostOps7 _ hw7_sub h

private abbrev hw7_1 : List (Ref sig .tc) := [main_call0_v0, main_call0_call0_cst, main_call0_call0_v0, main_call0_call0_v1, main_call0_call0_v2, main_call0_call0_v3, main_call0_call0_v4, main_call0_call0_v5, main_call0_call0_v6, main_call0_call0_v7, main_call0_call0_v8, main_call0_call0_v9, main_call0_call0_v10, main_call0_call0_v11, main_call0_v1, main_v77]
private theorem hw7_1_sub : (hostOps7_1 : List (HloOp τ sig (Elt Ideal))).Forall fun op => op.writes ⊆ (hw7_1.map (Proc.devRef (τ := τ) .tc)).toFinset := by
  simp only [hostOps7_1, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep15 (r : Ref sig .tc) (h : r ∉ hw7_1) : W15 m ρ c (Proc.devRef .tc r) = W14 m ρ c (Proc.devRef .tc r) :=
  StableHlo.after_of_writes_sub hostOps7_1 _ hw7_1_sub h

private abbrev hw7_2 : List (Ref sig .tc) := [main_cst_19, main_v78, main_cst_20, main_v79, main_v80, main_v81, main_cst_21, main_v82, main_v83, main_cst_22, main_v84, main_v85, main_v86, main_cst_23, main_v87, main_v88, main_cst_24, main_v89, main_cst_25, main_v90, main_cst_26, main_v91, main_v92]
private theorem hw7_2_sub : (hostOps7_2 : List (HloOp τ sig (Elt Ideal))).Forall fun op => op.writes ⊆ (hw7_2.map (Proc.devRef (τ := τ) .tc)).toFinset := by
  simp only [hostOps7_2, List.Forall, StableHlo.nullary_writes, StableHlo.unary_writes, StableHlo.binary_writes, StableHlo.ternary_writes, StableHlo.reshape_writes, Finset.singleton_subset_iff, List.mem_toFinset]
  repeat' apply And.intro
  all_goals exact List.mem_map_of_mem (by decide)
private theorem keep16 (r : Ref sig .tc) (h : r ∉ hw7_2) : W16 m ρ c (Proc.devRef .tc r) = W15 m ρ c (Proc.devRef .tc r) :=
  StableHlo.after_of_writes_sub hostOps7_2 _ hw7_2_sub h

/-- One hop's summed messages, from the previous embedding. -/
private abbrev aggT (e : Cert.ReferenceIdeal.Terms.Arr Ideal Cert.ReferenceIdeal.S100000x64 .f32) (w : Cert.ReferenceIdeal.Terms.Arr Ideal Cert.ReferenceIdeal.S15x64 .f32) (et : Cert.ReferenceIdeal.Terms.Arr Ideal Cert.ReferenceIdeal.S2000000 .i32) (ei : Cert.ReferenceIdeal.Terms.Arr Ideal Cert.ReferenceIdeal.S2x2000000 .i32) : Cert.ReferenceIdeal.Terms.Arr Ideal Cert.ReferenceIdeal.S100000x64 .f32 :=
  Cert.ReferenceIdeal.Terms.sumToHead (mulf (Cert.ReferenceIdeal.Terms.gatherTail e ei) (Cert.ReferenceIdeal.Terms.rel w et)) ei

/-- The difference of the two row-wise inner products the ranking loss takes the log-sigmoid of. -/
private abbrev diffT (u p n : Cert.ReferenceIdeal.Terms.Arr Ideal Cert.ReferenceIdeal.S4096x64 .f32) : Cert.ReferenceIdeal.Terms.Arr Ideal Cert.ReferenceIdeal.S4096 .f32 :=
  subf (Cert.ReferenceIdeal.Terms.rowDot u p) (Cert.ReferenceIdeal.Terms.rowDot u n)

/-! ## Region 0: the item embedding -/

private theorem W1_v0 : W1 m ρ c (Proc.devRef .tc main_v0) = (Cert.ReferenceIdeal.Terms.item a2 a3 a4 a5 a6 a7 a8) :=
  ((W1_arr m ρ c 7).trans (attn_final (V0 m ρ) c)).trans (Cert.ReferenceIdeal.RefValue.item_eq _ _ _ _ _ _ _).symm

private theorem W1_arg0 : W1 m ρ c (Proc.devRef .tc main_arg0) = a0 :=
  ((W1_of_ne m ρ c main_arg0 (by decide))).trans rfl

private theorem W1_arg9 : W1 m ρ c (Proc.devRef .tc main_arg9) = a9 :=
  ((W1_of_ne m ρ c main_arg9 (by decide))).trans rfl

private theorem W1_arg10 : W1 m ρ c (Proc.devRef .tc main_arg10) = a10 :=
  ((W1_of_ne m ρ c main_arg10 (by decide))).trans rfl

/-! ## The first host stretch: heads, tails, zero-based types, the count column, the first gather -/

set_option maxHeartbeats 1000000 in
private theorem W2_v2  : W2 m ρ c (Proc.devRef .tc main_v2) = Cert.ReferenceIdeal.Terms.heads a9 := by
  show StableHlo.after hostOps1 (W1 m ρ c) (Proc.devRef .tc main_v2) = _
  after_results_simp
  rw [W1_arg9 m ρ c]
  rfl

set_option maxHeartbeats 1000000 in
private theorem W2_v4  : W2 m ρ c (Proc.devRef .tc main_v4) = Cert.ReferenceIdeal.Terms.tails a9 := by
  show StableHlo.after hostOps1 (W1 m ρ c) (Proc.devRef .tc main_v4) = _
  after_results_simp
  rw [W1_arg9 m ρ c]
  rfl

set_option maxHeartbeats 1000000 in
private theorem W2_v7  : W2 m ρ c (Proc.devRef .tc main_v7) = (fun i => shapeCast Cert.ReferenceIdeal.S2000000x1 (Cert.ReferenceIdeal.Terms.typeIdx a10) Cert.KernelIdeal.Gen.shapeCasts_S2000000_S2000000x1 i) := by
  show StableHlo.after hostOps1 (W1 m ρ c) (Proc.devRef .tc main_v7) = _
  after_results_simp
  rw [W1_arg10 m ρ c]
  rfl

private theorem W2_v14 : W2 m ρ c (Proc.devRef .tc main_v14) = Cert.ReferenceIdeal.Terms.countCol a9 := by
  have h : W2 m ρ c (Proc.devRef .tc main_v14) = (fun i => shapeCast Cert.ReferenceIdeal.S100000x1 (Cert.ReferenceIdeal.Terms.count a9) Cert.KernelIdeal.Gen.shapeCasts_S100000_S100000x1 i) := by
    show StableHlo.after hostOps1 (W1 m ρ c) (Proc.devRef .tc main_v14) = _
    after_results_simp
    rw [W1_arg9 m ρ c]
    rfl
  exact h.trans (Cert.ReferenceIdeal.RefValue.col_eq _ _)

set_option maxHeartbeats 1000000 in
private theorem W2_g  : W2 m ρ c (Proc.devRef .tc main_v21) = Cert.ReferenceIdeal.Terms.gatherTail a0 a9 := by
  show StableHlo.after hostOps1 (W1 m ρ c) (Proc.devRef .tc main_v21) = _
  after_results_simp
  rw [W1_arg0 m ρ c, W1_arg9 m ρ c]
  rfl

private theorem W2_arg1 : W2 m ρ c (Proc.devRef .tc main_arg1) = a1 :=
  ((keep2 m ρ c main_arg1 (by decide)).trans
    ((W1_of_ne m ρ c main_arg1 (by decide)))).trans rfl

/-! ## Hop 1: messages, their sum into the heads, the new embedding and residual -/

private theorem W3_msg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W3 m ρ c (Proc.devRef .tc main_v22) = (mulf (Cert.ReferenceIdeal.Terms.gatherTail a0 a9) (Cert.ReferenceIdeal.Terms.rel a1 a10) : FVec Ideal Cert.ReferenceIdeal.S2000000x64 .f32) := by
  refine ((W3_arr m ρ c 3).trans (msg_final1 (V2 m ρ) c)).trans ?_
  rw [show V2 m ρ c main_v21 = _ from W2_g m ρ c, show V2 m ρ c main_v7 = _ from W2_v7 m ρ c, show V2 m ρ c main_arg1 = _ from W2_arg1 m ρ c]
  exact Cert.ReferenceIdeal.RefValue.msgArr_eq _ _ _ _ hr

private theorem W3_v2  : W3 m ρ c (Proc.devRef .tc main_v2) = Cert.ReferenceIdeal.Terms.heads a9 :=
  ((W3_of_ne m ρ c main_v2 (by decide))).trans
    (W2_v2 m ρ c)

private theorem W4_agg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W4 m ρ c (Proc.devRef .tc main_v25) = aggT a0 a1 a10 a9 := by
  show StableHlo.after hostOps2 (W3 m ρ c) (Proc.devRef .tc main_v25) = _
  after_results
  rw [W3_v2 m ρ c, W3_msg m ρ c hr]
  rfl

private theorem W4_v14  : W4 m ρ c (Proc.devRef .tc main_v14) = Cert.ReferenceIdeal.Terms.countCol a9 :=
  ((keep4 m ρ c main_v14 (by decide)).trans
    ((W3_of_ne m ρ c main_v14 (by decide)))).trans
    (W2_v14 m ρ c)

private theorem W4_res : W4 m ρ c (Proc.devRef .tc main_arg0) = a0 :=
  ((keep4 m ρ c main_arg0 (by decide)).trans
    ((W3_of_ne m ρ c main_arg0 (by decide)).trans
    ((keep2 m ρ c main_arg0 (by decide)).trans
    ((W1_of_ne m ρ c main_arg0 (by decide)))))).trans rfl

private theorem W5_E (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W5 m ρ c (Proc.devRef .tc main_v26_0) = (Cert.ReferenceIdeal.Terms.hopE a0 a1 a10 a9) := by
  refine ((W5_arr m ρ c 3).trans (post_final2 (V4 m ρ) c).1).trans ?_
  rw [show V4 m ρ c main_v25 = _ from W4_agg m ρ c hr, show V4 m ρ c main_v14 = _ from W4_v14 m ρ c]
  exact (Cert.ReferenceIdeal.RefValue.postE_eq _ _).symm

private theorem W5_R (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W5 m ρ c (Proc.devRef .tc main_v26_1) = (Cert.ReferenceIdeal.Terms.postR (aggT a0 a1 a10 a9) (Cert.ReferenceIdeal.Terms.countCol a9) a0) := by
  refine ((W5_arr m ρ c 4).trans (post_final2 (V4 m ρ) c).2).trans ?_
  rw [show V4 m ρ c main_v25 = _ from W4_agg m ρ c hr, show V4 m ρ c main_v14 = _ from W4_v14 m ρ c, show V4 m ρ c main_arg0 = _ from W4_res m ρ c]
  exact (Cert.ReferenceIdeal.RefValue.postR_eq _ _ _).symm

private theorem W5_v4  : W5 m ρ c (Proc.devRef .tc main_v4) = Cert.ReferenceIdeal.Terms.tails a9 :=
  ((W5_of_ne m ρ c main_v4 (by decide)).trans
    ((keep4 m ρ c main_v4 (by decide)).trans
    ((W3_of_ne m ρ c main_v4 (by decide))))).trans
    (W2_v4 m ρ c)

private theorem W6_g (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W6 m ρ c (Proc.devRef .tc main_v33) = Cert.ReferenceIdeal.Terms.gatherTail (Cert.ReferenceIdeal.Terms.hopE a0 a1 a10 a9) a9 := by
  show StableHlo.after hostOps3 (W5 m ρ c) (Proc.devRef .tc main_v33) = _
  after_results
  rw [W5_v4 m ρ c, W5_E m ρ c hr]
  rfl

/-! ## Hop 2: messages, their sum into the heads, the new embedding and residual -/

private theorem W6_v7  : W6 m ρ c (Proc.devRef .tc main_v7) = (fun i => shapeCast Cert.ReferenceIdeal.S2000000x1 (Cert.ReferenceIdeal.Terms.typeIdx a10) Cert.KernelIdeal.Gen.shapeCasts_S2000000_S2000000x1 i) :=
  ((keep6 m ρ c main_v7 (by decide)).trans
    ((W5_of_ne m ρ c main_v7 (by decide)).trans
    ((keep4 m ρ c main_v7 (by decide)).trans
    (((W3_arr m ρ c 1).trans (((dat1 (V2 m ρ) c).arrAt_in 1 rfl _).trans (A_eq1 (V2 m ρ) c 1))))))).trans
    (W2_v7 m ρ c)

private theorem W6_arg1 : W6 m ρ c (Proc.devRef .tc main_arg1) = a1 :=
  ((keep6 m ρ c main_arg1 (by decide)).trans
    ((W5_of_ne m ρ c main_arg1 (by decide)).trans
    ((keep4 m ρ c main_arg1 (by decide)).trans
    (((W3_arr m ρ c 2).trans (((dat1 (V2 m ρ) c).arrAt_in 2 rfl _).trans (A_eq1 (V2 m ρ) c 2))).trans
    ((keep2 m ρ c main_arg1 (by decide)).trans
    ((W1_of_ne m ρ c main_arg1 (by decide)))))))).trans rfl

private theorem W7_msg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W7 m ρ c (Proc.devRef .tc main_v34) = (mulf (Cert.ReferenceIdeal.Terms.gatherTail (Cert.ReferenceIdeal.Terms.hopE a0 a1 a10 a9) a9) (Cert.ReferenceIdeal.Terms.rel a1 a10) : FVec Ideal Cert.ReferenceIdeal.S2000000x64 .f32) := by
  refine ((W7_arr m ρ c 3).trans (msg_final3 (V6 m ρ) c)).trans ?_
  rw [show V6 m ρ c main_v33 = _ from W6_g m ρ c hr, show V6 m ρ c main_v7 = _ from W6_v7 m ρ c, show V6 m ρ c main_arg1 = _ from W6_arg1 m ρ c]
  exact Cert.ReferenceIdeal.RefValue.msgArr_eq _ _ _ _ hr

private theorem W7_v2  : W7 m ρ c (Proc.devRef .tc main_v2) = Cert.ReferenceIdeal.Terms.heads a9 :=
  ((W7_of_ne m ρ c main_v2 (by decide)).trans
    ((keep6 m ρ c main_v2 (by decide)).trans
    ((W5_of_ne m ρ c main_v2 (by decide)).trans
    ((keep4 m ρ c main_v2 (by decide)))))).trans
    (W3_v2 m ρ c)

private theorem W8_agg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W8 m ρ c (Proc.devRef .tc main_v37) = aggT (Cert.ReferenceIdeal.Terms.hopE a0 a1 a10 a9) a1 a10 a9 := by
  show StableHlo.after hostOps4 (W7 m ρ c) (Proc.devRef .tc main_v37) = _
  after_results
  rw [W7_v2 m ρ c, W7_msg m ρ c hr]
  rfl

private theorem W8_v14  : W8 m ρ c (Proc.devRef .tc main_v14) = Cert.ReferenceIdeal.Terms.countCol a9 :=
  ((keep8 m ρ c main_v14 (by decide)).trans
    ((W7_of_ne m ρ c main_v14 (by decide)).trans
    ((keep6 m ρ c main_v14 (by decide)).trans
    (((W5_arr m ρ c 1).trans (((dat2 (V4 m ρ) c).arrAt_in 1 rfl _).trans (A_eq2 (V4 m ρ) c 1))))))).trans
    (W4_v14 m ρ c)

private theorem W8_res (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W8 m ρ c (Proc.devRef .tc main_v26_1) = (Cert.ReferenceIdeal.Terms.postR (aggT a0 a1 a10 a9) (Cert.ReferenceIdeal.Terms.countCol a9) a0) :=
  ((keep8 m ρ c main_v26_1 (by decide)).trans
    ((W7_of_ne m ρ c main_v26_1 (by decide)).trans
    ((keep6 m ρ c main_v26_1 (by decide))))).trans
    (W5_R m ρ c hr)

private theorem W9_E (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W9 m ρ c (Proc.devRef .tc main_v38_0) = (Cert.ReferenceIdeal.Terms.hopE (Cert.ReferenceIdeal.Terms.hopE a0 a1 a10 a9) a1 a10 a9) := by
  refine ((W9_arr m ρ c 3).trans (post_final4 (V8 m ρ) c).1).trans ?_
  rw [show V8 m ρ c main_v37 = _ from W8_agg m ρ c hr, show V8 m ρ c main_v14 = _ from W8_v14 m ρ c]
  exact (Cert.ReferenceIdeal.RefValue.postE_eq _ _).symm

private theorem W9_R (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W9 m ρ c (Proc.devRef .tc main_v38_1) = (Cert.ReferenceIdeal.Terms.postR (aggT (Cert.ReferenceIdeal.Terms.hopE a0 a1 a10 a9) a1 a10 a9) (Cert.ReferenceIdeal.Terms.countCol a9) (Cert.ReferenceIdeal.Terms.postR (aggT a0 a1 a10 a9) (Cert.ReferenceIdeal.Terms.countCol a9) a0)) := by
  refine ((W9_arr m ρ c 4).trans (post_final4 (V8 m ρ) c).2).trans ?_
  rw [show V8 m ρ c main_v37 = _ from W8_agg m ρ c hr, show V8 m ρ c main_v14 = _ from W8_v14 m ρ c, show V8 m ρ c main_v26_1 = _ from W8_res m ρ c hr]
  exact (Cert.ReferenceIdeal.RefValue.postR_eq _ _ _).symm

private theorem W9_v4  : W9 m ρ c (Proc.devRef .tc main_v4) = Cert.ReferenceIdeal.Terms.tails a9 :=
  ((W9_of_ne m ρ c main_v4 (by decide)).trans
    ((keep8 m ρ c main_v4 (by decide)).trans
    ((W7_of_ne m ρ c main_v4 (by decide)).trans
    ((keep6 m ρ c main_v4 (by decide)))))).trans
    (W5_v4 m ρ c)

private theorem W10_g (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W10 m ρ c (Proc.devRef .tc main_v45) = Cert.ReferenceIdeal.Terms.gatherTail (Cert.ReferenceIdeal.Terms.hopE (Cert.ReferenceIdeal.Terms.hopE a0 a1 a10 a9) a1 a10 a9) a9 := by
  show StableHlo.after hostOps5 (W9 m ρ c) (Proc.devRef .tc main_v45) = _
  after_results
  rw [W9_v4 m ρ c, W9_E m ρ c hr]
  rfl

/-! ## Hop 3: messages, their sum into the heads, the new embedding and residual -/

private theorem W10_v7  : W10 m ρ c (Proc.devRef .tc main_v7) = (fun i => shapeCast Cert.ReferenceIdeal.S2000000x1 (Cert.ReferenceIdeal.Terms.typeIdx a10) Cert.KernelIdeal.Gen.shapeCasts_S2000000_S2000000x1 i) :=
  ((keep10 m ρ c main_v7 (by decide)).trans
    ((W9_of_ne m ρ c main_v7 (by decide)).trans
    ((keep8 m ρ c main_v7 (by decide)).trans
    (((W7_arr m ρ c 1).trans (((dat3 (V6 m ρ) c).arrAt_in 1 rfl _).trans (A_eq3 (V6 m ρ) c 1))))))).trans
    (W6_v7 m ρ c)

private theorem W10_arg1 : W10 m ρ c (Proc.devRef .tc main_arg1) = a1 :=
  ((keep10 m ρ c main_arg1 (by decide)).trans
    ((W9_of_ne m ρ c main_arg1 (by decide)).trans
    ((keep8 m ρ c main_arg1 (by decide)).trans
    (((W7_arr m ρ c 2).trans (((dat3 (V6 m ρ) c).arrAt_in 2 rfl _).trans (A_eq3 (V6 m ρ) c 2))).trans
    ((keep6 m ρ c main_arg1 (by decide)).trans
    ((W5_of_ne m ρ c main_arg1 (by decide)).trans
    ((keep4 m ρ c main_arg1 (by decide)).trans
    (((W3_arr m ρ c 2).trans (((dat1 (V2 m ρ) c).arrAt_in 2 rfl _).trans (A_eq1 (V2 m ρ) c 2))).trans
    ((keep2 m ρ c main_arg1 (by decide)).trans
    ((W1_of_ne m ρ c main_arg1 (by decide)))))))))))).trans rfl

private theorem W11_msg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W11 m ρ c (Proc.devRef .tc main_v46) = (mulf (Cert.ReferenceIdeal.Terms.gatherTail (Cert.ReferenceIdeal.Terms.hopE (Cert.ReferenceIdeal.Terms.hopE a0 a1 a10 a9) a1 a10 a9) a9) (Cert.ReferenceIdeal.Terms.rel a1 a10) : FVec Ideal Cert.ReferenceIdeal.S2000000x64 .f32) := by
  refine ((W11_arr m ρ c 3).trans (msg_final5 (V10 m ρ) c)).trans ?_
  rw [show V10 m ρ c main_v45 = _ from W10_g m ρ c hr, show V10 m ρ c main_v7 = _ from W10_v7 m ρ c, show V10 m ρ c main_arg1 = _ from W10_arg1 m ρ c]
  exact Cert.ReferenceIdeal.RefValue.msgArr_eq _ _ _ _ hr

private theorem W11_v2  : W11 m ρ c (Proc.devRef .tc main_v2) = Cert.ReferenceIdeal.Terms.heads a9 :=
  ((W11_of_ne m ρ c main_v2 (by decide)).trans
    ((keep10 m ρ c main_v2 (by decide)).trans
    ((W9_of_ne m ρ c main_v2 (by decide)).trans
    ((keep8 m ρ c main_v2 (by decide)))))).trans
    (W7_v2 m ρ c)

private theorem W12_agg (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W12 m ρ c (Proc.devRef .tc main_v49) = aggT (Cert.ReferenceIdeal.Terms.hopE (Cert.ReferenceIdeal.Terms.hopE a0 a1 a10 a9) a1 a10 a9) a1 a10 a9 := by
  show StableHlo.after hostOps6 (W11 m ρ c) (Proc.devRef .tc main_v49) = _
  after_results
  rw [W11_v2 m ρ c, W11_msg m ρ c hr]
  rfl

private theorem W12_v14  : W12 m ρ c (Proc.devRef .tc main_v14) = Cert.ReferenceIdeal.Terms.countCol a9 :=
  ((keep12 m ρ c main_v14 (by decide)).trans
    ((W11_of_ne m ρ c main_v14 (by decide)).trans
    ((keep10 m ρ c main_v14 (by decide)).trans
    (((W9_arr m ρ c 1).trans (((dat4 (V8 m ρ) c).arrAt_in 1 rfl _).trans (A_eq4 (V8 m ρ) c 1))))))).trans
    (W8_v14 m ρ c)

private theorem W12_res (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W12 m ρ c (Proc.devRef .tc main_v38_1) = (Cert.ReferenceIdeal.Terms.postR (aggT (Cert.ReferenceIdeal.Terms.hopE a0 a1 a10 a9) a1 a10 a9) (Cert.ReferenceIdeal.Terms.countCol a9) (Cert.ReferenceIdeal.Terms.postR (aggT a0 a1 a10 a9) (Cert.ReferenceIdeal.Terms.countCol a9) a0)) :=
  ((keep12 m ρ c main_v38_1 (by decide)).trans
    ((W11_of_ne m ρ c main_v38_1 (by decide)).trans
    ((keep10 m ρ c main_v38_1 (by decide))))).trans
    (W9_R m ρ c hr)

private theorem W13_E (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W13 m ρ c (Proc.devRef .tc main_v50_0) = (Cert.ReferenceIdeal.Terms.hopE (Cert.ReferenceIdeal.Terms.hopE (Cert.ReferenceIdeal.Terms.hopE a0 a1 a10 a9) a1 a10 a9) a1 a10 a9) := by
  refine ((W13_arr m ρ c 3).trans (post_final6 (V12 m ρ) c).1).trans ?_
  rw [show V12 m ρ c main_v49 = _ from W12_agg m ρ c hr, show V12 m ρ c main_v14 = _ from W12_v14 m ρ c]
  exact (Cert.ReferenceIdeal.RefValue.postE_eq _ _).symm

private theorem W13_R (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W13 m ρ c (Proc.devRef .tc main_v50_1) = (Cert.ReferenceIdeal.Terms.postR (aggT (Cert.ReferenceIdeal.Terms.hopE (Cert.ReferenceIdeal.Terms.hopE a0 a1 a10 a9) a1 a10 a9) a1 a10 a9) (Cert.ReferenceIdeal.Terms.countCol a9) (Cert.ReferenceIdeal.Terms.postR (aggT (Cert.ReferenceIdeal.Terms.hopE a0 a1 a10 a9) a1 a10 a9) (Cert.ReferenceIdeal.Terms.countCol a9) (Cert.ReferenceIdeal.Terms.postR (aggT a0 a1 a10 a9) (Cert.ReferenceIdeal.Terms.countCol a9) a0))) := by
  refine ((W13_arr m ρ c 4).trans (post_final6 (V12 m ρ) c).2).trans ?_
  rw [show V12 m ρ c main_v49 = _ from W12_agg m ρ c hr, show V12 m ρ c main_v14 = _ from W12_v14 m ρ c, show V12 m ρ c main_v38_1 = _ from W12_res m ρ c hr]
  exact (Cert.ReferenceIdeal.RefValue.postR_eq _ _ _).symm

/-! ## The batch rows and the losses -/

private theorem W13_res3 (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W13 m ρ c (Proc.devRef .tc main_v50_1) = (Cert.ReferenceIdeal.Terms.res3 a0 a1 a10 a9) :=
  (W13_R m ρ c hr).trans rfl

private theorem W13_v0  : W13 m ρ c (Proc.devRef .tc main_v0) = (Cert.ReferenceIdeal.Terms.item a2 a3 a4 a5 a6 a7 a8) :=
  ((W13_of_ne m ρ c main_v0 (by decide)).trans
    ((keep12 m ρ c main_v0 (by decide)).trans
    ((W11_of_ne m ρ c main_v0 (by decide)).trans
    ((keep10 m ρ c main_v0 (by decide)).trans
    ((W9_of_ne m ρ c main_v0 (by decide)).trans
    ((keep8 m ρ c main_v0 (by decide)).trans
    ((W7_of_ne m ρ c main_v0 (by decide)).trans
    ((keep6 m ρ c main_v0 (by decide)).trans
    ((W5_of_ne m ρ c main_v0 (by decide)).trans
    ((keep4 m ρ c main_v0 (by decide)).trans
    ((W3_of_ne m ρ c main_v0 (by decide)).trans
    ((keep2 m ρ c main_v0 (by decide)))))))))))))).trans
    (W1_v0 m ρ c)

private theorem W13_arg11 : W13 m ρ c (Proc.devRef .tc main_arg11) = a11 :=
  ((W13_of_ne m ρ c main_arg11 (by decide)).trans
    ((keep12 m ρ c main_arg11 (by decide)).trans
    ((W11_of_ne m ρ c main_arg11 (by decide)).trans
    ((keep10 m ρ c main_arg11 (by decide)).trans
    ((W9_of_ne m ρ c main_arg11 (by decide)).trans
    ((keep8 m ρ c main_arg11 (by decide)).trans
    ((W7_of_ne m ρ c main_arg11 (by decide)).trans
    ((keep6 m ρ c main_arg11 (by decide)).trans
    ((W5_of_ne m ρ c main_arg11 (by decide)).trans
    ((keep4 m ρ c main_arg11 (by decide)).trans
    ((W3_of_ne m ρ c main_arg11 (by decide)).trans
    ((keep2 m ρ c main_arg11 (by decide)).trans
    ((W1_of_ne m ρ c main_arg11 (by decide))))))))))))))).trans rfl

private theorem W13_arg12 : W13 m ρ c (Proc.devRef .tc main_arg12) = a12 :=
  ((W13_of_ne m ρ c main_arg12 (by decide)).trans
    ((keep12 m ρ c main_arg12 (by decide)).trans
    ((W11_of_ne m ρ c main_arg12 (by decide)).trans
    ((keep10 m ρ c main_arg12 (by decide)).trans
    ((W9_of_ne m ρ c main_arg12 (by decide)).trans
    ((keep8 m ρ c main_arg12 (by decide)).trans
    ((W7_of_ne m ρ c main_arg12 (by decide)).trans
    ((keep6 m ρ c main_arg12 (by decide)).trans
    ((W5_of_ne m ρ c main_arg12 (by decide)).trans
    ((keep4 m ρ c main_arg12 (by decide)).trans
    ((W3_of_ne m ρ c main_arg12 (by decide)).trans
    ((keep2 m ρ c main_arg12 (by decide)).trans
    ((W1_of_ne m ρ c main_arg12 (by decide))))))))))))))).trans rfl

private theorem W13_arg13 : W13 m ρ c (Proc.devRef .tc main_arg13) = a13 :=
  ((W13_of_ne m ρ c main_arg13 (by decide)).trans
    ((keep12 m ρ c main_arg13 (by decide)).trans
    ((W11_of_ne m ρ c main_arg13 (by decide)).trans
    ((keep10 m ρ c main_arg13 (by decide)).trans
    ((W9_of_ne m ρ c main_arg13 (by decide)).trans
    ((keep8 m ρ c main_arg13 (by decide)).trans
    ((W7_of_ne m ρ c main_arg13 (by decide)).trans
    ((keep6 m ρ c main_arg13 (by decide)).trans
    ((W5_of_ne m ρ c main_arg13 (by decide)).trans
    ((keep4 m ρ c main_arg13 (by decide)).trans
    ((W3_of_ne m ρ c main_arg13 (by decide)).trans
    ((keep2 m ρ c main_arg13 (by decide)).trans
    ((W1_of_ne m ρ c main_arg13 (by decide))))))))))))))).trans rfl

set_option maxHeartbeats 1000000 in
private theorem W14_v57 (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W14 m ρ c (Proc.devRef .tc main_v57) = (Cert.ReferenceIdeal.Terms.userRows (Cert.ReferenceIdeal.Terms.res3 a0 a1 a10 a9) a11) := by
  show StableHlo.after hostOps7 (W13 m ρ c) (Proc.devRef .tc main_v57) = _
  after_results_simp
  rw [W13_arg11 m ρ c, W13_res3 m ρ c hr]
  rfl

set_option maxHeartbeats 1000000 in
private theorem W14_v64  : W14 m ρ c (Proc.devRef .tc main_v64) = (Cert.ReferenceIdeal.Terms.itemRows (Cert.ReferenceIdeal.Terms.item a2 a3 a4 a5 a6 a7 a8) a12) := by
  show StableHlo.after hostOps7 (W13 m ρ c) (Proc.devRef .tc main_v64) = _
  after_results_simp
  rw [W13_arg12 m ρ c, W13_v0 m ρ c]
  rfl

set_option maxHeartbeats 1000000 in
private theorem W14_v71  : W14 m ρ c (Proc.devRef .tc main_v71) = (Cert.ReferenceIdeal.Terms.itemRows (Cert.ReferenceIdeal.Terms.item a2 a3 a4 a5 a6 a7 a8) a13) := by
  show StableHlo.after hostOps7 (W13 m ρ c) (Proc.devRef .tc main_v71) = _
  after_results_simp
  rw [W13_arg13 m ρ c, W13_v0 m ρ c]
  rfl

set_option maxHeartbeats 1000000 in
private theorem W14_v76 (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W14 m ρ c (Proc.devRef .tc main_v76) = diffT (Cert.ReferenceIdeal.Terms.userRows (Cert.ReferenceIdeal.Terms.res3 a0 a1 a10 a9) a11) (Cert.ReferenceIdeal.Terms.itemRows (Cert.ReferenceIdeal.Terms.item a2 a3 a4 a5 a6 a7 a8) a12) (Cert.ReferenceIdeal.Terms.itemRows (Cert.ReferenceIdeal.Terms.item a2 a3 a4 a5 a6 a7 a8) a13) := by
  show StableHlo.after hostOps7 (W13 m ρ c) (Proc.devRef .tc main_v76) = _
  after_results_simp
  rw [W13_arg11 m ρ c, W13_arg12 m ρ c, W13_arg13 m ρ c, W13_res3 m ρ c hr, W13_v0 m ρ c]
  rfl

set_option maxHeartbeats 1000000 in
private theorem W15_v77 (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W15 m ρ c (Proc.devRef .tc main_v77) = Cert.ReferenceIdeal.Terms.logSigmoid (diffT (Cert.ReferenceIdeal.Terms.userRows (Cert.ReferenceIdeal.Terms.res3 a0 a1 a10 a9) a11) (Cert.ReferenceIdeal.Terms.itemRows (Cert.ReferenceIdeal.Terms.item a2 a3 a4 a5 a6 a7 a8) a12) (Cert.ReferenceIdeal.Terms.itemRows (Cert.ReferenceIdeal.Terms.item a2 a3 a4 a5 a6 a7 a8) a13)) := by
  have key : ∀ (V : Valuation τ sig (Elt Ideal)) (x : Cert.ReferenceIdeal.Terms.Arr Ideal Cert.ReferenceIdeal.S4096 .f32), V (Proc.devRef .tc main_v76) = x →
      StableHlo.after hostOps7_1 V (Proc.devRef .tc main_v77) = Cert.ReferenceIdeal.Terms.logSigmoid x := by
    intro V x hV
    after_results_simp
    rw [hV]
    rfl
  exact key (W14 m ρ c) _ (W14_v76 m ρ c hr)

private theorem W15_v57 (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) : W15 m ρ c (Proc.devRef .tc main_v57) = (Cert.ReferenceIdeal.Terms.userRows (Cert.ReferenceIdeal.Terms.res3 a0 a1 a10 a9) a11) :=
  ((keep15 m ρ c main_v57 (by decide))).trans
    (W14_v57 m ρ c hr)

private theorem W15_v64  : W15 m ρ c (Proc.devRef .tc main_v64) = (Cert.ReferenceIdeal.Terms.itemRows (Cert.ReferenceIdeal.Terms.item a2 a3 a4 a5 a6 a7 a8) a12) :=
  ((keep15 m ρ c main_v64 (by decide))).trans
    (W14_v64 m ρ c)

private theorem W15_v71  : W15 m ρ c (Proc.devRef .tc main_v71) = (Cert.ReferenceIdeal.Terms.itemRows (Cert.ReferenceIdeal.Terms.item a2 a3 a4 a5 a6 a7 a8) a13) :=
  ((keep15 m ρ c main_v71 (by decide))).trans
    (W14_v71 m ρ c)

/-! ## The three results -/

/-- The total loss the kernel program leaves. -/
theorem W16_total (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) :
    W16 (F := Ideal) m ρ c (Proc.devRef .tc main_v92) = Cert.ReferenceIdeal.Terms.outTotal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have key : ∀ (V : Valuation τ sig (Elt Ideal)) (u p n : Cert.ReferenceIdeal.Terms.Arr Ideal Cert.ReferenceIdeal.S4096x64 .f32), V (Proc.devRef .tc main_v77) = Cert.ReferenceIdeal.Terms.logSigmoid (diffT u p n) →
      V (Proc.devRef .tc main_v57) = u → V (Proc.devRef .tc main_v64) = p → V (Proc.devRef .tc main_v71) = n →
      StableHlo.after hostOps7_2 V (Proc.devRef .tc main_v92) = Cert.ReferenceIdeal.Terms.totalLoss u p n := by
    intro V u p n h77 h57 h64 h71
    after_results_simp
    rw [h77, h57, h64, h71]
    rfl
  exact key (W15 m ρ c) (Cert.ReferenceIdeal.Terms.userRows (Cert.ReferenceIdeal.Terms.res3 a0 a1 a10 a9) a11) (Cert.ReferenceIdeal.Terms.itemRows (Cert.ReferenceIdeal.Terms.item a2 a3 a4 a5 a6 a7 a8) a12) (Cert.ReferenceIdeal.Terms.itemRows (Cert.ReferenceIdeal.Terms.item a2 a3 a4 a5 a6 a7 a8) a13) (W15_v77 m ρ c hr) (W15_v57 m ρ c hr) (W15_v64 m ρ c) (W15_v71 m ρ c)

/-- The ranking loss the kernel program leaves. -/
theorem W16_mf (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) :
    W16 (F := Ideal) m ρ c (Proc.devRef .tc main_v80) = Cert.ReferenceIdeal.Terms.outMf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have key : ∀ (V : Valuation τ sig (Elt Ideal)) (u p n : Cert.ReferenceIdeal.Terms.Arr Ideal Cert.ReferenceIdeal.S4096x64 .f32), V (Proc.devRef .tc main_v77) = Cert.ReferenceIdeal.Terms.logSigmoid (diffT u p n) →
      V (Proc.devRef .tc main_v57) = u → V (Proc.devRef .tc main_v64) = p → V (Proc.devRef .tc main_v71) = n →
      StableHlo.after hostOps7_2 V (Proc.devRef .tc main_v80) = Cert.ReferenceIdeal.Terms.mfLoss u p n := by
    intro V u p n h77 h57 h64 h71
    after_results_simp
    rw [h77]
    rfl
  exact key (W15 m ρ c) (Cert.ReferenceIdeal.Terms.userRows (Cert.ReferenceIdeal.Terms.res3 a0 a1 a10 a9) a11) (Cert.ReferenceIdeal.Terms.itemRows (Cert.ReferenceIdeal.Terms.item a2 a3 a4 a5 a6 a7 a8) a12) (Cert.ReferenceIdeal.Terms.itemRows (Cert.ReferenceIdeal.Terms.item a2 a3 a4 a5 a6 a7 a8) a13) (W15_v77 m ρ c hr) (W15_v57 m ρ c hr) (W15_v64 m ρ c) (W15_v71 m ρ c)

/-- The embedding penalty the kernel program leaves. -/
theorem W16_emb (hr : ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true) :
    W16 (F := Ideal) m ρ c (Proc.devRef .tc main_v91) = Cert.ReferenceIdeal.Terms.outEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) := by
  have key : ∀ (V : Valuation τ sig (Elt Ideal)) (u p n : Cert.ReferenceIdeal.Terms.Arr Ideal Cert.ReferenceIdeal.S4096x64 .f32), V (Proc.devRef .tc main_v77) = Cert.ReferenceIdeal.Terms.logSigmoid (diffT u p n) →
      V (Proc.devRef .tc main_v57) = u → V (Proc.devRef .tc main_v64) = p → V (Proc.devRef .tc main_v71) = n →
      StableHlo.after hostOps7_2 V (Proc.devRef .tc main_v91) = Cert.ReferenceIdeal.Terms.embLoss u p n := by
    intro V u p n h77 h57 h64 h71
    after_results_simp
    rw [h57, h64, h71]
    rfl
  exact key (W15 m ρ c) (Cert.ReferenceIdeal.Terms.userRows (Cert.ReferenceIdeal.Terms.res3 a0 a1 a10 a9) a11) (Cert.ReferenceIdeal.Terms.itemRows (Cert.ReferenceIdeal.Terms.item a2 a3 a4 a5 a6 a7 a8) a12) (Cert.ReferenceIdeal.Terms.itemRows (Cert.ReferenceIdeal.Terms.item a2 a3 a4 a5 a6 a7 a8) a13) (W15_v77 m ρ c hr) (W15_v57 m ρ c hr) (W15_v64 m ρ c) (W15_v71 m ρ c)

end Cert.KernelIdeal.Value

end
-- ==== Proof.RefOps.lean ====
/- GENERATED by  python3 scratch/gen_refops.py proof/ReferenceIdeal.lean 421973_j75917841924564_2_alg proof/Proof/RefOps.lean  (run in the unit directory): the reference
   program's @main transcribed statement by statement into operation lists, one per printed window, each call's body
   written out at its call site over the call's own buffers. -/
import proofs.«421973_j75917841924564_2_alg».proof.Proof.Gen.ReferenceIdeal
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The 64 operations of window main_part0, in order. -/
abbrev ops_p0 : List (HloOp τ sig (Elt F)) :=
  [ StableHlo.binary main_arg2 main_arg4 main_v0 ((fun l r => Host.dotGeneral dot_S30000x2048_S2048x64_S30000x64_1_0_0_1_n_n none l r) : (⟨S30000x2048, .f32⟩ : BufTy).Contents (Elt F) → (⟨S2048x64, .f32⟩ : BufTy).Contents (Elt F) → (⟨S30000x64, .f32⟩ : BufTy).Contents (Elt F)),
    StableHlo.unary main_arg5 main_v1 (broadcastInDim S1x64 ![1] bcast_S64_S1x64_1 : (⟨S64, .f32⟩ : BufTy).Contents (Elt F) → (⟨S1x64, .f32⟩ : BufTy).Contents (Elt F)),
    StableHlo.unary main_v1 main_v2 (broadcastInDim S30000x64 ![0, 1] bcast_S1x64_S30000x64_0_1 : (⟨S1x64, .f32⟩ : BufTy).Contents (Elt F) → (⟨S30000x64, .f32⟩ : BufTy).Contents (Elt F)),
    StableHlo.binary main_v0 main_v2 main_v3 (addf : (⟨S30000x64, .f32⟩ : BufTy).Contents (Elt F) → (⟨S30000x64, .f32⟩ : BufTy).Contents (Elt F) → (⟨S30000x64, .f32⟩ : BufTy).Contents (Elt F)),
    StableHlo.binary main_arg3 main_arg6 main_v4 ((fun l r => Host.dotGeneral dot_S30000x768_S768x64_S30000x64_1_0_0_1_n_n none l r) : (⟨S30000x768, .f32⟩ : BufTy).Contents (Elt F) → (⟨S768x64, .f32⟩ : BufTy).Contents (Elt F) → (⟨S30000x64, .f32⟩ : BufTy).Contents (Elt F)),
    StableHlo.unary main_arg7 main_v5 (broadcastInDim S1x64 ![1] bcast_S64_S1x64_1 : (⟨S64, .f32⟩ : BufTy).Contents (Elt F) → (⟨S1x64, .f32⟩ : BufTy).Contents (Elt F)),
    StableHlo.unary main_v5 main_v6 (broadcastInDim S30000x64 ![0, 1] bcast_S1x64_S30000x64_0_1 : (⟨S1x64, .f32⟩ : BufTy).Contents (Elt F) → (⟨S30000x64, .f32⟩ : BufTy).Contents (Elt F)),
    StableHlo.binary main_v4 main_v6 main_v7 (addf : (⟨S30000x64, .f32⟩ : BufTy).Contents (Elt F) → (⟨S30000x64, .f32⟩ : BufTy).Contents (Elt F) → (⟨S30000x64, .f32⟩ : BufTy).Contents (Elt F)),
    StableHlo.binary main_v3 main_arg8 main_v8 ((fun l r => Host.dotGeneral dot_S30000x64_S64x1_S30000x1_1_0_0_1_n_n none l r) : (⟨S30000x64, .f32⟩ : BufTy).Contents (Elt F) → (⟨S64x1, .f32⟩ : BufTy).Contents (Elt F) → (⟨S30000x1, .f32⟩ : BufTy).Contents (Elt F)),
    StableHlo.TRef.nullary main_call0.cst (constant S_ .f32 0x00000000#32),
    StableHlo.TRef.unary main_call0.cst main_call0.v0 (broadcastInDim S30000x1 ![] bcast_S_S30000x1),
    StableHlo.TRef.binary (.of main_v8 : StableHlo.TRef sig ⟨S30000x1, .f32⟩) main_call0.v0 main_call0.v1 maximumf,
    StableHlo.binary main_v7 main_arg8 main_v10 ((fun l r => Host.dotGeneral dot_S30000x64_S64x1_S30000x1_1_0_0_1_n_n none l r) : (⟨S30000x64, .f32⟩ : BufTy).Contents (Elt F) → (⟨S64x1, .f32⟩ : BufTy).Contents (Elt F) → (⟨S30000x1, .f32⟩ : BufTy).Contents (Elt F)),
    StableHlo.TRef.nullary main_call1.cst (constant S_ .f32 0x00000000#32),
    StableHlo.TRef.unary main_call1.cst main_call1.v0 (broadcastInDim S30000x1 ![] bcast_S_S30000x1),
    StableHlo.TRef.binary (.of main_v10 : StableHlo.TRef sig ⟨S30000x1, .f32⟩) main_call1.v0 main_call1.v1 maximumf,
    StableHlo.binary main_v9 main_v11 main_v12 ((fun a b => concatenate S30000x2 1 [⟨S30000x1, a⟩, ⟨S30000x1, b⟩] concatenates_S30000x1_S30000x1_S30000x2_d1) : (⟨S30000x1, .f32⟩ : BufTy).Contents (Elt F) → (⟨S30000x1, .f32⟩ : BufTy).Contents (Elt F) → (⟨S30000x2, .f32⟩ : BufTy).Contents (Elt F)),
    StableHlo.unary main_v12 main_v13 (Host.exp : (⟨S30000x2, .f32⟩ : BufTy).Contents (Elt F) → (⟨S30000x2, .f32⟩ : BufTy).Contents (Elt F)),
    StableHlo.nullary main_cst (constant S_ .f32 0x00000000#32),
    StableHlo.binary main_v13 main_cst main_v14 ((fun x v => Host.reduceAdd x v reducesTo_S30000x2_S30000_d1 h_S_) : (⟨S30000x2, .f32⟩ : BufTy).Contents (Elt F) → (⟨S_, .f32⟩ : BufTy).Contents (Elt F) → (⟨S30000, .f32⟩ : BufTy).Contents (Elt F)),
    StableHlo.unary main_v14 main_v15 (broadcastInDim S30000x1 ![0] bcast_S30000_S30000x1_0 : (⟨S30000, .f32⟩ : BufTy).Contents (Elt F) → (⟨S30000x1, .f32⟩ : BufTy).Contents (Elt F)),
    StableHlo.unary main_v15 main_v16 (broadcastInDim S30000x2 ![0, 1] bcast_S30000x1_S30000x2_0_1 : (⟨S30000x1, .f32⟩ : BufTy).Contents (Elt F) → (⟨S30000x2, .f32⟩ : BufTy).Contents (Elt F)),
    StableHlo.binary main_v13 main_v16 main_v17 (Host.divf : (⟨S30000x2, .f32⟩ : BufTy).Contents (Elt F) → (⟨S30000x2, .f32⟩ : BufTy).Contents (Elt F) → (⟨S30000x2, .f32⟩ : BufTy).Contents (Elt F)),
    StableHlo.unary main_v17 main_v18 ((extractStridedSlice S30000x1 ![0, 0] · slices_S30000x2_S30000x1_0_0) : (⟨S30000x2, .f32⟩ : BufTy).Contents (Elt F) → (⟨S30000x1, .f32⟩ : BufTy).Contents (Elt F)),
    StableHlo.unary main_v18 main_v19 (broadcastInDim S30000x64 ![0, 1] bcast_S30000x1_S30000x64_0_1 : (⟨S30000x1, .f32⟩ : BufTy).Contents (Elt F) → (⟨S30000x64, .f32⟩ : BufTy).Contents (Elt F)),
    StableHlo.binary main_v19 main_v3 main_v20 (mulf : (⟨S30000x64, .f32⟩ : BufTy).Contents (Elt F) → (⟨S30000x64, .f32⟩ : BufTy).Contents (Elt F) → (⟨S30000x64, .f32⟩ : BufTy).Contents (Elt F)),
    StableHlo.unary main_v17 main_v21 ((extractStridedSlice S30000x1 ![0, 1] · slices_S30000x2_S30000x1_0_1) : (⟨S30000x2, .f32⟩ : BufTy).Contents (Elt F) → (⟨S30000x1, .f32⟩ : BufTy).Contents (Elt F)),
    StableHlo.unary main_v21 main_v22 (broadcastInDim S30000x64 ![0, 1] bcast_S30000x1_S30000x64_0_1 : (⟨S30000x1, .f32⟩ : BufTy).Contents (Elt F) → (⟨S30000x64, .f32⟩ : BufTy).Contents (Elt F)),
    StableHlo.binary main_v22 main_v7 main_v23 (mulf : (⟨S30000x64, .f32⟩ : BufTy).Contents (Elt F) → (⟨S30000x64, .f32⟩ : BufTy).Contents (Elt F) → (⟨S30000x64, .f32⟩ : BufTy).Contents (Elt F)),
    StableHlo.binary main_v20 main_v23 main_v24 (addf : (⟨S30000x64, .f32⟩ : BufTy).Contents (Elt F) → (⟨S30000x64, .f32⟩ : BufTy).Contents (Elt F) → (⟨S30000x64, .f32⟩ : BufTy).Contents (Elt F)),
    StableHlo.unary main_arg9 main_v25 ((extractStridedSlice S1x2000000 ![0, 0] · slices_S2x2000000_S1x2000000_0_0) : (⟨S2x2000000, .i32⟩ : BufTy).Contents (Elt F) → (⟨S1x2000000, .i32⟩ : BufTy).Contents (Elt F)),
    StableHlo.reshape main_v25 main_v26 rfl shapeCasts_S1x2000000_S2000000,
    StableHlo.unary main_arg9 main_v27 ((extractStridedSlice S1x2000000 ![1, 0] · slices_S2x2000000_S1x2000000_1_0) : (⟨S2x2000000, .i32⟩ : BufTy).Contents (Elt F) → (⟨S1x2000000, .i32⟩ : BufTy).Contents (Elt F)),
    StableHlo.reshape main_v27 main_v28 rfl shapeCasts_S1x2000000_S2000000,
    StableHlo.nullary main_c (constantI S_ 32 1#32),
    StableHlo.unary main_c main_v29 (broadcastInDim S2000000 ![] bcast_S_S2000000 : (⟨S_, .i32⟩ : BufTy).Contents (Elt F) → (⟨S2000000, .i32⟩ : BufTy).Contents (Elt F)),
    StableHlo.binary main_arg10 main_v29 main_v30 (subi : (⟨S2000000, .i32⟩ : BufTy).Contents (Elt F) → (⟨S2000000, .i32⟩ : BufTy).Contents (Elt F) → (⟨S2000000, .i32⟩ : BufTy).Contents (Elt F)),
    StableHlo.nullary main_c_0 (constantI S_ 32 0#32),
    StableHlo.unary main_c_0 main_v31 (broadcastInDim S2000000 ![] bcast_S_S2000000 : (⟨S_, .i32⟩ : BufTy).Contents (Elt F) → (⟨S2000000, .i32⟩ : BufTy).Contents (Elt F)),
    StableHlo.binary main_v30 main_v31 main_v32 (cmpi .slt : (⟨S2000000, .i32⟩ : BufTy).Contents (Elt F) → (⟨S2000000, .i32⟩ : BufTy).Contents (Elt F) → (⟨S2000000, .i1⟩ : BufTy).Contents (Elt F)),
    StableHlo.nullary main_c_1 (constantI S_ 32 15#32),
    StableHlo.unary main_c_1 main_v33 (broadcastInDim S2000000 ![] bcast_S_S2000000 : (⟨S_, .i32⟩ : BufTy).Contents (Elt F) → (⟨S2000000, .i32⟩ : BufTy).Contents (Elt F)),
    StableHlo.binary main_v30 main_v33 main_v34 (addi : (⟨S2000000, .i32⟩ : BufTy).Contents (Elt F) → (⟨S2000000, .i32⟩ : BufTy).Contents (Elt F) → (⟨S2000000, .i32⟩ : BufTy).Contents (Elt F)),
    StableHlo.ternary main_v32 main_v34 main_v30 main_v35 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v35 main_v36 (broadcastInDim S2000000x1 ![0] bcast_S2000000_S2000000x1_0 : (⟨S2000000, .i32⟩ : BufTy).Contents (Elt F) → (⟨S2000000x1, .i32⟩ : BufTy).Contents (Elt F)),
    StableHlo.binary main_arg1 main_v36 main_v37 ((fun x i => Host.gather gather_S15x64_S2000000x1_S2000000x64_1_0_n_n_0_1_164 x i) : (⟨S15x64, .f32⟩ : BufTy).Contents (Elt F) → (⟨S2000000x1, .i32⟩ : BufTy).Contents (Elt F) → (⟨S2000000x64, .f32⟩ : BufTy).Contents (Elt F)),
    StableHlo.nullary main_cst_2 (constant S_ .f32 0x3F800000#32),
    StableHlo.unary main_cst_2 main_v38 (broadcastInDim S2000000 ![] bcast_S_S2000000 : (⟨S_, .f32⟩ : BufTy).Contents (Elt F) → (⟨S2000000, .f32⟩ : BufTy).Contents (Elt F)),
    StableHlo.nullary main_cst_3 (constant S_ .f32 0x00000000#32),
    StableHlo.unary main_cst_3 main_v39 (broadcastInDim S100000 ![] bcast_S_S100000 : (⟨S_, .f32⟩ : BufTy).Contents (Elt F) → (⟨S100000, .f32⟩ : BufTy).Contents (Elt F)),
    StableHlo.unary main_v26 main_v40 (broadcastInDim S2000000x1 ![0] bcast_S2000000_S2000000x1_0 : (⟨S2000000, .i32⟩ : BufTy).Contents (Elt F) → (⟨S2000000x1, .i32⟩ : BufTy).Contents (Elt F)),
    StableHlo.ternary main_v39 main_v40 main_v38 main_v41 ((fun x i u => Host.scatterAdd scatter_S100000_S2000000x1_S2000000_n_0_0_1 x i u) : (⟨S100000, .f32⟩ : BufTy).Contents (Elt F) → (⟨S2000000x1, .i32⟩ : BufTy).Contents (Elt F) → (⟨S2000000, .f32⟩ : BufTy).Contents (Elt F) → (⟨S100000, .f32⟩ : BufTy).Contents (Elt F)),
    StableHlo.nullary main_cst_4 (constant S_ .f32 0x3F800000#32),
    StableHlo.unary main_cst_4 main_v42 (broadcastInDim S100000 ![] bcast_S_S100000 : (⟨S_, .f32⟩ : BufTy).Contents (Elt F) → (⟨S100000, .f32⟩ : BufTy).Contents (Elt F)),
    StableHlo.binary main_v41 main_v42 main_v43 (maximumf : (⟨S100000, .f32⟩ : BufTy).Contents (Elt F) → (⟨S100000, .f32⟩ : BufTy).Contents (Elt F) → (⟨S100000, .f32⟩ : BufTy).Contents (Elt F)),
    StableHlo.unary main_v43 main_v44 (broadcastInDim S100000x1 ![0] bcast_S100000_S100000x1_0 : (⟨S100000, .f32⟩ : BufTy).Contents (Elt F) → (⟨S100000x1, .f32⟩ : BufTy).Contents (Elt F)),
    StableHlo.nullary main_c_5 (constantI S_ 32 0#32),
    StableHlo.unary main_c_5 main_v45 (broadcastInDim S2000000 ![] bcast_S_S2000000 : (⟨S_, .i32⟩ : BufTy).Contents (Elt F) → (⟨S2000000, .i32⟩ : BufTy).Contents (Elt F)),
    StableHlo.binary main_v28 main_v45 main_v46 (cmpi .slt : (⟨S2000000, .i32⟩ : BufTy).Contents (Elt F) → (⟨S2000000, .i32⟩ : BufTy).Contents (Elt F) → (⟨S2000000, .i1⟩ : BufTy).Contents (Elt F)),
    StableHlo.nullary main_c_6 (constantI S_ 32 100000#32),
    StableHlo.unary main_c_6 main_v47 (broadcastInDim S2000000 ![] bcast_S_S2000000 : (⟨S_, .i32⟩ : BufTy).Contents (Elt F) → (⟨S2000000, .i32⟩ : BufTy).Contents (Elt F)),
    StableHlo.binary main_v28 main_v47 main_v48 (addi : (⟨S2000000, .i32⟩ : BufTy).Contents (Elt F) → (⟨S2000000, .i32⟩ : BufTy).Contents (Elt F) → (⟨S2000000, .i32⟩ : BufTy).Contents (Elt F)),
    StableHlo.ternary main_v46 main_v48 main_v28 main_v49 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v49 main_v50 (broadcastInDim S2000000x1 ![0] bcast_S2000000_S2000000x1_0 : (⟨S2000000, .i32⟩ : BufTy).Contents (Elt F) → (⟨S2000000x1, .i32⟩ : BufTy).Contents (Elt F)) ]
theorem ops_p0_sub : (ops_p0 : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., unary_bufs_sub .., nullary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., reshape_bufs_sub .., unary_bufs_sub .., reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub ..⟩

/-- The 72 operations of window main_part1, in order. -/
abbrev ops_p1 : List (HloOp τ sig (Elt F)) :=
  [ StableHlo.binary main_arg0 main_v50 main_v51 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.binary main_v51 main_v37 main_v52 (mulf : (⟨S2000000x64, .f32⟩ : BufTy).Contents (Elt F) → (⟨S2000000x64, .f32⟩ : BufTy).Contents (Elt F) → (⟨S2000000x64, .f32⟩ : BufTy).Contents (Elt F)),
    StableHlo.nullary main_cst_7 (constant S_ .f32 0x00000000#32),
    StableHlo.unary main_cst_7 main_v53 (broadcastInDim S100000x64 ![] bcast_S_S100000x64 : (⟨S_, .f32⟩ : BufTy).Contents (Elt F) → (⟨S100000x64, .f32⟩ : BufTy).Contents (Elt F)),
    StableHlo.unary main_v26 main_v54 (broadcastInDim S2000000x1 ![0] bcast_S2000000_S2000000x1_0 : (⟨S2000000, .i32⟩ : BufTy).Contents (Elt F) → (⟨S2000000x1, .i32⟩ : BufTy).Contents (Elt F)),
    StableHlo.ternary main_v53 main_v54 main_v52 main_v55 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.unary main_v44 main_v56 (broadcastInDim S100000x64 ![0, 1] bcast_S100000x1_S100000x64_0_1 : (⟨S100000x1, .f32⟩ : BufTy).Contents (Elt F) → (⟨S100000x64, .f32⟩ : BufTy).Contents (Elt F)),
    StableHlo.binary main_v55 main_v56 main_v57 (Host.divf : (⟨S100000x64, .f32⟩ : BufTy).Contents (Elt F) → (⟨S100000x64, .f32⟩ : BufTy).Contents (Elt F) → (⟨S100000x64, .f32⟩ : BufTy).Contents (Elt F)),
    StableHlo.TRef.binary (.of main_v57 : StableHlo.TRef sig ⟨S100000x64, .f32⟩) (.of main_v57 : StableHlo.TRef sig ⟨S100000x64, .f32⟩) main_call2.v0 mulf,
    StableHlo.TRef.nullary main_call2.cst (constant S_ .f32 0x00000000#32),
    StableHlo.TRef.binary main_call2.v0 main_call2.cst main_call2.v1 (fun x v => Host.reduceAdd x v reducesTo_S100000x64_S100000_d1 h_S_),
    StableHlo.TRef.unary main_call2.v1 main_call2.v2 (broadcastInDim S100000x1 ![0] bcast_S100000_S100000x1_0),
    StableHlo.TRef.unary main_call2.v2 main_call2.v3 Host.sqrt,
    StableHlo.nullary main_cst_8 (constant S_ .f32 0x2B8CBCCC#32),
    StableHlo.unary main_cst_8 main_v59 (broadcastInDim S100000x1 ![] bcast_S_S100000x1 : (⟨S_, .f32⟩ : BufTy).Contents (Elt F) → (⟨S100000x1, .f32⟩ : BufTy).Contents (Elt F)),
    StableHlo.binary main_v58 main_v59 main_v60 (maximumf : (⟨S100000x1, .f32⟩ : BufTy).Contents (Elt F) → (⟨S100000x1, .f32⟩ : BufTy).Contents (Elt F) → (⟨S100000x1, .f32⟩ : BufTy).Contents (Elt F)),
    StableHlo.unary main_v60 main_v61 (broadcastInDim S100000x64 ![0, 1] bcast_S100000x1_S100000x64_0_1 : (⟨S100000x1, .f32⟩ : BufTy).Contents (Elt F) → (⟨S100000x64, .f32⟩ : BufTy).Contents (Elt F)),
    StableHlo.binary main_v57 main_v61 main_v62 (Host.divf : (⟨S100000x64, .f32⟩ : BufTy).Contents (Elt F) → (⟨S100000x64, .f32⟩ : BufTy).Contents (Elt F) → (⟨S100000x64, .f32⟩ : BufTy).Contents (Elt F)),
    StableHlo.binary main_arg0 main_v62 main_v63 (addf : (⟨S100000x64, .f32⟩ : BufTy).Contents (Elt F) → (⟨S100000x64, .f32⟩ : BufTy).Contents (Elt F) → (⟨S100000x64, .f32⟩ : BufTy).Contents (Elt F)),
    StableHlo.nullary main_c_9 (constantI S_ 32 0#32),
    StableHlo.unary main_c_9 main_v64 (broadcastInDim S2000000 ![] bcast_S_S2000000 : (⟨S_, .i32⟩ : BufTy).Contents (Elt F) → (⟨S2000000, .i32⟩ : BufTy).Contents (Elt F)),
    StableHlo.binary main_v28 main_v64 main_v65 (cmpi .slt : (⟨S2000000, .i32⟩ : BufTy).Contents (Elt F) → (⟨S2000000, .i32⟩ : BufTy).Contents (Elt F) → (⟨S2000000, .i1⟩ : BufTy).Contents (Elt F)),
    StableHlo.nullary main_c_10 (constantI S_ 32 100000#32),
    StableHlo.unary main_c_10 main_v66 (broadcastInDim S2000000 ![] bcast_S_S2000000 : (⟨S_, .i32⟩ : BufTy).Contents (Elt F) → (⟨S2000000, .i32⟩ : BufTy).Contents (Elt F)),
    StableHlo.binary main_v28 main_v66 main_v67 (addi : (⟨S2000000, .i32⟩ : BufTy).Contents (Elt F) → (⟨S2000000, .i32⟩ : BufTy).Contents (Elt F) → (⟨S2000000, .i32⟩ : BufTy).Contents (Elt F)),
    StableHlo.ternary main_v65 main_v67 main_v28 main_v68 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v68 main_v69 (broadcastInDim S2000000x1 ![0] bcast_S2000000_S2000000x1_0 : (⟨S2000000, .i32⟩ : BufTy).Contents (Elt F) → (⟨S2000000x1, .i32⟩ : BufTy).Contents (Elt F)),
    StableHlo.binary main_v62 main_v69 main_v70 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.binary main_v70 main_v37 main_v71 (mulf : (⟨S2000000x64, .f32⟩ : BufTy).Contents (Elt F) → (⟨S2000000x64, .f32⟩ : BufTy).Contents (Elt F) → (⟨S2000000x64, .f32⟩ : BufTy).Contents (Elt F)),
    StableHlo.nullary main_cst_11 (constant S_ .f32 0x00000000#32),
    StableHlo.unary main_cst_11 main_v72 (broadcastInDim S100000x64 ![] bcast_S_S100000x64 : (⟨S_, .f32⟩ : BufTy).Contents (Elt F) → (⟨S100000x64, .f32⟩ : BufTy).Contents (Elt F)),
    StableHlo.unary main_v26 main_v73 (broadcastInDim S2000000x1 ![0] bcast_S2000000_S2000000x1_0 : (⟨S2000000, .i32⟩ : BufTy).Contents (Elt F) → (⟨S2000000x1, .i32⟩ : BufTy).Contents (Elt F)),
    StableHlo.ternary main_v72 main_v73 main_v71 main_v74 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.unary main_v44 main_v75 (broadcastInDim S100000x64 ![0, 1] bcast_S100000x1_S100000x64_0_1 : (⟨S100000x1, .f32⟩ : BufTy).Contents (Elt F) → (⟨S100000x64, .f32⟩ : BufTy).Contents (Elt F)),
    StableHlo.binary main_v74 main_v75 main_v76 (Host.divf : (⟨S100000x64, .f32⟩ : BufTy).Contents (Elt F) → (⟨S100000x64, .f32⟩ : BufTy).Contents (Elt F) → (⟨S100000x64, .f32⟩ : BufTy).Contents (Elt F)),
    StableHlo.TRef.binary (.of main_v76 : StableHlo.TRef sig ⟨S100000x64, .f32⟩) (.of main_v76 : StableHlo.TRef sig ⟨S100000x64, .f32⟩) main_call3.v0 mulf,
    StableHlo.TRef.nullary main_call3.cst (constant S_ .f32 0x00000000#32),
    StableHlo.TRef.binary main_call3.v0 main_call3.cst main_call3.v1 (fun x v => Host.reduceAdd x v reducesTo_S100000x64_S100000_d1 h_S_),
    StableHlo.TRef.unary main_call3.v1 main_call3.v2 (broadcastInDim S100000x1 ![0] bcast_S100000_S100000x1_0),
    StableHlo.TRef.unary main_call3.v2 main_call3.v3 Host.sqrt,
    StableHlo.nullary main_cst_12 (constant S_ .f32 0x2B8CBCCC#32),
    StableHlo.unary main_cst_12 main_v78 (broadcastInDim S100000x1 ![] bcast_S_S100000x1 : (⟨S_, .f32⟩ : BufTy).Contents (Elt F) → (⟨S100000x1, .f32⟩ : BufTy).Contents (Elt F)),
    StableHlo.binary main_v77 main_v78 main_v79 (maximumf : (⟨S100000x1, .f32⟩ : BufTy).Contents (Elt F) → (⟨S100000x1, .f32⟩ : BufTy).Contents (Elt F) → (⟨S100000x1, .f32⟩ : BufTy).Contents (Elt F)),
    StableHlo.unary main_v79 main_v80 (broadcastInDim S100000x64 ![0, 1] bcast_S100000x1_S100000x64_0_1 : (⟨S100000x1, .f32⟩ : BufTy).Contents (Elt F) → (⟨S100000x64, .f32⟩ : BufTy).Contents (Elt F)),
    StableHlo.binary main_v76 main_v80 main_v81 (Host.divf : (⟨S100000x64, .f32⟩ : BufTy).Contents (Elt F) → (⟨S100000x64, .f32⟩ : BufTy).Contents (Elt F) → (⟨S100000x64, .f32⟩ : BufTy).Contents (Elt F)),
    StableHlo.binary main_v63 main_v81 main_v82 (addf : (⟨S100000x64, .f32⟩ : BufTy).Contents (Elt F) → (⟨S100000x64, .f32⟩ : BufTy).Contents (Elt F) → (⟨S100000x64, .f32⟩ : BufTy).Contents (Elt F)),
    StableHlo.nullary main_c_13 (constantI S_ 32 0#32),
    StableHlo.unary main_c_13 main_v83 (broadcastInDim S2000000 ![] bcast_S_S2000000 : (⟨S_, .i32⟩ : BufTy).Contents (Elt F) → (⟨S2000000, .i32⟩ : BufTy).Contents (Elt F)),
    StableHlo.binary main_v28 main_v83 main_v84 (cmpi .slt : (⟨S2000000, .i32⟩ : BufTy).Contents (Elt F) → (⟨S2000000, .i32⟩ : BufTy).Contents (Elt F) → (⟨S2000000, .i1⟩ : BufTy).Contents (Elt F)),
    StableHlo.nullary main_c_14 (constantI S_ 32 100000#32),
    StableHlo.unary main_c_14 main_v85 (broadcastInDim S2000000 ![] bcast_S_S2000000 : (⟨S_, .i32⟩ : BufTy).Contents (Elt F) → (⟨S2000000, .i32⟩ : BufTy).Contents (Elt F)),
    StableHlo.binary main_v28 main_v85 main_v86 (addi : (⟨S2000000, .i32⟩ : BufTy).Contents (Elt F) → (⟨S2000000, .i32⟩ : BufTy).Contents (Elt F) → (⟨S2000000, .i32⟩ : BufTy).Contents (Elt F)),
    StableHlo.ternary main_v84 main_v86 main_v28 main_v87 (select : (⟨S2000000, .i1⟩ : BufTy).Contents (Elt F) → (⟨S2000000, .i32⟩ : BufTy).Contents (Elt F) → (⟨S2000000, .i32⟩ : BufTy).Contents (Elt F) → (⟨S2000000, .i32⟩ : BufTy).Contents (Elt F)),
    StableHlo.unary main_v87 main_v88 (broadcastInDim S2000000x1 ![0] bcast_S2000000_S2000000x1_0 : (⟨S2000000, .i32⟩ : BufTy).Contents (Elt F) → (⟨S2000000x1, .i32⟩ : BufTy).Contents (Elt F)),
    StableHlo.binary main_v81 main_v88 main_v89 ((fun x i => Host.gather gather_S100000x64_S2000000x1_S2000000x64_1_0_n_n_0_1_164 x i) : (⟨S100000x64, .f32⟩ : BufTy).Contents (Elt F) → (⟨S2000000x1, .i32⟩ : BufTy).Contents (Elt F) → (⟨S2000000x64, .f32⟩ : BufTy).Contents (Elt F)),
    StableHlo.binary main_v89 main_v37 main_v90 (mulf : (⟨S2000000x64, .f32⟩ : BufTy).Contents (Elt F) → (⟨S2000000x64, .f32⟩ : BufTy).Contents (Elt F) → (⟨S2000000x64, .f32⟩ : BufTy).Contents (Elt F)),
    StableHlo.nullary main_cst_15 (constant S_ .f32 0x00000000#32),
    StableHlo.unary main_cst_15 main_v91 (broadcastInDim S100000x64 ![] bcast_S_S100000x64 : (⟨S_, .f32⟩ : BufTy).Contents (Elt F) → (⟨S100000x64, .f32⟩ : BufTy).Contents (Elt F)),
    StableHlo.unary main_v26 main_v92 (broadcastInDim S2000000x1 ![0] bcast_S2000000_S2000000x1_0 : (⟨S2000000, .i32⟩ : BufTy).Contents (Elt F) → (⟨S2000000x1, .i32⟩ : BufTy).Contents (Elt F)),
    StableHlo.ternary main_v91 main_v92 main_v90 main_v93 ((fun x i u => Host.scatterAdd scatter_S100000x64_S2000000x1_S2000000x64_1_0_0_1 x i u) : (⟨S100000x64, .f32⟩ : BufTy).Contents (Elt F) → (⟨S2000000x1, .i32⟩ : BufTy).Contents (Elt F) → (⟨S2000000x64, .f32⟩ : BufTy).Contents (Elt F) → (⟨S100000x64, .f32⟩ : BufTy).Contents (Elt F)),
    StableHlo.unary main_v44 main_v94 (broadcastInDim S100000x64 ![0, 1] bcast_S100000x1_S100000x64_0_1 : (⟨S100000x1, .f32⟩ : BufTy).Contents (Elt F) → (⟨S100000x64, .f32⟩ : BufTy).Contents (Elt F)),
    StableHlo.binary main_v93 main_v94 main_v95 (Host.divf : (⟨S100000x64, .f32⟩ : BufTy).Contents (Elt F) → (⟨S100000x64, .f32⟩ : BufTy).Contents (Elt F) → (⟨S100000x64, .f32⟩ : BufTy).Contents (Elt F)),
    StableHlo.TRef.binary (.of main_v95 : StableHlo.TRef sig ⟨S100000x64, .f32⟩) (.of main_v95 : StableHlo.TRef sig ⟨S100000x64, .f32⟩) main_call4.v0 mulf,
    StableHlo.TRef.nullary main_call4.cst (constant S_ .f32 0x00000000#32),
    StableHlo.TRef.binary main_call4.v0 main_call4.cst main_call4.v1 (fun x v => Host.reduceAdd x v reducesTo_S100000x64_S100000_d1 h_S_),
    StableHlo.TRef.unary main_call4.v1 main_call4.v2 (broadcastInDim S100000x1 ![0] bcast_S100000_S100000x1_0),
    StableHlo.TRef.unary main_call4.v2 main_call4.v3 Host.sqrt,
    StableHlo.nullary main_cst_16 (constant S_ .f32 0x2B8CBCCC#32),
    StableHlo.unary main_cst_16 main_v97 (broadcastInDim S100000x1 ![] bcast_S_S100000x1 : (⟨S_, .f32⟩ : BufTy).Contents (Elt F) → (⟨S100000x1, .f32⟩ : BufTy).Contents (Elt F)),
    StableHlo.binary main_v96 main_v97 main_v98 (maximumf : (⟨S100000x1, .f32⟩ : BufTy).Contents (Elt F) → (⟨S100000x1, .f32⟩ : BufTy).Contents (Elt F) → (⟨S100000x1, .f32⟩ : BufTy).Contents (Elt F)),
    StableHlo.unary main_v98 main_v99 (broadcastInDim S100000x64 ![0, 1] bcast_S100000x1_S100000x64_0_1 : (⟨S100000x1, .f32⟩ : BufTy).Contents (Elt F) → (⟨S100000x64, .f32⟩ : BufTy).Contents (Elt F)),
    StableHlo.binary main_v95 main_v99 main_v100 (Host.divf : (⟨S100000x64, .f32⟩ : BufTy).Contents (Elt F) → (⟨S100000x64, .f32⟩ : BufTy).Contents (Elt F) → (⟨S100000x64, .f32⟩ : BufTy).Contents (Elt F)) ]
theorem ops_p1_sub : (ops_p1 : List (HloOp τ sig (Elt F))).Forall fun op => op.bufs ⊆ tcRefs τ sig :=
  ⟨binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩

/-- The 74 operations of window main_part2, in order. -/
abbrev ops_p2 : List (HloOp τ sig (Elt F)) :=
  [ StableHlo.binary main_v82 main_v100 main_v101 (addf : (⟨S100000x64, .f32⟩ : BufTy).Contents (Elt F) → (⟨S100000x64, .f32⟩ : BufTy).Contents (Elt F) → (⟨S100000x64, .f32⟩ : BufTy).Contents (Elt F)),
    StableHlo.nullary main_c_17 (constantI S_ 32 0#32),
    StableHlo.unary main_c_17 main_v102 (broadcastInDim S4096 ![] bcast_S_S4096 : (⟨S_, .i32⟩ : BufTy).Contents (Elt F) → (⟨S4096, .i32⟩ : BufTy).Contents (Elt F)),
    StableHlo.binary main_arg11 main_v102 main_v103 (cmpi .slt : (⟨S4096, .i32⟩ : BufTy).Contents (Elt F) → (⟨S4096, .i32⟩ : BufTy).Contents (Elt F) → (⟨S4096, .i1⟩ : BufTy).Contents (Elt F)),
    StableHlo.nullary main_c_18 (constantI S_ 32 100000#32),
    StableHlo.unary main_c_18 main_v104 (broadcastInDim S4096 ![] bcast_S_S4096 : (⟨S_, .i32⟩ : BufTy).Contents (Elt F) → (⟨S4096, .i32⟩ : BufTy).Contents (Elt F)),
    StableHlo.binary main_arg11 main_v104 main_v105 (addi : (⟨S4096, .i32⟩ : BufTy).Contents (Elt F) → (⟨S4096, .i32⟩ : BufTy).Contents (Elt F) → (⟨S4096, .i32⟩ : BufTy).Contents (Elt F)),
    StableHlo.ternary main_v103 main_v105 main_arg11 main_v106 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v106 main_v107 (broadcastInDim S4096x1 ![0] bcast_S4096_S4096x1_0 : (⟨S4096, .i32⟩ : BufTy).Contents (Elt F) → (⟨S4096x1, .i32⟩ : BufTy).Contents (Elt F)),
    StableHlo.binary main_v101 main_v107 main_v108 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    StableHlo.nullary main_c_19 (constantI S_ 32 0#32),
    StableHlo.unary main_c_19 main_v109 (broadcastInDim S4096 ![] bcast_S_S4096 : (⟨S_, .i32⟩ : BufTy).Contents (Elt F) → (⟨S4096, .i32⟩ : BufTy).Contents (Elt F)),
    StableHlo.binary main_arg12 main_v109 main_v110 (cmpi .slt : (⟨S4096, .i32⟩ : BufTy).Contents (Elt F) → (⟨S4096, .i32⟩ : BufTy).Contents (Elt F) → (⟨S4096, .i1⟩ : BufTy).Contents (Elt F)),
    StableHlo.nullary main_c_20 (constantI S_ 32 30000#32),
    StableHlo.unary main_c_20 main_v111 (broadcastInDim S4096 ![] bcast_S_S4096 : (⟨S_, .i32⟩ : BufTy).Contents (Elt F) → (⟨S4096, .i32⟩ : BufTy).Contents (Elt F)),
    StableHlo.binary main_arg12 main_v111 main_v112 (addi : (⟨S4096, .i32⟩ : BufTy).Contents (Elt F) → (⟨S4096, .i32⟩ : BufTy).Contents (Elt F) → (⟨S4096, .i32⟩ : BufTy).Contents (Elt F)),
    StableHlo.ternary main_v110 main_v112 main_arg12 main_v113 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v113 main_v114 (broadcastInDim S4096x1 ![0] bcast_S4096_S4096x1_0 : (⟨S4096, .i32⟩ : BufTy).Contents (Elt F) → (⟨S4096x1, .i32⟩ : BufTy).Contents (Elt F)),
    StableHlo.binary main_v24 main_v114 main_v115 ((fun x i => Host.gather gather_S30000x64_S4096x1_S4096x64_1_0_n_n_0_1_164 x i) : (⟨S30000x64, .f32⟩ : BufTy).Contents (Elt F) → (⟨S4096x1, .i32⟩ : BufTy).Contents (Elt F) → (⟨S4096x64, .f32⟩ : BufTy).Contents (Elt F)),
    StableHlo.nullary main_c_21 (constantI S_ 32 0#32),
    StableHlo.unary main_c_21 main_v116 (broadcastInDim S4096 ![] bcast_S_S4096 : (⟨S_, .i32⟩ : BufTy).Contents (Elt F) → (⟨S4096, .i32⟩ : BufTy).Contents (Elt F)),
    StableHlo.binary main_arg13 main_v116 main_v117 (cmpi .slt : (⟨S4096, .i32⟩ : BufTy).Contents (Elt F) → (⟨S4096, .i32⟩ : BufTy).Contents (Elt F) → (⟨S4096, .i1⟩ : BufTy).Contents (Elt F)),
    StableHlo.nullary main_c_22 (constantI S_ 32 30000#32),
    StableHlo.unary main_c_22 main_v118 (broadcastInDim S4096 ![] bcast_S_S4096 : (⟨S_, .i32⟩ : BufTy).Contents (Elt F) → (⟨S4096, .i32⟩ : BufTy).Contents (Elt F)),
    StableHlo.binary main_arg13 main_v118 main_v119 (addi : (⟨S4096, .i32⟩ : BufTy).Contents (Elt F) → (⟨S4096, .i32⟩ : BufTy).Contents (Elt F) → (⟨S4096, .i32⟩ : BufTy).Contents (Elt F)),
    StableHlo.ternary main_v117 main_v119 main_arg13 main_v120 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v120 main_v121 (broadcastInDim S4096x1 ![0] bcast_S4096_S4096x1_0 : (⟨S4096, .i32⟩ : BufTy).Contents (Elt F) → (⟨S4096x1, .i32⟩ : BufTy).Contents (Elt F)),
    StableHlo.binary main_v24 main_v121 main_v122 ((fun x i => Host.gather gather_S30000x64_S4096x1_S4096x64_1_0_n_n_0_1_164 x i) : (⟨S30000x64, .f32⟩ : BufTy).Contents (Elt F) → (⟨S4096x1, .i32⟩ : BufTy).Contents (Elt F) → (⟨S4096x64, .f32⟩ : BufTy).Contents (Elt F)),
    StableHlo.binary main_v108 main_v115 main_v123 (mulf : (⟨S4096x64, .f32⟩ : BufTy).Contents (Elt F) → (⟨S4096x64, .f32⟩ : BufTy).Contents (Elt F) → (⟨S4096x64, .f32⟩ : BufTy).Contents (Elt F)),
    StableHlo.nullary main_cst_23 (constant S_ .f32 0x00000000#32),
    StableHlo.binary main_v123 main_cst_23 main_v124 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_v108 main_v122 main_v125 (mulf : (⟨S4096x64, .f32⟩ : BufTy).Contents (Elt F) → (⟨S4096x64, .f32⟩ : BufTy).Contents (Elt F) → (⟨S4096x64, .f32⟩ : BufTy).Contents (Elt F)),
    StableHlo.nullary main_cst_24 (constant S_ .f32 0x00000000#32),
    StableHlo.binary main_v125 main_cst_24 main_v126 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.binary main_v124 main_v126 main_v127 (subf : (⟨S4096, .f32⟩ : BufTy).Contents (Elt F) → (⟨S4096, .f32⟩ : BufTy).Contents (Elt F) → (⟨S4096, .f32⟩ : BufTy).Contents (Elt F)),
    StableHlo.TRef.unary (.of main_v127 : StableHlo.TRef sig ⟨S4096, .f32⟩) main_call5.v0 Host.negf,
    StableHlo.TRef.nullary main_call5.call0.cst (constant S_ .f32 0x00000000#32),
    StableHlo.TRef.unary main_call5.call0.cst main_call5.call0.v0 (broadcastInDim S4096 ![] bcast_S_S4096),
    StableHlo.TRef.binary main_call5.v0 main_call5.call0.v0 main_call5.call0.v1 maximumf,
    StableHlo.TRef.unary main_call5.call0.cst main_call5.call0.v2 (broadcastInDim S4096 ![] bcast_S_S4096),
    StableHlo.TRef.binary main_call5.v0 main_call5.call0.v2 main_call5.call0.v3 subf,
    StableHlo.TRef.binary main_call5.call0.v3 main_call5.call0.v3 main_call5.call0.v4 (cmpf .une),
    StableHlo.TRef.unary main_call5.call0.cst main_call5.call0.v5 (broadcastInDim S4096 ![] bcast_S_S4096),
    StableHlo.TRef.binary main_call5.v0 main_call5.call0.v5 main_call5.call0.v6 addf,
    StableHlo.TRef.unary main_call5.call0.v3 main_call5.call0.v7 Host.absf,
    StableHlo.TRef.unary main_call5.call0.v7 main_call5.call0.v8 Host.negf,
    StableHlo.TRef.unary main_call5.call0.v8 main_call5.call0.v9 Host.exp,
    StableHlo.TRef.unary main_call5.call0.v9 main_call5.call0.v10 Host.log1p,
    StableHlo.TRef.binary main_call5.call0.v1 main_call5.call0.v10 main_call5.call0.v11 addf,
    StableHlo.TRef.ternary main_call5.call0.v4 main_call5.call0.v6 main_call5.call0.v11 main_call5.call0.v12 select,
    StableHlo.TRef.unary main_call5.call0.v12 main_call5.v2 Host.negf,
    StableHlo.nullary main_cst_25 (constant S_ .f32 0x00000000#32),
    StableHlo.binary main_v128 main_cst_25 main_v129 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    StableHlo.nullary main_cst_26 (constant S_ .f32 0x45800000#32),
    StableHlo.binary main_v129 main_cst_26 main_v130 (Host.divf : (⟨S_, .f32⟩ : BufTy).Contents (Elt F) → (⟨S_, .f32⟩ : BufTy).Contents (Elt F) → (⟨S_, .f32⟩ : BufTy).Contents (Elt F)),
    StableHlo.unary main_v130 main_v131 (Host.negf : (⟨S_, .f32⟩ : BufTy).Contents (Elt F) → (⟨S_, .f32⟩ : BufTy).Contents (Elt F)),
    StableHlo.binary main_v108 main_v108 main_v132 (mulf : (⟨S4096x64, .f32⟩ : BufTy).Contents (Elt F) → (⟨S4096x64, .f32⟩ : BufTy).Contents (Elt F) → (⟨S4096x64, .f32⟩ : BufTy).Contents (Elt F)),
    StableHlo.nullary main_cst_27 (constant S_ .f32 0x00000000#32),
    StableHlo.binary main_v132 main_cst_27 main_v133 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    StableHlo.binary main_v115 main_v115 main_v134 (mulf : (⟨S4096x64, .f32⟩ : BufTy).Contents (Elt F) → (⟨S4096x64, .f32⟩ : BufTy).Contents (Elt F) → (⟨S4096x64, .f32⟩ : BufTy).Contents (Elt F)),
    StableHlo.nullary main_cst_28 (constant S_ .f32 0x00000000#32),
    StableHlo.binary main_v134 main_cst_28 main_v135 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    StableHlo.binary main_v133 main_v135 main_v136 (addf : (⟨S_, .f32⟩ : BufTy).Contents (Elt F) → (⟨S_, .f32⟩ : BufTy).Contents (Elt F) → (⟨S_, .f32⟩ : BufTy).Contents (Elt F)),
    StableHlo.binary main_v122 main_v122 main_v137 (mulf : (⟨S4096x64, .f32⟩ : BufTy).Contents (Elt F) → (⟨S4096x64, .f32⟩ : BufTy).Contents (Elt F) → (⟨S4096x64, .f32⟩ : BufTy).Contents (Elt F)),
    StableHlo.nullary main_cst_29 (constant S_ .f32 0x00000000#32),
    StableHlo.binary main_v137 main_cst_29 main_v138 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    StableHlo.binary main_v136 main_v138 main_v139 (addf : (⟨S_, .f32⟩ : BufTy).Contents (Elt F) → (⟨S_, .f32⟩ : BufTy).Contents (Elt F) → (⟨S_, .f32⟩ : BufTy).Contents (Elt F)),
    StableHlo.nullary main_cst_30 (constant S_ .f32 0x40000000#32),
    StableHlo.binary main_v139 main_cst_30 main_v140 (Host.divf : (⟨S_, .f32⟩ : BufTy).Contents (Elt F) → (⟨S_, .f32⟩ : BufTy).Contents (Elt F) → (⟨S_, .f32⟩ : BufTy).Contents (Elt F)),
    StableHlo.nullary main_cst_31 (constant S_ .f32 0x38D1B717#32),
    StableHlo.binary main_cst_31 main_v140 main_v141 (mulf : (⟨S_, .f32⟩ : BufTy).Contents (Elt F) → (⟨S_, .f32⟩ : BufTy).Contents (Elt F) → (⟨S_, .f32⟩ : BufTy).Contents (Elt F)),
    StableHlo.nullary main_cst_32 (constant S_ .f32 0x45800000#32),
    StableHlo.binary main_v141 main_cst_32 main_v142 (Host.divf : (⟨S_, .f32⟩ : BufTy).Contents (Elt F) → (⟨S_, .f32⟩ : BufTy).Contents (Elt F) → (⟨S_, .f32⟩ : BufTy).Contents (Elt F)),
    StableHlo.binary main_v131 main_v142 main_v143 (addf : (⟨S_, .f32⟩ : BufTy).Contents (Elt F) → (⟨S_, .f32⟩ : BufTy).Contents (Elt F) → (⟨S_, .f32⟩ : BufTy).Contents (Elt F)) ]
theorem ops_p2_sub : (ops_p2 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., binary_bufs_sub .., binary_bufs_sub .., nullary_bufs_sub .., binary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., binary_bufs_sub .., nullary_bufs_sub .., binary_bufs_sub .., unary_bufs_sub .., binary_bufs_sub .., nullary_bufs_sub .., binary_bufs_sub .., binary_bufs_sub .., nullary_bufs_sub .., binary_bufs_sub .., binary_bufs_sub .., binary_bufs_sub .., nullary_bufs_sub .., binary_bufs_sub .., binary_bufs_sub .., nullary_bufs_sub .., binary_bufs_sub .., nullary_bufs_sub .., binary_bufs_sub .., nullary_bufs_sub .., binary_bufs_sub .., binary_bufs_sub ..⟩

/-- @main's operations: the windows one after the other. -/
abbrev ops : List (HloOp τ sig (Elt F)) := ops_p0 ++ ops_p1 ++ ops_p2

set_option maxRecDepth 4096 in
set_option maxHeartbeats 4000000 in
theorem main_part0_eq (c : Dev nD) : main_part0 (F := F) c = seq ops_p0 := by
  simp only [main_part0, fn_log_sigmoid.body, fn_norm.body, fn_relu.body, fn_softplus.body, seq, bind_assoc, pure_bind]
  rfl
set_option maxRecDepth 4096 in
set_option maxHeartbeats 4000000 in
theorem main_part1_eq (c : Dev nD) : main_part1 (F := F) c = seq ops_p1 := by
  simp only [main_part1, fn_log_sigmoid.body, fn_norm.body, fn_relu.body, fn_softplus.body, seq, bind_assoc, pure_bind]
  rfl
set_option maxRecDepth 4096 in
set_option maxHeartbeats 4000000 in
theorem main_part2_eq (c : Dev nD) : main_part2 (F := F) c = seq ops_p2 := by
  simp only [main_part2, fn_log_sigmoid.body, fn_norm.body, fn_relu.body, fn_softplus.body, seq, bind_assoc, pure_bind]
theorem main_eq (c : Dev nD) : main (F := F) c = seq ops := by
  simp only [ops, seq_append, ← main_part0_eq c, ← main_part1_eq c, ← main_part2_eq c]
  rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig := by
  rw [List.forall_iff_forall_mem]
  intro op h
  simp only [ops, List.mem_append] at h
  rcases h with (h | h) | h
  exacts [(List.forall_iff_forall_mem.mp ops_p0_sub) op h, (List.forall_iff_forall_mem.mp ops_p1_sub) op h, (List.forall_iff_forall_mem.mp ops_p2_sub) op h]

/-- Every weakly fair execution of @main terminates, and every final state has each TensorCore buffer at the
    operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Run

end
-- ==== Proof.RefValue.lean ====
/-
  The reference's run read back: each of its three results is the named composition of Terms.lean applied to the
  launch contents of the fourteen arguments, and the arguments end as launched. The operation list is read window
  by window, every intermediate buffer that a later window reads being named by its term.
-/
import proofs.«421973_j75917841924564_2_alg».proof.Proof.RefOps
import proofs.«421973_j75917841924564_2_alg».proof.Proof.Terms

noncomputable section

namespace Cert.ReferenceIdeal.RefValue

open Cert.ReferenceIdeal Cert.ReferenceIdeal.Gen Cert.ReferenceIdeal.Run Idealize.ShloMosaic Idealize.ShloMosaic.TcCoe Idealize.SL.Sem Idealize.ShloMosaic.StableHlo

variable {F : FTy → Type} [FloatOps F]

/-- Two operation lists one after the other: the second's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A reference as the device buffer it names. -/
local notation "⟪" r "⟫" => (Proc.devRef (τ := τ) (sig := sig) (Proc.tc : Proc τ) r)

/-- An array of the given shape and element type. -/
local notation "Arr" => Terms.Arr

/-! ## The first window: the item embedding and the graph's columns

From any contents `V`, each buffer the window writes that is read later, as its named term of `V` at the arguments. -/

set_option maxRecDepth 4096 in
set_option maxHeartbeats 4000000 in
theorem p0_v24 (V : Valuation τ sig (Elt F)) :
    after ops_p0 V ⟪main_v24⟫ = Terms.item (V ⟪main_arg2⟫) (V ⟪main_arg3⟫) (V ⟪main_arg4⟫) (V ⟪main_arg5⟫) (V ⟪main_arg6⟫) (V ⟪main_arg7⟫) (V ⟪main_arg8⟫) := by
  simp only [ops_p0]
  after_results_simp
  rfl
set_option maxRecDepth 4096 in
set_option maxHeartbeats 4000000 in
theorem p0_v26 (V : Valuation τ sig (Elt F)) :
    after ops_p0 V ⟪main_v26⟫ = Terms.heads (V ⟪main_arg9⟫) := by
  simp only [ops_p0]
  after_results_simp
  rfl
set_option maxRecDepth 4096 in
set_option maxHeartbeats 4000000 in
theorem p0_v28 (V : Valuation τ sig (Elt F)) :
    after ops_p0 V ⟪main_v28⟫ = Terms.tails (V ⟪main_arg9⟫) := by
  simp only [ops_p0]
  after_results_simp
  rfl
set_option maxRecDepth 4096 in
set_option maxHeartbeats 4000000 in
theorem p0_v37 (V : Valuation τ sig (Elt F)) :
    after ops_p0 V ⟪main_v37⟫ = Terms.rel (V ⟪main_arg1⟫) (V ⟪main_arg10⟫) := by
  simp only [ops_p0]
  after_results_simp
  rfl
set_option maxRecDepth 4096 in
set_option maxHeartbeats 4000000 in
theorem p0_v44 (V : Valuation τ sig (Elt F)) :
    after ops_p0 V ⟪main_v44⟫ = Terms.countCol (V ⟪main_arg9⟫) := by
  simp only [ops_p0]
  after_results_simp
  rfl
set_option maxRecDepth 4096 in
set_option maxHeartbeats 4000000 in
theorem p0_v50 (V : Valuation τ sig (Elt F)) :
    after ops_p0 V ⟪main_v50⟫ = Terms.wrapEdges 100000#32 (Terms.tails (V ⟪main_arg9⟫)) := by
  simp only [ops_p0]
  after_results_simp
  rfl

/-! The window writes no argument. -/

set_option maxRecDepth 4096 in
set_option maxHeartbeats 4000000 in
theorem p0_arg0 (V : Valuation τ sig (Elt F)) : after ops_p0 V ⟪main_arg0⟫ = V ⟪main_arg0⟫ := by
  simp only [ops_p0]
  after_results_simp
set_option maxRecDepth 4096 in
set_option maxHeartbeats 4000000 in
theorem p0_arg1 (V : Valuation τ sig (Elt F)) : after ops_p0 V ⟪main_arg1⟫ = V ⟪main_arg1⟫ := by
  simp only [ops_p0]
  after_results_simp
set_option maxRecDepth 4096 in
set_option maxHeartbeats 4000000 in
theorem p0_arg2 (V : Valuation τ sig (Elt F)) : after ops_p0 V ⟪main_arg2⟫ = V ⟪main_arg2⟫ := by
  simp only [ops_p0]
  after_results_simp
set_option maxRecDepth 4096 in
set_option maxHeartbeats 4000000 in
theorem p0_arg3 (V : Valuation τ sig (Elt F)) : after ops_p0 V ⟪main_arg3⟫ = V ⟪main_arg3⟫ := by
  simp only [ops_p0]
  after_results_simp
set_option maxRecDepth 4096 in
set_option maxHeartbeats 4000000 in
theorem p0_arg4 (V : Valuation τ sig (Elt F)) : after ops_p0 V ⟪main_arg4⟫ = V ⟪main_arg4⟫ := by
  simp only [ops_p0]
  after_results_simp
set_option maxRecDepth 4096 in
set_option maxHeartbeats 4000000 in
theorem p0_arg5 (V : Valuation τ sig (Elt F)) : after ops_p0 V ⟪main_arg5⟫ = V ⟪main_arg5⟫ := by
  simp only [ops_p0]
  after_results_simp
set_option maxRecDepth 4096 in
set_option maxHeartbeats 4000000 in
theorem p0_arg6 (V : Valuation τ sig (Elt F)) : after ops_p0 V ⟪main_arg6⟫ = V ⟪main_arg6⟫ := by
  simp only [ops_p0]
  after_results_simp
set_option maxRecDepth 4096 in
set_option maxHeartbeats 4000000 in
theorem p0_arg7 (V : Valuation τ sig (Elt F)) : after ops_p0 V ⟪main_arg7⟫ = V ⟪main_arg7⟫ := by
  simp only [ops_p0]
  after_results_simp
set_option maxRecDepth 4096 in
set_option maxHeartbeats 4000000 in
theorem p0_arg8 (V : Valuation τ sig (Elt F)) : after ops_p0 V ⟪main_arg8⟫ = V ⟪main_arg8⟫ := by
  simp only [ops_p0]
  after_results_simp
set_option maxRecDepth 4096 in
set_option maxHeartbeats 4000000 in
theorem p0_arg9 (V : Valuation τ sig (Elt F)) : after ops_p0 V ⟪main_arg9⟫ = V ⟪main_arg9⟫ := by
  simp only [ops_p0]
  after_results_simp
set_option maxRecDepth 4096 in
set_option maxHeartbeats 4000000 in
theorem p0_arg10 (V : Valuation τ sig (Elt F)) : after ops_p0 V ⟪main_arg10⟫ = V ⟪main_arg10⟫ := by
  simp only [ops_p0]
  after_results_simp
set_option maxRecDepth 4096 in
set_option maxHeartbeats 4000000 in
theorem p0_arg11 (V : Valuation τ sig (Elt F)) : after ops_p0 V ⟪main_arg11⟫ = V ⟪main_arg11⟫ := by
  simp only [ops_p0]
  after_results_simp
set_option maxRecDepth 4096 in
set_option maxHeartbeats 4000000 in
theorem p0_arg12 (V : Valuation τ sig (Elt F)) : after ops_p0 V ⟪main_arg12⟫ = V ⟪main_arg12⟫ := by
  simp only [ops_p0]
  after_results_simp
set_option maxRecDepth 4096 in
set_option maxHeartbeats 4000000 in
theorem p0_arg13 (V : Valuation τ sig (Elt F)) : after ops_p0 V ⟪main_arg13⟫ = V ⟪main_arg13⟫ := by
  simp only [ops_p0]
  after_results_simp

/-! ## The second window: the three hops -/

/-- One hop's new embedding from the previous one, read over any tail-index column `ix`, relation rows `r`,
    head row `h` and count column `den`: gather the rows of `e` at `ix`, multiply by `r`, sum into the rows `h`
    names, divide by `den`, normalise each row. -/
def hopOf (e : Arr F S100000x64 .f32) (ix : Arr F S2000000x1 .i32) (r : Arr F S2000000x64 .f32)
    (h : Arr F S2000000 .i32) (den : Arr F S100000x1 .f32) : Arr F S100000x64 .f32 :=
  Terms.postE
    (Host.scatterAdd scatter_S100000x64_S2000000x1_S2000000x64_1_0_0_1
      (broadcastInDim S100000x64 ![] bcast_S_S100000x64 (constant S_ .f32 0x00000000#32))
      (broadcastInDim S2000000x1 ![0] bcast_S2000000_S2000000x1_0 h)
      (mulf (Host.gather gather_S100000x64_S2000000x1_S2000000x64_1_0_n_n_0_1_164 e ix) r))
    den

/-- At the graph's own columns the generic hop is the named one. -/
theorem hopOf_eq (e : Arr F S100000x64 .f32) (w : Arr F S15x64 .f32) (et : Arr F S2000000 .i32) (ei : Arr F S2x2000000 .i32) :
    hopOf e (Terms.wrapEdges 100000#32 (Terms.tails ei)) (Terms.rel w et) (Terms.heads ei) (Terms.countCol ei)
      = Terms.hopE e w et ei := rfl

set_option maxRecDepth 4096 in
set_option maxHeartbeats 4000000 in
/-- The residual after two hops. -/
theorem p1_v82 (V : Valuation τ sig (Elt F)) :
    after ops_p1 V ⟪main_v82⟫ = addf (addf (V ⟪main_arg0⟫) (hopOf (V ⟪main_arg0⟫) (V ⟪main_v50⟫) (V ⟪main_v37⟫) (V ⟪main_v26⟫) (V ⟪main_v44⟫))) (hopOf (hopOf (V ⟪main_arg0⟫) (V ⟪main_v50⟫) (V ⟪main_v37⟫) (V ⟪main_v26⟫) (V ⟪main_v44⟫)) (Terms.wrapEdges 100000#32 (V ⟪main_v28⟫)) (V ⟪main_v37⟫) (V ⟪main_v26⟫) (V ⟪main_v44⟫)) := by
  simp only [ops_p1]
  after_results_simp
  rfl
set_option maxRecDepth 4096 in
set_option maxHeartbeats 4000000 in
/-- The third hop's embedding. -/
theorem p1_v100 (V : Valuation τ sig (Elt F)) :
    after ops_p1 V ⟪main_v100⟫ = (hopOf (hopOf (hopOf (V ⟪main_arg0⟫) (V ⟪main_v50⟫) (V ⟪main_v37⟫) (V ⟪main_v26⟫) (V ⟪main_v44⟫)) (Terms.wrapEdges 100000#32 (V ⟪main_v28⟫)) (V ⟪main_v37⟫) (V ⟪main_v26⟫) (V ⟪main_v44⟫)) (Terms.wrapEdges 100000#32 (V ⟪main_v28⟫)) (V ⟪main_v37⟫) (V ⟪main_v26⟫) (V ⟪main_v44⟫)) := by
  simp only [ops_p1]
  after_results_simp
  rfl

/-! The window writes neither the item embedding nor an argument. -/

set_option maxRecDepth 4096 in
set_option maxHeartbeats 4000000 in
theorem p1_v24 (V : Valuation τ sig (Elt F)) : after ops_p1 V ⟪main_v24⟫ = V ⟪main_v24⟫ := by
  simp only [ops_p1]
  after_results_simp
set_option maxRecDepth 4096 in
set_option maxHeartbeats 4000000 in
theorem p1_arg0 (V : Valuation τ sig (Elt F)) : after ops_p1 V ⟪main_arg0⟫ = V ⟪main_arg0⟫ := by
  simp only [ops_p1]
  after_results_simp
set_option maxRecDepth 4096 in
set_option maxHeartbeats 4000000 in
theorem p1_arg1 (V : Valuation τ sig (Elt F)) : after ops_p1 V ⟪main_arg1⟫ = V ⟪main_arg1⟫ := by
  simp only [ops_p1]
  after_results_simp
set_option maxRecDepth 4096 in
set_option maxHeartbeats 4000000 in
theorem p1_arg2 (V : Valuation τ sig (Elt F)) : after ops_p1 V ⟪main_arg2⟫ = V ⟪main_arg2⟫ := by
  simp only [ops_p1]
  after_results_simp
set_option maxRecDepth 4096 in
set_option maxHeartbeats 4000000 in
theorem p1_arg3 (V : Valuation τ sig (Elt F)) : after ops_p1 V ⟪main_arg3⟫ = V ⟪main_arg3⟫ := by
  simp only [ops_p1]
  after_results_simp
set_option maxRecDepth 4096 in
set_option maxHeartbeats 4000000 in
theorem p1_arg4 (V : Valuation τ sig (Elt F)) : after ops_p1 V ⟪main_arg4⟫ = V ⟪main_arg4⟫ := by
  simp only [ops_p1]
  after_results_simp
set_option maxRecDepth 4096 in
set_option maxHeartbeats 4000000 in
theorem p1_arg5 (V : Valuation τ sig (Elt F)) : after ops_p1 V ⟪main_arg5⟫ = V ⟪main_arg5⟫ := by
  simp only [ops_p1]
  after_results_simp
set_option maxRecDepth 4096 in
set_option maxHeartbeats 4000000 in
theorem p1_arg6 (V : Valuation τ sig (Elt F)) : after ops_p1 V ⟪main_arg6⟫ = V ⟪main_arg6⟫ := by
  simp only [ops_p1]
  after_results_simp
set_option maxRecDepth 4096 in
set_option maxHeartbeats 4000000 in
theorem p1_arg7 (V : Valuation τ sig (Elt F)) : after ops_p1 V ⟪main_arg7⟫ = V ⟪main_arg7⟫ := by
  simp only [ops_p1]
  after_results_simp
set_option maxRecDepth 4096 in
set_option maxHeartbeats 4000000 in
theorem p1_arg8 (V : Valuation τ sig (Elt F)) : after ops_p1 V ⟪main_arg8⟫ = V ⟪main_arg8⟫ := by
  simp only [ops_p1]
  after_results_simp
set_option maxRecDepth 4096 in
set_option maxHeartbeats 4000000 in
theorem p1_arg9 (V : Valuation τ sig (Elt F)) : after ops_p1 V ⟪main_arg9⟫ = V ⟪main_arg9⟫ := by
  simp only [ops_p1]
  after_results_simp
set_option maxRecDepth 4096 in
set_option maxHeartbeats 4000000 in
theorem p1_arg10 (V : Valuation τ sig (Elt F)) : after ops_p1 V ⟪main_arg10⟫ = V ⟪main_arg10⟫ := by
  simp only [ops_p1]
  after_results_simp
set_option maxRecDepth 4096 in
set_option maxHeartbeats 4000000 in
theorem p1_arg11 (V : Valuation τ sig (Elt F)) : after ops_p1 V ⟪main_arg11⟫ = V ⟪main_arg11⟫ := by
  simp only [ops_p1]
  after_results_simp
set_option maxRecDepth 4096 in
set_option maxHeartbeats 4000000 in
theorem p1_arg12 (V : Valuation τ sig (Elt F)) : after ops_p1 V ⟪main_arg12⟫ = V ⟪main_arg12⟫ := by
  simp only [ops_p1]
  after_results_simp
set_option maxRecDepth 4096 in
set_option maxHeartbeats 4000000 in
theorem p1_arg13 (V : Valuation τ sig (Elt F)) : after ops_p1 V ⟪main_arg13⟫ = V ⟪main_arg13⟫ := by
  simp only [ops_p1]
  after_results_simp

/-! ## The third window: the batch rows and the losses -/

set_option maxRecDepth 4096 in
set_option maxHeartbeats 4000000 in
theorem p2_v131 (V : Valuation τ sig (Elt F)) :
    after ops_p2 V ⟪main_v131⟫ = Terms.mfLoss (Terms.userRows (addf (V ⟪main_v82⟫) (V ⟪main_v100⟫)) (V ⟪main_arg11⟫)) (Terms.itemRows (V ⟪main_v24⟫) (V ⟪main_arg12⟫)) (Terms.itemRows (V ⟪main_v24⟫) (V ⟪main_arg13⟫)) := by
  simp only [ops_p2]
  after_results_simp
  rfl
set_option maxRecDepth 4096 in
set_option maxHeartbeats 4000000 in
theorem p2_v142 (V : Valuation τ sig (Elt F)) :
    after ops_p2 V ⟪main_v142⟫ = Terms.embLoss (Terms.userRows (addf (V ⟪main_v82⟫) (V ⟪main_v100⟫)) (V ⟪main_arg11⟫)) (Terms.itemRows (V ⟪main_v24⟫) (V ⟪main_arg12⟫)) (Terms.itemRows (V ⟪main_v24⟫) (V ⟪main_arg13⟫)) := by
  simp only [ops_p2]
  after_results_simp
  rfl
set_option maxRecDepth 4096 in
set_option maxHeartbeats 4000000 in
theorem p2_v143 (V : Valuation τ sig (Elt F)) :
    after ops_p2 V ⟪main_v143⟫ = Terms.totalLoss (Terms.userRows (addf (V ⟪main_v82⟫) (V ⟪main_v100⟫)) (V ⟪main_arg11⟫)) (Terms.itemRows (V ⟪main_v24⟫) (V ⟪main_arg12⟫)) (Terms.itemRows (V ⟪main_v24⟫) (V ⟪main_arg13⟫)) := by
  simp only [ops_p2]
  after_results_simp
  rfl

/-! The window writes no argument. -/

set_option maxRecDepth 4096 in
set_option maxHeartbeats 4000000 in
theorem p2_arg0 (V : Valuation τ sig (Elt F)) : after ops_p2 V ⟪main_arg0⟫ = V ⟪main_arg0⟫ := by
  simp only [ops_p2]
  after_results_simp
set_option maxRecDepth 4096 in
set_option maxHeartbeats 4000000 in
theorem p2_arg1 (V : Valuation τ sig (Elt F)) : after ops_p2 V ⟪main_arg1⟫ = V ⟪main_arg1⟫ := by
  simp only [ops_p2]
  after_results_simp
set_option maxRecDepth 4096 in
set_option maxHeartbeats 4000000 in
theorem p2_arg2 (V : Valuation τ sig (Elt F)) : after ops_p2 V ⟪main_arg2⟫ = V ⟪main_arg2⟫ := by
  simp only [ops_p2]
  after_results_simp
set_option maxRecDepth 4096 in
set_option maxHeartbeats 4000000 in
theorem p2_arg3 (V : Valuation τ sig (Elt F)) : after ops_p2 V ⟪main_arg3⟫ = V ⟪main_arg3⟫ := by
  simp only [ops_p2]
  after_results_simp
set_option maxRecDepth 4096 in
set_option maxHeartbeats 4000000 in
theorem p2_arg4 (V : Valuation τ sig (Elt F)) : after ops_p2 V ⟪main_arg4⟫ = V ⟪main_arg4⟫ := by
  simp only [ops_p2]
  after_results_simp
set_option maxRecDepth 4096 in
set_option maxHeartbeats 4000000 in
theorem p2_arg5 (V : Valuation τ sig (Elt F)) : after ops_p2 V ⟪main_arg5⟫ = V ⟪main_arg5⟫ := by
  simp only [ops_p2]
  after_results_simp
set_option maxRecDepth 4096 in
set_option maxHeartbeats 4000000 in
theorem p2_arg6 (V : Valuation τ sig (Elt F)) : after ops_p2 V ⟪main_arg6⟫ = V ⟪main_arg6⟫ := by
  simp only [ops_p2]
  after_results_simp
set_option maxRecDepth 4096 in
set_option maxHeartbeats 4000000 in
theorem p2_arg7 (V : Valuation τ sig (Elt F)) : after ops_p2 V ⟪main_arg7⟫ = V ⟪main_arg7⟫ := by
  simp only [ops_p2]
  after_results_simp
set_option maxRecDepth 4096 in
set_option maxHeartbeats 4000000 in
theorem p2_arg8 (V : Valuation τ sig (Elt F)) : after ops_p2 V ⟪main_arg8⟫ = V ⟪main_arg8⟫ := by
  simp only [ops_p2]
  after_results_simp
set_option maxRecDepth 4096 in
set_option maxHeartbeats 4000000 in
theorem p2_arg9 (V : Valuation τ sig (Elt F)) : after ops_p2 V ⟪main_arg9⟫ = V ⟪main_arg9⟫ := by
  simp only [ops_p2]
  after_results_simp
set_option maxRecDepth 4096 in
set_option maxHeartbeats 4000000 in
theorem p2_arg10 (V : Valuation τ sig (Elt F)) : after ops_p2 V ⟪main_arg10⟫ = V ⟪main_arg10⟫ := by
  simp only [ops_p2]
  after_results_simp
set_option maxRecDepth 4096 in
set_option maxHeartbeats 4000000 in
theorem p2_arg11 (V : Valuation τ sig (Elt F)) : after ops_p2 V ⟪main_arg11⟫ = V ⟪main_arg11⟫ := by
  simp only [ops_p2]
  after_results_simp
set_option maxRecDepth 4096 in
set_option maxHeartbeats 4000000 in
theorem p2_arg12 (V : Valuation τ sig (Elt F)) : after ops_p2 V ⟪main_arg12⟫ = V ⟪main_arg12⟫ := by
  simp only [ops_p2]
  after_results_simp
set_option maxRecDepth 4096 in
set_option maxHeartbeats 4000000 in
theorem p2_arg13 (V : Valuation τ sig (Elt F)) : after ops_p2 V ⟪main_arg13⟫ = V ⟪main_arg13⟫ := by
  simp only [ops_p2]
  after_results_simp

/-! ## The whole list: the three windows one after the other -/

theorem out_v143 (V : Valuation τ sig (Elt F)) :
    after ops V ⟪main_v143⟫ = Terms.outTotal (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) := by
  show after (ops_p0 ++ ops_p1 ++ ops_p2) V ⟪main_v143⟫ = _
  rw [after_append, after_append, p2_v143, p1_v82, p1_v100, p1_v24, p1_arg11, p1_arg12, p1_arg13,
    p0_v24, p0_v26, p0_v28, p0_v37, p0_v44, p0_v50, p0_arg0, p0_arg11, p0_arg12, p0_arg13]
  simp only [hopOf_eq]
  rfl
theorem out_v131 (V : Valuation τ sig (Elt F)) :
    after ops V ⟪main_v131⟫ = Terms.outMf (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) := by
  show after (ops_p0 ++ ops_p1 ++ ops_p2) V ⟪main_v131⟫ = _
  rw [after_append, after_append, p2_v131, p1_v82, p1_v100, p1_v24, p1_arg11, p1_arg12, p1_arg13,
    p0_v24, p0_v26, p0_v28, p0_v37, p0_v44, p0_v50, p0_arg0, p0_arg11, p0_arg12, p0_arg13]
  simp only [hopOf_eq]
  rfl
theorem out_v142 (V : Valuation τ sig (Elt F)) :
    after ops V ⟪main_v142⟫ = Terms.outEmb (V ⟪main_arg0⟫) (V ⟪main_arg1⟫) (V ⟪main_arg2⟫) (V ⟪main_arg3⟫) (V ⟪main_arg4⟫) (V ⟪main_arg5⟫) (V ⟪main_arg6⟫) (V ⟪main_arg7⟫) (V ⟪main_arg8⟫) (V ⟪main_arg9⟫) (V ⟪main_arg10⟫) (V ⟪main_arg11⟫) (V ⟪main_arg12⟫) (V ⟪main_arg13⟫) := by
  show after (ops_p0 ++ ops_p1 ++ ops_p2) V ⟪main_v142⟫ = _
  rw [after_append, after_append, p2_v142, p1_v82, p1_v100, p1_v24, p1_arg11, p1_arg12, p1_arg13,
    p0_v24, p0_v26, p0_v28, p0_v37, p0_v44, p0_v50, p0_arg0, p0_arg11, p0_arg12, p0_arg13]
  simp only [hopOf_eq]
  rfl
theorem out_arg0 (V : Valuation τ sig (Elt F)) : after ops V ⟪main_arg0⟫ = V ⟪main_arg0⟫ := by
  show after (ops_p0 ++ ops_p1 ++ ops_p2) V ⟪main_arg0⟫ = _
  rw [after_append, after_append, p2_arg0, p1_arg0, p0_arg0]
theorem out_arg1 (V : Valuation τ sig (Elt F)) : after ops V ⟪main_arg1⟫ = V ⟪main_arg1⟫ := by
  show after (ops_p0 ++ ops_p1 ++ ops_p2) V ⟪main_arg1⟫ = _
  rw [after_append, after_append, p2_arg1, p1_arg1, p0_arg1]
theorem out_arg2 (V : Valuation τ sig (Elt F)) : after ops V ⟪main_arg2⟫ = V ⟪main_arg2⟫ := by
  show after (ops_p0 ++ ops_p1 ++ ops_p2) V ⟪main_arg2⟫ = _
  rw [after_append, after_append, p2_arg2, p1_arg2, p0_arg2]
theorem out_arg3 (V : Valuation τ sig (Elt F)) : after ops V ⟪main_arg3⟫ = V ⟪main_arg3⟫ := by
  show after (ops_p0 ++ ops_p1 ++ ops_p2) V ⟪main_arg3⟫ = _
  rw [after_append, after_append, p2_arg3, p1_arg3, p0_arg3]
theorem out_arg4 (V : Valuation τ sig (Elt F)) : after ops V ⟪main_arg4⟫ = V ⟪main_arg4⟫ := by
  show after (ops_p0 ++ ops_p1 ++ ops_p2) V ⟪main_arg4⟫ = _
  rw [after_append, after_append, p2_arg4, p1_arg4, p0_arg4]
theorem out_arg5 (V : Valuation τ sig (Elt F)) : after ops V ⟪main_arg5⟫ = V ⟪main_arg5⟫ := by
  show after (ops_p0 ++ ops_p1 ++ ops_p2) V ⟪main_arg5⟫ = _
  rw [after_append, after_append, p2_arg5, p1_arg5, p0_arg5]
theorem out_arg6 (V : Valuation τ sig (Elt F)) : after ops V ⟪main_arg6⟫ = V ⟪main_arg6⟫ := by
  show after (ops_p0 ++ ops_p1 ++ ops_p2) V ⟪main_arg6⟫ = _
  rw [after_append, after_append, p2_arg6, p1_arg6, p0_arg6]
theorem out_arg7 (V : Valuation τ sig (Elt F)) : after ops V ⟪main_arg7⟫ = V ⟪main_arg7⟫ := by
  show after (ops_p0 ++ ops_p1 ++ ops_p2) V ⟪main_arg7⟫ = _
  rw [after_append, after_append, p2_arg7, p1_arg7, p0_arg7]
theorem out_arg8 (V : Valuation τ sig (Elt F)) : after ops V ⟪main_arg8⟫ = V ⟪main_arg8⟫ := by
  show after (ops_p0 ++ ops_p1 ++ ops_p2) V ⟪main_arg8⟫ = _
  rw [after_append, after_append, p2_arg8, p1_arg8, p0_arg8]
theorem out_arg9 (V : Valuation τ sig (Elt F)) : after ops V ⟪main_arg9⟫ = V ⟪main_arg9⟫ := by
  show after (ops_p0 ++ ops_p1 ++ ops_p2) V ⟪main_arg9⟫ = _
  rw [after_append, after_append, p2_arg9, p1_arg9, p0_arg9]
theorem out_arg10 (V : Valuation τ sig (Elt F)) : after ops V ⟪main_arg10⟫ = V ⟪main_arg10⟫ := by
  show after (ops_p0 ++ ops_p1 ++ ops_p2) V ⟪main_arg10⟫ = _
  rw [after_append, after_append, p2_arg10, p1_arg10, p0_arg10]
theorem out_arg11 (V : Valuation τ sig (Elt F)) : after ops V ⟪main_arg11⟫ = V ⟪main_arg11⟫ := by
  show after (ops_p0 ++ ops_p1 ++ ops_p2) V ⟪main_arg11⟫ = _
  rw [after_append, after_append, p2_arg11, p1_arg11, p0_arg11]
theorem out_arg12 (V : Valuation τ sig (Elt F)) : after ops V ⟪main_arg12⟫ = V ⟪main_arg12⟫ := by
  show after (ops_p0 ++ ops_p1 ++ ops_p2) V ⟪main_arg12⟫ = _
  rw [after_append, after_append, p2_arg12, p1_arg12, p0_arg12]
theorem out_arg13 (V : Valuation τ sig (Elt F)) : after ops V ⟪main_arg13⟫ = V ⟪main_arg13⟫ := by
  show after (ops_p0 ++ ops_p1 ++ ops_p2) V ⟪main_arg13⟫ = _
  rw [after_append, after_append, p2_arg13, p1_arg13, p0_arg13]

/-- Every weakly fair execution of the reference terminates with its three results at the named functions of the
    arguments' launch contents, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v143) = Terms.outTotal (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread nD τ).loc main_v131) = Terms.outMf (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread nD τ).loc main_v142) = Terms.outEmb (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13) := by
  refine (θ_run defs _ _).mono (fun r h c => ?_) (Run.run_main m ρ)
  exact ⟨(h c main_v143).trans (out_v143 (launchContents m c)), (h c main_v131).trans (out_v131 (launchContents m c)),
    (h c main_v142).trans (out_v142 (launchContents m c)),
    (h c main_arg0).trans (out_arg0 (launchContents m c)),
    (h c main_arg1).trans (out_arg1 (launchContents m c)),
    (h c main_arg2).trans (out_arg2 (launchContents m c)),
    (h c main_arg3).trans (out_arg3 (launchContents m c)),
    (h c main_arg4).trans (out_arg4 (launchContents m c)),
    (h c main_arg5).trans (out_arg5 (launchContents m c)),
    (h c main_arg6).trans (out_arg6 (launchContents m c)),
    (h c main_arg7).trans (out_arg7 (launchContents m c)),
    (h c main_arg8).trans (out_arg8 (launchContents m c)),
    (h c main_arg9).trans (out_arg9 (launchContents m c)),
    (h c main_arg10).trans (out_arg10 (launchContents m c)),
    (h c main_arg11).trans (out_arg11 (launchContents m c)),
    (h c main_arg12).trans (out_arg12 (launchContents m c)),
    (h c main_arg13).trans (out_arg13 (launchContents m c))⟩

end Cert.ReferenceIdeal.RefValue

end
-- ==== Proof.PreRange.lean ====
/-
  What the precondition says of the edge types: its last conjunct is an and-reduction over all edges of
  `1 ≤ type ∧ type ≤ 15` (signed compares), so every edge's type lies in that range.
-/
import proofs.«421973_j75917841924564_2_alg».proof.Defs
import proofs.«421973_j75917841924564_2_alg».proof.Proof.Gen.Pre_finite_inputs
import Idealize.ShloMosaic.Lib.ReduceAll
import Idealize.ShloMosaic.Lib.StableHlo.Predicate
import Idealize.ShloMosaic.Lib.ValueIdx

noncomputable section

namespace Cert.Proof.PreRange

open Idealize.ShloMosaic Idealize.ShloMosaic.TcCoe Idealize.SL.Sem

/-- The scalar shape has one index. -/
instance : Subsingleton Cert.Pre_finite_inputs.S_.Idx := ⟨fun a b => funext fun d => d.elim0⟩

/-- A one-bit word made from a boolean is 1 exactly when the boolean holds. -/
private theorem ofBool_one (b : Bool) (h : BitVec.ofBool b = 1#1) : b = true := by
  cases b
  · exact absurd h (by decide)
  · rfl

/-- Under the kernel's precondition every edge type is between 1 and 15. -/
theorem type_range (m : (ℓ : Loc Cert.KernelIdeal.nD Cert.KernelIdeal.τ Cert.KernelIdeal.sig) → Buf (Elt Ideal) ℓ)
    (hpre : Cert.Pre_KernelIdeal m) (c : Dev Cert.KernelIdeal.nD) :
    ∀ i : Cert.KernelIdeal.S2000000.Idx, (1#32).sle ((m ((c.tc : Thread Cert.KernelIdeal.nD Cert.KernelIdeal.τ).loc Cert.KernelIdeal.main_arg10) : IVec Cert.KernelIdeal.S2000000 32) i) = true ∧ ((m ((c.tc : Thread Cert.KernelIdeal.nD Cert.KernelIdeal.τ).loc Cert.KernelIdeal.main_arg10) : IVec Cert.KernelIdeal.S2000000 32) i).sle 15#32 = true := by
  intro i
  -- the precondition at this device, read at the one index of its scalar result
  have e := congrFun (hpre c) ValueIdx.ix0
  dsimp only [Cert.Pre_finite_inputs.fn, Cert.Pre_finite_inputs.fn_part1, Cert.Pre_finite_inputs.fn_part2] at e
  -- its last conjunct: the and-reduction over all edges is 1
  have e2 := (IntOp.andi_eq_one.1 e).2
  -- so the reduced array is 1 at every edge
  have e3 := Host.reduce_andi_all _ _ _ _ _ e2 i
  -- at edge i: both signed compares against the broadcast constants are 1
  obtain ⟨h1, h2⟩ := IntOp.andi_eq_one.1 e3
  exact ⟨ofBool_one _ h1, ofBool_one _ h2⟩

end Cert.Proof.PreRange

end
-- ==== Proof.lean ====
/-
  The kernel program and the reference compute the same three losses. Both are the same functions of the fourteen
  argument arrays (Terms.lean): the item embedding, three propagation hops over the graph, and the two losses over
  the gathered batch rows. The kernel program's run leaves each result at the last segment boundary's contents
  (KRun.lean), which read back to those functions (KFold.lean) once every edge type is known to lie between 1 and 15
  (PreRange.lean, from the precondition): that range is what makes the kernel's one-hot product with the relation
  table the row the reference gathers. The reference's run is read back operation by operation to the same functions
  (RefValue.lean). The two word-level frames are the generated ones; the reference's frame is its run with the results
  dropped; the idealization rewrote nothing, so there is nothing to preserve.
-/
import proofs.«421973_j75917841924564_2_alg».proof.Defs
import proofs.«421973_j75917841924564_2_alg».proof.Proof.Gen.Kernel
import proofs.«421973_j75917841924564_2_alg».proof.Proof.Gen.Kernel.Skeleton
import proofs.«421973_j75917841924564_2_alg».proof.Proof.Gen.Kernel.Launch
import proofs.«421973_j75917841924564_2_alg».proof.Proof.Gen.Kernel.Points
import proofs.«421973_j75917841924564_2_alg».proof.Proof.Gen.Kernel.Frame
import proofs.«421973_j75917841924564_2_alg».proof.Proof.Gen.KernelIdeal
import proofs.«421973_j75917841924564_2_alg».proof.Proof.Gen.KernelIdeal.Skeleton
import proofs.«421973_j75917841924564_2_alg».proof.Proof.Gen.KernelIdeal.Launch
import proofs.«421973_j75917841924564_2_alg».proof.Proof.Gen.KernelIdeal.Points
import proofs.«421973_j75917841924564_2_alg».proof.Proof.Gen.KernelIdeal.Frame
import proofs.«421973_j75917841924564_2_alg».proof.Proof.Gen.ReferenceIdeal
import proofs.«421973_j75917841924564_2_alg».proof.Proof.Gen.Pre_finite_inputs
import proofs.«421973_j75917841924564_2_alg».proof.Proof.KRun
import proofs.«421973_j75917841924564_2_alg».proof.Proof.KFold
import proofs.«421973_j75917841924564_2_alg».proof.Proof.RefValue
import proofs.«421973_j75917841924564_2_alg».proof.Proof.PreRange
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its run, the three results dropped. -/
theorem frame_reference : Cert.frame_ReferenceIdeal := fun m ρ _ =>
  (θ_run Cert.ReferenceIdeal.defs _ _).mono (fun _ h c => (h c).2.2.2) (Cert.ReferenceIdeal.RefValue.run (F := Ideal) m ρ)

/-- Both programs end with the three losses at the same functions of the arguments. -/
theorem algebraic : Cert.algebraic_KernelIdeal_ReferenceIdeal := by
  intro m ρ m' ρ' hpre hagree
  refine ⟨fun c => Cert.ReferenceIdeal.Terms.outTotal (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Terms.outMf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)),
    fun c => Cert.ReferenceIdeal.Terms.outEmb (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · refine (θ_run Cert.KernelIdeal.defs _ _).mono (fun r h c => ?_) (Cert.KernelIdeal.Gen.run_results (F := Ideal) m ρ)
    obtain ⟨h1, h2, h3, hargs⟩ := h c
    exact ⟨h1.trans (Cert.KernelIdeal.Value.W16_total m ρ c (Cert.Proof.PreRange.type_range m hpre c)),
      h2.trans (Cert.KernelIdeal.Value.W16_mf m ρ c (Cert.Proof.PreRange.type_range m hpre c)),
      h3.trans (Cert.KernelIdeal.Value.W16_emb m ρ c (Cert.Proof.PreRange.type_range m hpre c)), hargs⟩
  · refine (θ_run Cert.ReferenceIdeal.defs _ _).mono (fun r h c => ?_) (Cert.ReferenceIdeal.RefValue.run (F := Ideal) m' ρ')
    obtain ⟨h1, h2, h3, hargs⟩ := h c
    obtain ⟨e0, e1, e2, e3, e4, e5, e6, e7, e8, e9, e10, e11, e12, e13⟩ := hagree c
    refine ⟨?_, ?_, ?_, hargs⟩
    · rw [h1, e0, e1, e2, e3, e4, e5, e6, e7, e8, e9, e10, e11, e12, e13]
    · rw [h2, e0, e1, e2, e3, e4, e5, e6, e7, e8, e9, e10, e11, e12, e13]
    · rw [h3, e0, e1, e2, e3, e4, e5, e6, e7, e8, e9, e10, e11, e12, e13]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
